-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x196x768 : Shape := ⟨4, ![8, 16, 196, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x16x196x768 : S_.BroadcastsInDim S8x16x196x768 (![] : Fin 0 → Fin S8x16x196x768.rank)
  reducesTo_S8x16x196x768_S_d0_1_2_3 : S8x16x196x768.ReducesTo [0, 1, 2, 3] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x16x196x768 .f32) (main_arg1 : FVec F S2304x768 .f32) (main_arg2 : FVec F S768x768 .f32) (main_arg3 : FVec F S768 .f32) : IVec S_ 1 :=
  let main_v0 : FVec F S8x16x196x768 .f32 := Host.absf main_arg0
  let main_cst : FVec F S_ .f32 := constant S_ .f32 0x7F800000#32
  let main_v1 : FVec F S8x16x196x768 .f32 := broadcastInDim S8x16x196x768 ![] bcast_S_S8x16x196x768 main_cst
  let main_v2 : IVec S8x16x196x768 1 := cmpf .olt main_v0 main_v1
  let main_c : IVec S_ 1 := constantI S_ 1 1#1
  let main_v3 : IVec S_ 1 := (fun x v => Host.reduce IntOp.andi x v reducesTo_S8x16x196x768_S_d0_1_2_3 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x16x196x768 : Shape := ⟨4, ![8, 16, 196, 768]⟩
abbrev S2304x768 : Shape := ⟨2, ![2304, 768]⟩
abbrev S768x768 : Shape := ⟨2, ![768, 768]⟩
abbrev S768 : Shape := ⟨1, ![768]⟩
abbrev S25088x768 : Shape := ⟨2, ![25088, 768]⟩
abbrev S768x2304 : Shape := ⟨2, ![768, 2304]⟩
abbrev S25088x2304 : Shape := ⟨2, ![25088, 2304]⟩
abbrev S512x768 : Shape := ⟨2, ![512, 768]⟩
abbrev S512x2304 : Shape := ⟨2, ![512, 2304]⟩
abbrev S8x3136x3x12x64 : Shape := ⟨5, ![8, 3136, 3, 12, 64]⟩
abbrev S3x8x12x3136x64 : Shape := ⟨5, ![3, 8, 12, 3136, 64]⟩
abbrev S1x8x12x3136x64 : Shape := ⟨5, ![1, 8, 12, 3136, 64]⟩
abbrev S8x12x3136x64 : Shape := ⟨4, ![8, 12, 3136, 64]⟩
abbrev S8x6x3136x64 : Shape := ⟨4, ![8, 6, 3136, 64]⟩
abbrev S128x6x196x64 : Shape := ⟨4, ![128, 6, 196, 64]⟩
abbrev S1x6x196x64 : Shape := ⟨4, ![1, 6, 196, 64]⟩
abbrev S6x196x64 : Shape := ⟨3, ![6, 196, 64]⟩
abbrev S6x196x196 : Shape := ⟨3, ![6, 196, 196]⟩
abbrev S6x196 : Shape := ⟨2, ![6, 196]⟩
abbrev S6x196x1 : Shape := ⟨3, ![6, 196, 1]⟩
abbrev S1568x6x16x64 : Shape := ⟨4, ![1568, 6, 16, 64]⟩
abbrev S56x6x16x64 : Shape := ⟨4, ![56, 6, 16, 64]⟩
abbrev S336x16x64 : Shape := ⟨3, ![336, 16, 64]⟩
abbrev S336x16x16 : Shape := ⟨3, ![336, 16, 16]⟩
abbrev S336x16 : Shape := ⟨2, ![336, 16]⟩
abbrev S336x16x1 : Shape := ⟨3, ![336, 16, 1]⟩
abbrev S8x3136x12x64 : Shape := ⟨4, ![8, 3136, 12, 64]⟩
abbrev S8x3136x768 : Shape := ⟨3, ![8, 3136, 768]⟩
abbrev S1x768 : Shape := ⟨2, ![1, 768]⟩

abbrev nBuf : Space → Nat
  | .hbm => 41
  | .vmem => 27
  | .smem => 0
  | _ => 0

abbrev bufTy : (tb : Table) → Fin (tcTables nBuf tb) → BufTy
  | .hbm, ⟨0, _⟩ => ⟨S8x16x196x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S25088x768, .f32⟩
  | .hbm, ⟨5, _⟩ => ⟨S768x2304, .f32⟩
  | .hbm, ⟨6, _⟩ => ⟨S768x2304, .bf16⟩
  | .hbm, ⟨7, _⟩ => ⟨S25088x2304, .bf16⟩
  | .hbm, ⟨8, _⟩ => ⟨S8x3136x3x12x64, .bf16⟩
  | .hbm, ⟨9, _⟩ => ⟨S3x8x12x3136x64, .bf16⟩
  | .hbm, ⟨10, _⟩ => ⟨S1x8x12x3136x64, .bf16⟩
  | .hbm, ⟨11, _⟩ => ⟨S8x12x3136x64, .bf16⟩
  | .hbm, ⟨12, _⟩ => ⟨S1x8x12x3136x64, .bf16⟩
  | .hbm, ⟨13, _⟩ => ⟨S8x12x3136x64, .bf16⟩
  | .hbm, ⟨14, _⟩ => ⟨S1x8x12x3136x64, .bf16⟩
  | .hbm, ⟨15, _⟩ => ⟨S8x12x3136x64, .bf16⟩
  | .hbm, ⟨16, _⟩ => ⟨S8x6x3136x64, .bf16⟩
  | .hbm, ⟨17, _⟩ => ⟨S8x6x3136x64, .bf16⟩
  | .hbm, ⟨18, _⟩ => ⟨S8x6x3136x64, .bf16⟩
  | .hbm, ⟨19, _⟩ => ⟨S8x6x3136x64, .bf16⟩
  | .hbm, ⟨20, _⟩ => ⟨S8x6x3136x64, .bf16⟩
  | .hbm, ⟨21, _⟩ => ⟨S8x6x3136x64, .bf16⟩
  | .hbm, ⟨22, _⟩ => ⟨S128x6x196x64, .bf16⟩
  | .hbm, ⟨23, _⟩ => ⟨S128x6x196x64, .bf16⟩
  | .hbm, ⟨24, _⟩ => ⟨S128x6x196x64, .bf16⟩
  | .hbm, ⟨25, _⟩ => ⟨S128x6x196x64, .bf16⟩
  | .hbm, ⟨26, _⟩ => ⟨S1568x6x16x64, .bf16⟩
  | .hbm, ⟨27, _⟩ => ⟨S1568x6x16x64, .bf16⟩
  | .hbm, ⟨28, _⟩ => ⟨S1568x6x16x64, .bf16⟩
  | .hbm, ⟨29, _⟩ => ⟨S1568x6x16x64, .bf16⟩
  | .hbm, ⟨30, _⟩ => ⟨S8x6x3136x64, .bf16⟩
  | .hbm, ⟨31, _⟩ => ⟨S8x6x3136x64, .bf16⟩
  | .hbm, ⟨32, _⟩ => ⟨S8x12x3136x64, .bf16⟩
  | .hbm, ⟨33, _⟩ => ⟨S8x3136x12x64, .bf16⟩
  | .hbm, ⟨34, _⟩ => ⟨S8x3136x768, .bf16⟩
  | .hbm, ⟨35, _⟩ => ⟨S25088x768, .bf16⟩
  | .hbm, ⟨36, _⟩ => ⟨S768x768, .f32⟩
  | .hbm, ⟨37, _⟩ => ⟨S768x768, .bf16⟩
  | .hbm, ⟨38, _⟩ => ⟨S1x768, .f32⟩
  | .hbm, ⟨39, _⟩ => ⟨S25088x768, .f32⟩
  | .hbm, ⟨40, _⟩ => ⟨S8x16x196x768, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S512x2304, .bf16⟩
  | .local _ .vmem, ⟨4, _⟩ => ⟨S512x2304, .bf16⟩
  | .local _ .vmem, ⟨5, _⟩ => ⟨S1x6x196x64, .bf16⟩
  | .local _ .vmem, ⟨6, _⟩ => ⟨S1x6x196x64, .bf16⟩
  | .local _ .vmem, ⟨7, _⟩ => ⟨S1x6x196x64, .bf16⟩
  | .local _ .vmem, ⟨8, _⟩ => ⟨S1x6x196x64, .bf16⟩
  | .local _ .vmem, ⟨9, _⟩ => ⟨S1x6x196x64, .bf16⟩
  | .local _ .vmem, ⟨10, _⟩ => ⟨S1x6x196x64, .bf16⟩
  | .local _ .vmem, ⟨11, _⟩ => ⟨S1x6x196x64, .bf16⟩
  | .local _ .vmem, ⟨12, _⟩ => ⟨S1x6x196x64, .bf16⟩
  | .local _ .vmem, ⟨13, _⟩ => ⟨S56x6x16x64, .bf16⟩
  | .local _ .vmem, ⟨14, _⟩ => ⟨S56x6x16x64, .bf16⟩
  | .local _ .vmem, ⟨15, _⟩ => ⟨S56x6x16x64, .bf16⟩
  | .local _ .vmem, ⟨16, _⟩ => ⟨S56x6x16x64, .bf16⟩
  | .local _ .vmem, ⟨17, _⟩ => ⟨S56x6x16x64, .bf16⟩
  | .local _ .vmem, ⟨18, _⟩ => ⟨S56x6x16x64, .bf16⟩
  | .local _ .vmem, ⟨19, _⟩ => ⟨S56x6x16x64, .bf16⟩
  | .local _ .vmem, ⟨20, _⟩ => ⟨S56x6x16x64, .bf16⟩
  | .local _ .vmem, ⟨21, _⟩ => ⟨S512x768, .bf16⟩
  | .local _ .vmem, ⟨22, _⟩ => ⟨S512x768, .bf16⟩
  | .local _ .vmem, ⟨23, _⟩ => ⟨S768x768, .bf16⟩
  | .local _ .vmem, ⟨24, _⟩ => ⟨S1x768, .f32⟩
  | .local _ .vmem, ⟨25, _⟩ => ⟨S512x768, .f32⟩
  | .local _ .vmem, ⟨26, _⟩ => ⟨S512x768, .f32⟩
  | _, _ => ⟨S8x16x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x6x196x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x6x196x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x6x196x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x6x196x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![28], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S56x6x16x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S56x6x16x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S56x6x16x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S56x6x16x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x768 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S768x768 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S8x16x196x768_S25088x768 : S8x16x196x768.ShapeCasts S25088x768
  transposes_S2304x768_S768x2304_1_0 : S2304x768.Transposes [1, 0] S768x2304
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  shapeCasts_S25088x2304_S8x3136x3x12x64 : S25088x2304.ShapeCasts S8x3136x3x12x64
  transposes_S8x3136x3x12x64_S3x8x12x3136x64_2_0_3_1_4 : S8x3136x3x12x64.Transposes [2, 0, 3, 1, 4] S3x8x12x3136x64
  slices_S3x8x12x3136x64_S1x8x12x3136x64_0_0_0_0_0 : S3x8x12x3136x64.Slices ![0, 0, 0, 0, 0] S1x8x12x3136x64
  shapeCasts_S1x8x12x3136x64_S8x12x3136x64 : S1x8x12x3136x64.ShapeCasts S8x12x3136x64
  slices_S3x8x12x3136x64_S1x8x12x3136x64_1_0_0_0_0 : S3x8x12x3136x64.Slices ![1, 0, 0, 0, 0] S1x8x12x3136x64
  slices_S3x8x12x3136x64_S1x8x12x3136x64_2_0_0_0_0 : S3x8x12x3136x64.Slices ![2, 0, 0, 0, 0] S1x8x12x3136x64
  slices_S8x12x3136x64_S8x6x3136x64_0_0_0_0 : S8x12x3136x64.Slices ![0, 0, 0, 0] S8x6x3136x64
  slices_S8x12x3136x64_S8x6x3136x64_0_6_0_0 : S8x12x3136x64.Slices ![0, 6, 0, 0] S8x6x3136x64
  shapeCasts_S8x6x3136x64_S128x6x196x64 : S8x6x3136x64.ShapeCasts S128x6x196x64
  inb_S1x6x196x64_S1x6x196x64_0_0_0_0 : ∀ a, (![0, 0, 0, 0] : Fin 4 → Nat) a + S1x6x196x64.size a ≤ S1x6x196x64.size a
  h_S1x6x196x64 : 0 < S1x6x196x64.numel
  shapeCasts_S1x6x196x64_S6x196x64 : S1x6x196x64.ShapeCasts S6x196x64
  reduces_S6x196x196_S6x196 : S6x196x196.Reduces [2] S6x196
  shapeCasts_S6x196_S6x196x1 : S6x196.ShapeCasts S6x196x1
  broadcasts_S6x196x1_S6x196x196 : S6x196x1.Broadcasts S6x196x196
  shapeCasts_S6x196x64_S1x6x196x64 : S6x196x64.ShapeCasts S1x6x196x64
  packedbf16_S1x6x196x64_S1x6x196x64_0_0_0_0 : (Rect.unit (s := S1x6x196x64) ![0, 0, 0, 0] S1x6x196x64.size inb_S1x6x196x64_S1x6x196x64_0_0_0_0).PackedRows (EltTy.packing .bf16)
  shapeCasts_S8x6x3136x64_S1568x6x16x64 : S8x6x3136x64.ShapeCasts S1568x6x16x64
  inb_S56x6x16x64_S56x6x16x64_0_0_0_0 : ∀ a, (![0, 0, 0, 0] : Fin 4 → Nat) a + S56x6x16x64.size a ≤ S56x6x16x64.size a
  h_S56x6x16x64 : 0 < S56x6x16x64.numel
  shapeCasts_S56x6x16x64_S56x6x16x64 : S56x6x16x64.ShapeCasts S56x6x16x64
  shapeCasts_S56x6x16x64_S336x16x64 : S56x6x16x64.ShapeCasts S336x16x64
  reduces_S336x16x16_S336x16 : S336x16x16.Reduces [2] S336x16
  shapeCasts_S336x16_S336x16x1 : S336x16.ShapeCasts S336x16x1
  broadcasts_S336x16x1_S336x16x16 : S336x16x1.Broadcasts S336x16x16
  shapeCasts_S336x16x64_S56x6x16x64 : S336x16x64.ShapeCasts S56x6x16x64
  packedbf16_S56x6x16x64_S56x6x16x64_0_0_0_0 : (Rect.unit (s := S56x6x16x64) ![0, 0, 0, 0] S56x6x16x64.size inb_S56x6x16x64_S56x6x16x64_0_0_0_0).PackedRows (EltTy.packing .bf16)
  shapeCasts_S128x6x196x64_S8x6x3136x64 : S128x6x196x64.ShapeCasts S8x6x3136x64
  shapeCasts_S1568x6x16x64_S8x6x3136x64 : S1568x6x16x64.ShapeCasts S8x6x3136x64
  concatenates_S8x6x3136x64_S8x6x3136x64_S8x12x3136x64_d1 : Shape.Concatenates [S8x6x3136x64, S8x6x3136x64] S8x12x3136x64 1
  transposes_S8x12x3136x64_S8x3136x12x64_0_2_1_3 : S8x12x3136x64.Transposes [0, 2, 1, 3] S8x3136x12x64
  shapeCasts_S8x3136x12x64_S8x3136x768 : S8x3136x12x64.ShapeCasts S8x3136x768
  shapeCasts_S8x3136x768_S25088x768 : S8x3136x768.ShapeCasts S25088x768
  transposes_S768x768_S768x768_1_0 : S768x768.Transposes [1, 0] S768x768
  shapeCasts_S768_S1x768 : S768.ShapeCasts S1x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S25088x768_S8x16x196x768 : S25088x768.ShapeCasts S8x16x196x768
  dot_S512x768_S768x2304_S512x2304_1_0_0_1_n_n_wf : DotDims.WF S512x768 S768x2304 S512x2304 [1] [0] [0] [1] [] []
  dot_S6x196x64_S6x196x64_S6x196x196_2_2_1_1_0_0_wf : DotDims.WF S6x196x64 S6x196x64 S6x196x196 [2] [2] [1] [1] [0] [0]
  dot_S6x196x196_S6x196x64_S6x196x64_2_1_1_2_0_0_wf : DotDims.WF S6x196x196 S6x196x64 S6x196x64 [2] [1] [1] [2] [0] [0]
  dot_S336x16x64_S336x16x64_S336x16x16_2_2_1_1_0_0_wf : DotDims.WF S336x16x64 S336x16x64 S336x16x16 [2] [2] [1] [1] [0] [0]
  dot_S336x16x16_S336x16x64_S336x16x64_2_1_1_2_0_0_wf : DotDims.WF S336x16x16 S336x16x64 S336x16x64 [2] [1] [1] [2] [0] [0]
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S25088x768.size a
  hwx0_0 : ∀ i : grid0.Coords, EltTy.bits .f32 = 32 ∨ (Rect.block (s := S25088x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2304.size a ≤ S25088x2304.size a
  hwx0_2 : ∀ i : grid0.Coords, EltTy.bits .bf16 = 32 ∨ (Rect.block (s := S25088x2304) S512x2304.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x6x196x64.size a ≤ S128x6x196x64.size a
  hwx1_0 : ∀ i : grid1.Coords, EltTy.bits .bf16 = 32 ∨ (Rect.block (s := S128x6x196x64) S1x6x196x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x6x196x64.size a ≤ S128x6x196x64.size a
  hwx1_1 : ∀ i : grid1.Coords, EltTy.bits .bf16 = 32 ∨ (Rect.block (s := S128x6x196x64) S1x6x196x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x6x196x64.size a ≤ S128x6x196x64.size a
  hwx1_2 : ∀ i : grid1.Coords, EltTy.bits .bf16 = 32 ∨ (Rect.block (s := S128x6x196x64) S1x6x196x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x6x196x64.size a ≤ S128x6x196x64.size a
  hwx1_3 : ∀ i : grid1.Coords, EltTy.bits .bf16 = 32 ∨ (Rect.block (s := S128x6x196x64) S1x6x196x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S56x6x16x64.size a ≤ S1568x6x16x64.size a
  hwx2_0 : ∀ i : grid2.Coords, EltTy.bits .bf16 = 32 ∨ (Rect.block (s := S1568x6x16x64) S56x6x16x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S56x6x16x64.size a ≤ S1568x6x16x64.size a
  hwx2_1 : ∀ i : grid2.Coords, EltTy.bits .bf16 = 32 ∨ (Rect.block (s := S1568x6x16x64) S56x6x16x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S56x6x16x64.size a ≤ S1568x6x16x64.size a
  hwx2_2 : ∀ i : grid2.Coords, EltTy.bits .bf16 = 32 ∨ (Rect.block (s := S1568x6x16x64) S56x6x16x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S56x6x16x64.size a ≤ S1568x6x16x64.size a
  hwx2_3 : ∀ i : grid2.Coords, EltTy.bits .bf16 = 32 ∨ (Rect.block (s := S1568x6x16x64) S56x6x16x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x768.size a ≤ S25088x768.size a
  hwx3_0 : ∀ i : grid3.Coords, EltTy.bits .bf16 = 32 ∨ (Rect.block (s := S25088x768) S512x768.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x768.size a ≤ S768x768.size a
  hwx3_1 : ∀ i : grid3.Coords, EltTy.bits .bf16 = 32 ∨ (Rect.block (s := S768x768) S768x768.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x768.size a ≤ S1x768.size a
  hwx3_2 : ∀ i : grid3.Coords, EltTy.bits .f32 = 32 ∨ (Rect.block (s := S1x768) S1x768.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x768.size a ≤ S25088x768.size a
  hwx3_3 : ∀ i : grid3.Coords, EltTy.bits .f32 = 32 ∨ (Rect.block (s := S25088x768) S512x768.size (cc3_transform_3 i) (hinb3_3 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S6x196x64_S6x196x64_S6x196x196_2_2_1_1_0_0 : DotDims S6x196x64 S6x196x64 S6x196x196 where
  lhsContracting := [2]
  rhsContracting := [2]
  lhsNonContracting := [1]
  rhsNonContracting := [1]
  lhsBatch := [0]
  rhsBatch := [0]
  wf := dot_S6x196x64_S6x196x64_S6x196x196_2_2_1_1_0_0_wf
def dot_S6x196x196_S6x196x64_S6x196x64_2_1_1_2_0_0 : DotDims S6x196x196 S6x196x64 S6x196x64 where
  lhsContracting := [2]
  rhsContracting := [1]
  lhsNonContracting := [1]
  rhsNonContracting := [2]
  lhsBatch := [0]
  rhsBatch := [0]
  wf := dot_S6x196x196_S6x196x64_S6x196x64_2_1_1_2_0_0_wf
def dot_S336x16x64_S336x16x64_S336x16x16_2_2_1_1_0_0 : DotDims S336x16x64 S336x16x64 S336x16x16 where
  lhsContracting := [2]
  rhsContracting := [2]
  lhsNonContracting := [1]
  rhsNonContracting := [1]
  lhsBatch := [0]
  rhsBatch := [0]
  wf := dot_S336x16x64_S336x16x64_S336x16x16_2_2_1_1_0_0_wf
def dot_S336x16x16_S336x16x64_S336x16x64_2_1_1_2_0_0 : DotDims S336x16x16 S336x16x64 S336x16x64 where
  lhsContracting := [2]
  rhsContracting := [1]
  lhsNonContracting := [1]
  rhsNonContracting := [2]
  lhsBatch := [0]
  rhsBatch := [0]
  wf := dot_S336x16x16_S336x16x64_S336x16x64_2_1_1_2_0_0_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S1x6x196x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x6x196x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x6x196x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x6x196x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S56x6x16x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S56x6x16x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S56x6x16x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S56x6x16x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v31) S512x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S768x768.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S512x768.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8x16x196x768 : Shape := ⟨4, ![8, 16, 196, 768]⟩
abbrev S2304x768 : Shape := ⟨2, ![2304, 768]⟩
abbrev S768x768 : Shape := ⟨2, ![768, 768]⟩
abbrev S768 : Shape := ⟨1, ![768]⟩
abbrev S8x3136x768 : Shape := ⟨3, ![8, 3136, 768]⟩
abbrev S8x3136x2304 : Shape := ⟨3, ![8, 3136, 2304]⟩
abbrev S8x3136x3x12x64 : Shape := ⟨5, ![8, 3136, 3, 12, 64]⟩
abbrev S3x8x12x3136x64 : Shape := ⟨5, ![3, 8, 12, 3136, 64]⟩
abbrev S1x8x12x3136x64 : Shape := ⟨5, ![1, 8, 12, 3136, 64]⟩
abbrev S8x12x3136x64 : Shape := ⟨4, ![8, 12, 3136, 64]⟩
abbrev S8x6x3136x64 : Shape := ⟨4, ![8, 6, 3136, 64]⟩
abbrev S128x6x196x64 : Shape := ⟨4, ![128, 6, 196, 64]⟩
abbrev S128x6x196x196 : Shape := ⟨4, ![128, 6, 196, 196]⟩
abbrev S_ : Shape := ⟨0, ![]⟩
abbrev S128x6x196 : Shape := ⟨3, ![128, 6, 196]⟩
abbrev S128x6x196x1 : Shape := ⟨4, ![128, 6, 196, 1]⟩
abbrev S1568x6x16x64 : Shape := ⟨4, ![1568, 6, 16, 64]⟩
abbrev S1568x6x16x16 : Shape := ⟨4, ![1568, 6, 16, 16]⟩
abbrev S1568x6x16 : Shape := ⟨3, ![1568, 6, 16]⟩
abbrev S1568x6x16x1 : Shape := ⟨4, ![1568, 6, 16, 1]⟩
abbrev S8x3136x12x64 : Shape := ⟨4, ![8, 3136, 12, 64]⟩
abbrev S1x1x768 : Shape := ⟨3, ![1, 1, 768]⟩

abbrev nBuf : Space → Nat
  | .hbm => 74
  | .vmem => 0
  | .smem => 0
  | _ => 0

abbrev bufTy : (tb : Table) → Fin (tcTables nBuf tb) → BufTy
  | .hbm, ⟨0, _⟩ => ⟨S8x16x196x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8x3136x768, .f32⟩
  | .hbm, ⟨5, _⟩ => ⟨S8x3136x2304, .f32⟩
  | .hbm, ⟨6, _⟩ => ⟨S8x3136x3x12x64, .f32⟩
  | .hbm, ⟨7, _⟩ => ⟨S3x8x12x3136x64, .f32⟩
  | .hbm, ⟨8, _⟩ => ⟨S1x8x12x3136x64, .f32⟩
  | .hbm, ⟨9, _⟩ => ⟨S8x12x3136x64, .f32⟩
  | .hbm, ⟨10, _⟩ => ⟨S1x8x12x3136x64, .f32⟩
  | .hbm, ⟨11, _⟩ => ⟨S8x12x3136x64, .f32⟩
  | .hbm, ⟨12, _⟩ => ⟨S1x8x12x3136x64, .f32⟩
  | .hbm, ⟨13, _⟩ => ⟨S8x12x3136x64, .f32⟩
  | .hbm, ⟨14, _⟩ => ⟨S8x6x3136x64, .f32⟩
  | .hbm, ⟨15, _⟩ => ⟨S8x6x3136x64, .f32⟩
  | .hbm, ⟨16, _⟩ => ⟨S8x6x3136x64, .f32⟩
  | .hbm, ⟨17, _⟩ => ⟨S8x6x3136x64, .f32⟩
  | .hbm, ⟨18, _⟩ => ⟨S8x6x3136x64, .f32⟩
  | .hbm, ⟨19, _⟩ => ⟨S8x6x3136x64, .f32⟩
  | .hbm, ⟨20, _⟩ => ⟨S128x6x196x64, .f32⟩
  | .hbm, ⟨21, _⟩ => ⟨S128x6x196x64, .f32⟩
  | .hbm, ⟨22, _⟩ => ⟨S128x6x196x64, .f32⟩
  | .hbm, ⟨23, _⟩ => ⟨S128x6x196x196, .f32⟩
  | .hbm, ⟨24, _⟩ => ⟨S_, .f32⟩
  | .hbm, ⟨25, _⟩ => ⟨S128x6x196x196, .f32⟩
  | .hbm, ⟨26, _⟩ => ⟨S128x6x196x196, .f32⟩
  | .hbm, ⟨27, _⟩ => ⟨S_, .f32⟩
  | .hbm, ⟨28, _⟩ => ⟨S128x6x196, .f32⟩
  | .hbm, ⟨29, _⟩ => ⟨S_, .f32⟩
  | .hbm, ⟨30, _⟩ => ⟨S128x6x196, .f32⟩
  | .hbm, ⟨31, _⟩ => ⟨S128x6x196, .f32⟩
  | .hbm, ⟨32, _⟩ => ⟨S128x6x196x1, .f32⟩
  | .hbm, ⟨33, _⟩ => ⟨S128x6x196x196, .f32⟩
  | .hbm, ⟨34, _⟩ => ⟨S128x6x196x196, .f32⟩
  | .hbm, ⟨35, _⟩ => ⟨S128x6x196x196, .f32⟩
  | .hbm, ⟨36, _⟩ => ⟨S_, .f32⟩
  | .hbm, ⟨37, _⟩ => ⟨S128x6x196, .f32⟩
  | .hbm, ⟨38, _⟩ => ⟨S128x6x196x1, .f32⟩
  | .hbm, ⟨39, _⟩ => ⟨S128x6x196x196, .f32⟩
  | .hbm, ⟨40, _⟩ => ⟨S128x6x196x196, .f32⟩
  | .hbm, ⟨41, _⟩ => ⟨S128x6x196x64, .f32⟩
  | .hbm, ⟨42, _⟩ => ⟨S1568x6x16x64, .f32⟩
  | .hbm, ⟨43, _⟩ => ⟨S1568x6x16x64, .f32⟩
  | .hbm, ⟨44, _⟩ => ⟨S1568x6x16x64, .f32⟩
  | .hbm, ⟨45, _⟩ => ⟨S1568x6x16x16, .f32⟩
  | .hbm, ⟨46, _⟩ => ⟨S_, .f32⟩
  | .hbm, ⟨47, _⟩ => ⟨S1568x6x16x16, .f32⟩
  | .hbm, ⟨48, _⟩ => ⟨S1568x6x16x16, .f32⟩
  | .hbm, ⟨49, _⟩ => ⟨S_, .f32⟩
  | .hbm, ⟨50, _⟩ => ⟨S1568x6x16, .f32⟩
  | .hbm, ⟨51, _⟩ => ⟨S_, .f32⟩
  | .hbm, ⟨52, _⟩ => ⟨S1568x6x16, .f32⟩
  | .hbm, ⟨53, _⟩ => ⟨S1568x6x16, .f32⟩
  | .hbm, ⟨54, _⟩ => ⟨S1568x6x16x1, .f32⟩
  | .hbm, ⟨55, _⟩ => ⟨S1568x6x16x16, .f32⟩
  | .hbm, ⟨56, _⟩ => ⟨S1568x6x16x16, .f32⟩
  | .hbm, ⟨57, _⟩ => ⟨S1568x6x16x16, .f32⟩
  | .hbm, ⟨58, _⟩ => ⟨S_, .f32⟩
  | .hbm, ⟨59, _⟩ => ⟨S1568x6x16, .f32⟩
  | .hbm, ⟨60, _⟩ => ⟨S1568x6x16x1, .f32⟩
  | .hbm, ⟨61, _⟩ => ⟨S1568x6x16x16, .f32⟩
  | .hbm, ⟨62, _⟩ => ⟨S1568x6x16x16, .f32⟩
  | .hbm, ⟨63, _⟩ => ⟨S1568x6x16x64, .f32⟩
  | .hbm, ⟨64, _⟩ => ⟨S8x6x3136x64, .f32⟩
  | .hbm, ⟨65, _⟩ => ⟨S8x6x3136x64, .f32⟩
  | .hbm, ⟨66, _⟩ => ⟨S8x12x3136x64, .f32⟩
  | .hbm, ⟨67, _⟩ => ⟨S8x3136x12x64, .f32⟩
  | .hbm, ⟨68, _⟩ => ⟨S8x3136x768, .f32⟩
  | .hbm, ⟨69, _⟩ => ⟨S8x3136x768, .f32⟩
  | .hbm, ⟨70, _⟩ => ⟨S1x1x768, .f32⟩
  | .hbm, ⟨71, _⟩ => ⟨S8x3136x768, .f32⟩
  | .hbm, ⟨72, _⟩ => ⟨S8x3136x768, .f32⟩
  | .hbm, ⟨73, _⟩ => ⟨S8x16x196x768, .f32⟩
  | _, _ => ⟨S8x16x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩

abbrev nD : Nat := 1
abbrev τ : Topo := Topo.v7x

variable {F : FTy → Type} [FloatOps F]

class Facts₀ : Prop where
  shapeCasts_S8x16x196x768_S8x3136x768 : S8x16x196x768.ShapeCasts S8x3136x768
  shapeCasts_S8x3136x2304_S8x3136x3x12x64 : S8x3136x2304.ShapeCasts S8x3136x3x12x64
  transposes_S8x3136x3x12x64_S3x8x12x3136x64_2_0_3_1_4 : S8x3136x3x12x64.Transposes [2, 0, 3, 1, 4] S3x8x12x3136x64
  slices_S3x8x12x3136x64_S1x8x12x3136x64_0_0_0_0_0 : S3x8x12x3136x64.Slices ![0, 0, 0, 0, 0] S1x8x12x3136x64
  shapeCasts_S1x8x12x3136x64_S8x12x3136x64 : S1x8x12x3136x64.ShapeCasts S8x12x3136x64
  slices_S3x8x12x3136x64_S1x8x12x3136x64_1_0_0_0_0 : S3x8x12x3136x64.Slices ![1, 0, 0, 0, 0] S1x8x12x3136x64
  slices_S3x8x12x3136x64_S1x8x12x3136x64_2_0_0_0_0 : S3x8x12x3136x64.Slices ![2, 0, 0, 0, 0] S1x8x12x3136x64
  slices_S8x12x3136x64_S8x6x3136x64_0_0_0_0 : S8x12x3136x64.Slices ![0, 0, 0, 0] S8x6x3136x64
  slices_S8x12x3136x64_S8x6x3136x64_0_6_0_0 : S8x12x3136x64.Slices ![0, 6, 0, 0] S8x6x3136x64
  shapeCasts_S8x6x3136x64_S128x6x196x64 : S8x6x3136x64.ShapeCasts S128x6x196x64
  bcast_S_S128x6x196x196 : S_.BroadcastsInDim S128x6x196x196 (![] : Fin 0 → Fin S128x6x196x196.rank)
  reducesTo_S128x6x196x196_S128x6x196_d3 : S128x6x196x196.ReducesTo [3] S128x6x196
  h_S_ : 0 < S_.numel
  bcast_S_S128x6x196 : S_.BroadcastsInDim S128x6x196 (![] : Fin 0 → Fin S128x6x196.rank)
  bcast_S128x6x196_S128x6x196x1_0_1_2 : S128x6x196.BroadcastsInDim S128x6x196x1 (![0, 1, 2] : Fin 3 → Fin S128x6x196x1.rank)
  bcast_S128x6x196x1_S128x6x196x196_0_1_2_3 : S128x6x196x1.BroadcastsInDim S128x6x196x196 (![0, 1, 2, 3] : Fin 4 → Fin S128x6x196x196.rank)
  shapeCasts_S8x6x3136x64_S1568x6x16x64 : S8x6x3136x64.ShapeCasts S1568x6x16x64
  bcast_S_S1568x6x16x16 : S_.BroadcastsInDim S1568x6x16x16 (![] : Fin 0 → Fin S1568x6x16x16.rank)
  reducesTo_S1568x6x16x16_S1568x6x16_d3 : S1568x6x16x16.ReducesTo [3] S1568x6x16
  bcast_S_S1568x6x16 : S_.BroadcastsInDim S1568x6x16 (![] : Fin 0 → Fin S1568x6x16.rank)
  bcast_S1568x6x16_S1568x6x16x1_0_1_2 : S1568x6x16.BroadcastsInDim S1568x6x16x1 (![0, 1, 2] : Fin 3 → Fin S1568x6x16x1.rank)
  bcast_S1568x6x16x1_S1568x6x16x16_0_1_2_3 : S1568x6x16x1.BroadcastsInDim S1568x6x16x16 (![0, 1, 2, 3] : Fin 4 → Fin S1568x6x16x16.rank)
  shapeCasts_S128x6x196x64_S8x6x3136x64 : S128x6x196x64.ShapeCasts S8x6x3136x64
  shapeCasts_S1568x6x16x64_S8x6x3136x64 : S1568x6x16x64.ShapeCasts S8x6x3136x64
  concatenates_S8x6x3136x64_S8x6x3136x64_S8x12x3136x64_d1 : Shape.Concatenates [S8x6x3136x64, S8x6x3136x64] S8x12x3136x64 1
  transposes_S8x12x3136x64_S8x3136x12x64_0_2_1_3 : S8x12x3136x64.Transposes [0, 2, 1, 3] S8x3136x12x64
  shapeCasts_S8x3136x12x64_S8x3136x768 : S8x3136x12x64.ShapeCasts S8x3136x768
  bcast_S768_S1x1x768_2 : S768.BroadcastsInDim S1x1x768 (![2] : Fin 1 → Fin S1x1x768.rank)
  bcast_S1x1x768_S8x3136x768_0_1_2 : S1x1x768.BroadcastsInDim S8x3136x768 (![0, 1, 2] : Fin 3 → Fin S8x3136x768.rank)
  shapeCasts_S8x3136x768_S8x16x196x768 : S8x3136x768.ShapeCasts S8x16x196x768
  dot_S8x3136x768_S2304x768_S8x3136x2304_2_1_01_0_n_n_wf : DotDims.WF S8x3136x768 S2304x768 S8x3136x2304 [2] [1] [0, 1] [0] [] []
  dot_S128x6x196x64_S128x6x196x64_S128x6x196x196_3_3_2_2_01_01_wf : DotDims.WF S128x6x196x64 S128x6x196x64 S128x6x196x196 [3] [3] [2] [2] [0, 1] [0, 1]
  dot_S128x6x196x196_S128x6x196x64_S128x6x196x64_3_2_2_3_01_01_wf : DotDims.WF S128x6x196x196 S128x6x196x64 S128x6x196x64 [3] [2] [2] [3] [0, 1] [0, 1]
  dot_S1568x6x16x64_S1568x6x16x64_S1568x6x16x16_3_3_2_2_01_01_wf : DotDims.WF S1568x6x16x64 S1568x6x16x64 S1568x6x16x16 [3] [3] [2] [2] [0, 1] [0, 1]
  dot_S1568x6x16x16_S1568x6x16x64_S1568x6x16x64_3_2_2_3_01_01_wf : DotDims.WF S1568x6x16x16 S1568x6x16x64 S1568x6x16x64 [3] [2] [2] [3] [0, 1] [0, 1]
  dot_S8x3136x768_S768x768_S8x3136x768_2_1_01_0_n_n_wf : DotDims.WF S8x3136x768 S768x768 S8x3136x768 [2] [1] [0, 1] [0] [] []

variable [Facts₀]

def dot_S8x3136x768_S2304x768_S8x3136x2304_2_1_01_0_n_n : DotDims S8x3136x768 S2304x768 S8x3136x2304 where
  lhsContracting := [2]
  rhsContracting := [1]
  lhsNonContracting := [0, 1]
  rhsNonContracting := [0]
  lhsBatch := []
  rhsBatch := []
  wf := dot_S8x3136x768_S2304x768_S8x3136x2304_2_1_01_0_n_n_wf
def dot_S128x6x196x64_S128x6x196x64_S128x6x196x196_3_3_2_2_01_01 : DotDims S128x6x196x64 S128x6x196x64 S128x6x196x196 where
  lhsContracting := [3]
  rhsContracting := [3]
  lhsNonContracting := [2]
  rhsNonContracting := [2]
  lhsBatch := [0, 1]
  rhsBatch := [0, 1]
  wf := dot_S128x6x196x64_S128x6x196x64_S128x6x196x196_3_3_2_2_01_01_wf
def dot_S128x6x196x196_S128x6x196x64_S128x6x196x64_3_2_2_3_01_01 : DotDims S128x6x196x196 S128x6x196x64 S128x6x196x64 where
  lhsContracting := [3]
  rhsContracting := [2]
  lhsNonContracting := [2]
  rhsNonContracting := [3]
  lhsBatch := [0, 1]
  rhsBatch := [0, 1]
  wf := dot_S128x6x196x196_S128x6x196x64_S128x6x196x64_3_2_2_3_01_01_wf
def dot_S1568x6x16x64_S1568x6x16x64_S1568x6x16x16_3_3_2_2_01_01 : DotDims S1568x6x16x64 S1568x6x16x64 S1568x6x16x16 where
  lhsContracting := [3]
  rhsContracting := [3]
  lhsNonContracting := [2]
  rhsNonContracting := [2]
  lhsBatch := [0, 1]
  rhsBatch := [0, 1]
  wf := dot_S1568x6x16x64_S1568x6x16x64_S1568x6x16x16_3_3_2_2_01_01_wf
def dot_S1568x6x16x16_S1568x6x16x64_S1568x6x16x64_3_2_2_3_01_01 : DotDims S1568x6x16x16 S1568x6x16x64 S1568x6x16x64 where
  lhsContracting := [3]
  rhsContracting := [2]
  lhsNonContracting := [2]
  rhsNonContracting := [3]
  lhsBatch := [0, 1]
  rhsBatch := [0, 1]
  wf := dot_S1568x6x16x16_S1568x6x16x64_S1568x6x16x64_3_2_2_3_01_01_wf
def dot_S8x3136x768_S768x768_S8x3136x768_2_1_01_0_n_n : DotDims S8x3136x768 S768x768 S8x3136x768 where
  lhsContracting := [2]
  rhsContracting := [1]
  lhsNonContracting := [0, 1]
  rhsNonContracting := [0]
  lhsBatch := []
  rhsBatch := []
  wf := dot_S8x3136x768_S768x768_S8x3136x768_2_1_01_0_n_n_wf

class Facts : Prop extends Facts₀ where

variable [Facts]
-- ==== Proof.Spec.lean ====
/-
  The mathematics both programs compute, stated once over the extended reals and generic in the sizes.

  * `matG x w`: the plain matrix product, `(x · w)(r, c) = ∑ₖ x(r, k) · w(k, c)`; `matBiasG` adds a bias row.
  * `attn q k v`: scaled dot-product attention over arrays indexed (batch a, head b, position p, feature t):
    the score of query position `p` against key position `j` is `(∑ₜ q(a,b,p,t) · k(a,b,j,t)) · 1/8`; a row's
    maximum is taken from -∞; the weight is `exp (score - rowMax)`; the probability is the weight over the row's sum
    of weights; the output at (a, b, p, t) is `∑ⱼ prob(a,b,p,j) · v(a,b,j,t)`.
  The three float literals are kept as their words: 0x3E000000 is 1/8, 0xFF800000 is -∞.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev A2 (r c : ℕ) : Type := (⟨2, ![r, c]⟩ : Shape).Idx → EReal
/-- A rank-4 array of extended reals. -/
abbrev A4 (n h L d : ℕ) : Type := (⟨4, ![n, h, L, d]⟩ : Shape).Idx → EReal

/-- The plain matrix product `[R, K] × [K, N] → [R, N]`. -/
def matG {R K N : ℕ} (x : A2 R K) (w : A2 K N) : A2 R N :=
  fun i => ∑ k : Fin K, x (ix2 (i 0) k) * w (ix2 k (i 1))

/-- The plain matrix product plus a bias row `[1, N]` spread over the rows. -/
def matBiasG {R K N : ℕ} (x : A2 R K) (w : A2 K N) (b : A2 1 N) : A2 R N :=
  fun i => matG x w i + b (ix2 0 (i 1))

variable {n h L d : ℕ}

/-- The scaled score of query position `p` against key position `j`, in batch `a` and head `b`. -/
def score (q k : A4 n h L d) (a : Fin n) (b : Fin h) (p j : Fin L) : EReal :=
  (∑ t : Fin d, q (ix4 a b p t) * k (ix4 a b j t)) * Ideal.ofBits .f32 0x3E000000#32

/-- A row's maximum score, taken from -∞ (and once more against -∞, as both programs do). -/
def rowMax (q k : A4 n h L d) (a : Fin n) (b : Fin h) (p : Fin L) : EReal :=
  max (Ideal.ofBits .f32 0xFF800000#32)
    ((Finset.univ : Finset (Fin L)).fold max (Ideal.ofBits .f32 0xFF800000#32) (fun j => score q k a b p j))

/-- The softmax weight before normalisation. -/
def weight (q k : A4 n h L d) (a : Fin n) (b : Fin h) (p j : Fin L) : EReal :=
  Ideal.exp (score q k a b p j - rowMax q k a b p)

/-- The softmax probability: the weight over the row's sum of weights. -/
def prob (q k : A4 n h L d) (a : Fin n) (b : Fin h) (p j : Fin L) : EReal :=
  Ideal.div (weight q k a b p j) (∑ j' : Fin L, weight q k a b p j')

/-- Attention: each output row is the probability-weighted sum of the value rows. -/
def attn (q k v : A4 n h L d) : A4 n h L d :=
  fun i => ∑ j : Fin L, prob q k (i 0) (i 1) (i 2) j * v (ix4 (i 0) (i 1) j (i 3))

end Cert.Spec

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowBlockProduct.lean ====
/-
  A matrix product tiled by ROW BLOCKS is the whole product (general in the sizes).

  The product of an [R, K] matrix and a [K, N] matrix over the extended reals, as one function of the two
  arrays: entry (p, q) is the sum over k of A (p, k) · B (k, q).

  Both programs compute it. The host's general dot product with the plain dimension numbers IS this
  function (`dotGeneral_eq_prod`). A kernel that holds only `Rb` consecutive rows of A, starting at row `o`,
  and multiplies them into a zero accumulator, leaves the rows o … o + Rb − 1 of the same function
  (`matmul_rows`): the sum over k at an entry reads one row of A and one column of B, so cutting A by rows
  cuts the product by rows. No finiteness is needed: nothing is regrouped, the two sums have the same terms.
-/
import proofs.«151271_j19473381720281_1_alg».proof.Proof.LibPlainDot

open scoped BigOperators

noncomputable section

namespace Idealize.ShloMosaic.RowBlockProduct

open Idealize.ShloMosaic Idealize.ShloMosaic.ValueIdx Idealize.ShloMosaic.PlainDot

variable {R Rb K N : ℕ}

/-- The matrix product at the extended reals, index by index. -/
def prod (A : (⟨2, ![R, K]⟩ : Shape).Idx → EReal) (B : (⟨2, ![K, N]⟩ : Shape).Idx → EReal) :
    (⟨2, ![R, N]⟩ : Shape).Idx → EReal :=
  fun i => ∑ k : Fin K, A (ix2 (i 0) k) * B (ix2 k (i 1))

theorem prod_apply (A : (⟨2, ![R, K]⟩ : Shape).Idx → EReal) (B : (⟨2, ![K, N]⟩ : Shape).Idx → EReal)
    (p : Fin R) (q : Fin N) : prod A B (ix2 p q) = ∑ k : Fin K, A (ix2 p k) * B (ix2 k q) := rfl

/-- The host's general dot product with the plain dimension numbers is the product, whatever the operands'
    float formats (a format is not seen at the extended reals). -/
theorem dotGeneral_eq_prod {φ₁ φ₂ : FTy}
    {d : DotDims (⟨2, ![R, K]⟩ : Shape) (⟨2, ![K, N]⟩ : Shape) (⟨2, ![R, N]⟩ : Shape)} (h : IsPlain d)
    (prec : Option ContractPrecision) (l : FVec Ideal (⟨2, ![R, K]⟩ : Shape) φ₁) (r : FVec Ideal (⟨2, ![K, N]⟩ : Shape) φ₂) :
    Host.dotGeneral (F := Ideal) d prec l r = prod l r := by
  funext j
  obtain ⟨p, q, rfl⟩ : ∃ (p : Fin R) (q : Fin N), j = ix2 p q := ⟨j 0, j 1, eq_ix2 j⟩
  exact (Ideal.dotGeneral_apply d prec .single l r (ix2 p q)).trans (sum_contr h l r p q)

/-- A kernel's product of `Rb` rows of `A` (the rows from `o` on) with `B`, into the zero accumulator, read at
    (p, q), is the whole product at row `o + p`. -/
theorem matmul_rows {φ₁ φ₂ : FTy}
    {d : DotDims (⟨2, ![Rb, K]⟩ : Shape) (⟨2, ![K, N]⟩ : Shape) (⟨2, ![Rb, N]⟩ : Shape)} (h : IsPlain d)
    (prec : Option ContractPrecision)
    (A : (⟨2, ![R, K]⟩ : Shape).Idx → EReal) (B : (⟨2, ![K, N]⟩ : Shape).Idx → EReal)
    (x0 : FVec Ideal (⟨2, ![Rb, K]⟩ : Shape) φ₁) (x1 : FVec Ideal (⟨2, ![K, N]⟩ : Shape) φ₂)
    (o : ℕ) (ho : o + Rb ≤ R)
    (hx0 : ∀ (p : Fin Rb) (k : Fin K), x0 (ix2 p k) = A (ix2 ⟨o + p.val, by have := p.isLt; omega⟩ k))
    (hx1 : ∀ (k : Fin K) (q : Fin N), x1 (ix2 k q) = B (ix2 k q))
    (p : Fin Rb) (q : Fin N) :
    matmul (F := Ideal) d prec x0 x1 (constant (⟨2, ![Rb, N]⟩ : Shape) .f32 0x00000000#32) (ix2 p q)
      = prod A B (ix2 ⟨o + p.val, by have := p.isLt; omega⟩ q) := by
  rw [prod_apply]
  refine ((Ideal.matmul_constant_zero_apply d prec x0 x1 (ix2 p q)).trans (sum_contr h x0 x1 p q)).trans ?_
  exact Finset.sum_congr rfl fun k _ => by rw [hx0 p k, hx1 k q]

end Idealize.ShloMosaic.RowBlockProduct

end
-- ==== Proof.QkvRegion.lean ====
import proofs.«151271_j19473381720281_1_alg».proof.Proof.Gen.KernelIdeal.Frame
import proofs.«151271_j19473381720281_1_alg».proof.Proof.Spec
import proofs.«151271_j19473381720281_1_alg».proof.Proof.LibPlainDot
import proofs.«151271_j19473381720281_1_alg».proof.Proof.LibRowBlockProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the extended reals: any valuation
variable (V : (c : Dev nD) → (b : Ref sig .tc) → Buf (Elt Ideal) ((c : Thread nD τ).loc b))

/-! ## The block indices over the grid -/

/-- The body loads and stores whole staging buffers: every access starts at offset zero on both axes. -/
theorem qkv_zero_offsets : (![0, 0] : Fin 2 → Nat) = fun _ => 0 := funext fun a => by fin_cases a <;> rfl

/-- The three index maps, over the 49 grid points: at point `t` the left operand's window and the result's window
    sit at block row `t`, block column `0`; the right operand's window is the whole array, block `(0, 0)`. -/
theorem qkv_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The body's payload at an entry -/

/-- The body's matrix product has the plain dimension numbers: the left operand's columns contract with the right
    operand's rows, there is no batch axis, and the result's axes are rows then columns. -/
theorem qkv_dot_plain : PlainDot.IsPlain dot_S512x768_S768x2304_S512x2304_1_0_0_1_n_n :=
  ⟨rfl, rfl, rfl, rfl, rfl, rfl⟩

/-- THE PAYLOAD AT AN ENTRY. When the left block `x0` holds the 512 rows of `A` from row `o` on and the right block
    `x1` is all of `B`, entry `(p, q)` of what the body stores is entry `(o + p, q)` of the product `A · B`: the two
    changes of float format and the two casts to the same shape are the identity at the extended reals, and the
    product into the zero accumulator is the sum over `k` of `x0 (p, k) · x1 (k, q)`, whose terms are those of row
    `o + p` of `A · B`. -/
theorem qkv_payload_apply (A : Cert.Spec.A2 25088 768) (B : Cert.Spec.A2 768 2304)
    (x0 : Vec Ideal S512x768 .f32) (x1 : Vec Ideal S768x2304 .bf16) (o : ℕ) (ho : o + 512 ≤ 25088)
    (hx0 : ∀ (p : Fin 512) (k : Fin 768), x0 (ix2 p k) = A (ix2 ⟨o + p.val, by have := p.isLt; omega⟩ k))
    (hx1 : ∀ (k : Fin 768) (q : Fin 2304), x1 (ix2 k q) = B (ix2 k q)) (p : Fin 512) (q : Fin 2304) :
    k0_pay1 (F := Ideal) x0 x1 (ix2 p q) = Cert.Spec.matG A B (ix2 ⟨o + p.val, by have := p.isLt; omega⟩ q) := by
  unfold k0_pay1
  -- the outer change of format is the identity; the product of the row block is the row block of the product
  refine (RowBlockProduct.matmul_rows qkv_dot_plain none A B _ _ o ho ?_ ?_ p q)
  · -- the left operand: a cast to its own shape, then a change of format
    intro p k
    exact (congrFun (shapeCast_self x0 _) (ix2 p k)).trans (hx0 p k)
  · -- the right operand: a cast to its own shape
    intro k q
    exact (congrFun (shapeCast_self x1 _) (ix2 k q)).trans (hx1 k q)

/-! ## What a grid point writes back -/

/-- WHAT POINT `t` WRITES BACK is block `t` of the product of the two arrays the region reads: the body's one store
    fills the staging buffer with its payload of the two loaded blocks; the left block is rows `512 t … 512 t + 511`
    of the left array (a block's row is block index × 512 + the row inside the block, its column the same column),
    the right block is the whole right array, and the result's block sits at rows `512 t …` of the result's array. -/
theorem qkv_flushed (c : Dev nD) (t : Fin cfg0.N) :
    (dat0 (F := Ideal) V c).flushed 2 t
      = ((cfg0.win 2).blk t).view.read (Elt Ideal)
          (Cert.Spec.matG (R := 25088) (K := 768) (N := 2304) (V c main_v0) (V c main_v2)) := by
  show (cfg0.win 2).cut (grid0.coords t) ((dat0 V c).after 2 t) = _
  rw [after0_2]
  unfold out0_2
  rw [View.canon_unit_zero qkv_zero_offsets]
  simp only [View.ld_unit_zero (S := S512x768) qkv_zero_offsets, View.ld_unit_zero (S := S768x2304) qkv_zero_offsets]
  obtain ⟨e00, e01, e10, e11, e20, e21⟩ := qkv_block_indices t
  have ht : t.val < 49 := lt_of_lt_of_eq t.isLt N_0
  funext j
  obtain ⟨p, q, rfl⟩ : ∃ (p : Fin 512) (q : Fin 2304), j = ix2 p q := ⟨j 0, j 1, eq_ix2 j⟩
  show k0_pay1 (F := Ideal) (iblk0 V c 0 t) (iblk0 V c 1 t) (ix2 p q)
      = Cert.Spec.matG (R := 25088) (K := 768) (N := 2304) (V c main_v0) (V c main_v2) (((cfg0.win 2).blk t).view.emb (ix2 p q))
  refine (qkv_payload_apply (V c main_v0) (V c main_v2) (iblk0 V c 0 t) (iblk0 V c 1 t) (t.val * 512) (by omega) ?_ ?_ p q).trans ?_
  · -- the left block at (p, k) is the left array at (512 t + p, k)
    intro p k
    show V c main_v0 (((cfg0.win 0).blk t).view.emb (ix2 p k)) = V c main_v0 (ix2 ⟨t.val * 512 + p.val, by have := p.isLt; omega⟩ k)
    refine congrArg (V c main_v0) (funext fun a => Fin.ext ?_)
    match a with
    | ⟨0, _⟩ => show win0_0.index t (0 : Fin 2) * 512 + 1 * p.val = t.val * 512 + p.val; omega
    | ⟨1, _⟩ => show win0_0.index t (1 : Fin 2) * 768 + 1 * k.val = k.val; omega
  · -- the right block at (k, q) is the right array at (k, q)
    intro k q
    show V c main_v2 (((cfg0.win 1).blk t).view.emb (ix2 k q)) = V c main_v2 (ix2 k q)
    refine congrArg (V c main_v2) (funext fun a => Fin.ext ?_)
    match a with
    | ⟨0, _⟩ => show win0_1.index t (0 : Fin 2) * 768 + 1 * k.val = k.val; omega
    | ⟨1, _⟩ => show win0_1.index t (1 : Fin 2) * 2304 + 1 * q.val = q.val; omega
  · -- entry (p, q) of the result's block is entry (512 t + p, q) of the result's array
    refine congrArg (Cert.Spec.matG (R := 25088) (K := 768) (N := 2304) (V c main_v0) (V c main_v2)) (funext fun a => Fin.ext ?_)
    match a with
    | ⟨0, _⟩ => show t.val * 512 + p.val = win0_2.index t (0 : Fin 2) * 512 + 1 * p.val; omega
    | ⟨1, _⟩ => show q.val = win0_2.index t (1 : Fin 2) * 2304 + 1 * q.val; omega

/-! ## The blocks cover the array -/

/-- An entry of the result's array is in point `t`'s block iff each coordinate is in the block's range on its axis. -/
theorem qkv_mem_block (t : Fin cfg0.N) (i : S25088x2304.Idx) :
    i ∈ ((cfg0.win 2).blk t).view.set ↔ ∀ a : Fin 2, win0_2.index t a * S512x2304.size a ≤ (i a).val
      ∧ (i a).val < win0_2.index t a * S512x2304.size a + S512x2304.size a := by
  show i ∈ ((View.whole main_v3).slice (win0_2.rect t)).set ↔ _
  rw [View.set_slice_whole, Rect.mem_set_unit]
  exact Iff.rfl

/-- Every entry `(r, q)` of the result's array is in the block of the point `r / 512`: 49 blocks of 512 rows are
    the 25088 rows, and a block spans all 2304 columns. -/
theorem qkv_cover (i : S25088x2304.Idx) :
    ∃ t : Fin cfg0.N, (cfg0.win 2).flush t = true ∧ i ∈ ((cfg0.win 2).blk t).view.set := by
  have hi0 : (i 0).val < 25088 := (i 0).isLt
  have hi1 : (i 1).val < 2304 := (i 1).isLt
  obtain ⟨t, htv⟩ : ∃ t : Fin cfg0.N, t.val = (i 0).val / 512 :=
    ⟨⟨(i 0).val / 512, lt_of_lt_of_eq (by omega : (i 0).val / 512 < 49) N_0.symm⟩, rfl⟩
  obtain ⟨-, -, -, -, e20, e21⟩ := qkv_block_indices t
  refine ⟨t, flush0_2 t, ?_⟩
  rw [qkv_mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 2304 ≤ (i 1).val ∧ (i 1).val < win0_2.index t (1 : Fin 2) * 2304 + 2304
    omega

/-! ## The array the region leaves -/

/-- REGION 0 (the QKV projection, 49 row blocks of 512): the array the pipeline leaves in its output window is the plain
    matrix product of the two arrays it reads, whatever they hold at entry. -/
theorem qkv_array (c : Dev nD) :
    (dat0 (F := Ideal) V c).arrAt 2 cfg0.N = Cert.Spec.matG (R := 25088) (K := 768) (N := 2304) (V c main_v0) (V c main_v2) :=
  (dat0 (F := Ideal) V c).arrAt_eq_of_cover 2 _ (fun t _ => qkv_flushed V c t) qkv_cover

end Cert.Regions

end
-- ==== Proof.SpatialRegion.lean ====
import proofs.«151271_j19473381720281_1_alg».proof.Proof.Gen.KernelIdeal.Frame
import proofs.«151271_j19473381720281_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the extended reals: any valuation
variable (V : (c : Dev nD) → (b : Ref sig .tc) → Buf (Elt Ideal) ((c : Thread nD τ).loc b))

namespace Spatial

/-! ## The keepdims column forms -/

/-- An `[a, b]` array cast to `[a, b, 1]` reads, at `(i, j, z)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (z : Fin 1) :
    shapeCast ⟨3, ![a, b, 1]⟩ x h (ix3 i j z) = x (ix2 i j) :=
  shapeCast_apply x h _ _ (by
    have hz : z.val = 0 := by omega
    rw [Shape.rowMajor_val_three, Shape.rowMajor_val_two]
    show i.val * b + j.val = (i.val * b + j.val) * 1 + z.val
    rw [hz, Nat.mul_one, Nat.add_zero])

/-- An `[a, b, 1]` array broadcast to `[a, b, c]` reads, at `(i, j, k)`, the operand's one column entry at `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## The two products' operand indices, axis by axis

The first product contracts the feature axis of both operands (queries against keys); the second contracts the key
position (probabilities against values). Both carry the head as their one batch axis. -/

theorem lhs_scores_0 (i : S6x196x196.Idx) (q : dot_S6x196x64_S6x196x64_S6x196x196_2_2_1_1_0_0.contr.Idx) :
    (dot_S6x196x64_S6x196x64_S6x196x196_2_2_1_1_0_0.lhsIdx i q 0).val = (i 0).val := by
  unfold DotDims.lhsIdx
  rw [dif_pos (show (0 : Fin S6x196x64.rank) ∈ dot_S6x196x64_S6x196x64_S6x196x196_2_2_1_1_0_0.lhsBatch by decide)]
  rfl
theorem lhs_scores_1 (i : S6x196x196.Idx) (q : dot_S6x196x64_S6x196x64_S6x196x196_2_2_1_1_0_0.contr.Idx) :
    (dot_S6x196x64_S6x196x64_S6x196x196_2_2_1_1_0_0.lhsIdx i q 1).val = (i 1).val := by
  unfold DotDims.lhsIdx
  rw [dif_neg (show ¬(1 : Fin S6x196x64.rank) ∈ dot_S6x196x64_S6x196x64_S6x196x196_2_2_1_1_0_0.lhsBatch by decide), dif_pos (show (1 : Fin S6x196x64.rank) ∈ dot_S6x196x64_S6x196x64_S6x196x196_2_2_1_1_0_0.lhsNonContracting by decide)]
  rfl
theorem lhs_scores_2 (i : S6x196x196.Idx) (q : dot_S6x196x64_S6x196x64_S6x196x196_2_2_1_1_0_0.contr.Idx) :
    (dot_S6x196x64_S6x196x64_S6x196x196_2_2_1_1_0_0.lhsIdx i q 2).val = (q ⟨0, by decide⟩).val :=
  dot_S6x196x64_S6x196x64_S6x196x196_2_2_1_1_0_0.lhsIdx_val_of_single rfl i q
theorem rhs_scores_0 (i : S6x196x196.Idx) (q : dot_S6x196x64_S6x196x64_S6x196x196_2_2_1_1_0_0.contr.Idx) :
    (dot_S6x196x64_S6x196x64_S6x196x196_2_2_1_1_0_0.rhsIdx i q 0).val = (i 0).val := by
  unfold DotDims.rhsIdx
  rw [dif_pos (show (0 : Fin S6x196x64.rank) ∈ dot_S6x196x64_S6x196x64_S6x196x196_2_2_1_1_0_0.rhsBatch by decide)]
  rfl
theorem rhs_scores_1 (i : S6x196x196.Idx) (q : dot_S6x196x64_S6x196x64_S6x196x196_2_2_1_1_0_0.contr.Idx) :
    (dot_S6x196x64_S6x196x64_S6x196x196_2_2_1_1_0_0.rhsIdx i q 1).val = (i 2).val := by
  unfold DotDims.rhsIdx
  rw [dif_neg (show ¬(1 : Fin S6x196x64.rank) ∈ dot_S6x196x64_S6x196x64_S6x196x196_2_2_1_1_0_0.rhsBatch by decide), dif_pos (show (1 : Fin S6x196x64.rank) ∈ dot_S6x196x64_S6x196x64_S6x196x196_2_2_1_1_0_0.rhsNonContracting by decide)]
  rfl
theorem rhs_scores_2 (i : S6x196x196.Idx) (q : dot_S6x196x64_S6x196x64_S6x196x196_2_2_1_1_0_0.contr.Idx) :
    (dot_S6x196x64_S6x196x64_S6x196x196_2_2_1_1_0_0.rhsIdx i q 2).val = (q ⟨0, by decide⟩).val :=
  dot_S6x196x64_S6x196x64_S6x196x196_2_2_1_1_0_0.rhsIdx_val_of_single rfl i q

theorem lhs_mix_0 (i : S6x196x64.Idx) (q : dot_S6x196x196_S6x196x64_S6x196x64_2_1_1_2_0_0.contr.Idx) :
    (dot_S6x196x196_S6x196x64_S6x196x64_2_1_1_2_0_0.lhsIdx i q 0).val = (i 0).val := by
  unfold DotDims.lhsIdx
  rw [dif_pos (show (0 : Fin S6x196x196.rank) ∈ dot_S6x196x196_S6x196x64_S6x196x64_2_1_1_2_0_0.lhsBatch by decide)]
  rfl
theorem lhs_mix_1 (i : S6x196x64.Idx) (q : dot_S6x196x196_S6x196x64_S6x196x64_2_1_1_2_0_0.contr.Idx) :
    (dot_S6x196x196_S6x196x64_S6x196x64_2_1_1_2_0_0.lhsIdx i q 1).val = (i 1).val := by
  unfold DotDims.lhsIdx
  rw [dif_neg (show ¬(1 : Fin S6x196x196.rank) ∈ dot_S6x196x196_S6x196x64_S6x196x64_2_1_1_2_0_0.lhsBatch by decide), dif_pos (show (1 : Fin S6x196x196.rank) ∈ dot_S6x196x196_S6x196x64_S6x196x64_2_1_1_2_0_0.lhsNonContracting by decide)]
  rfl
theorem lhs_mix_2 (i : S6x196x64.Idx) (q : dot_S6x196x196_S6x196x64_S6x196x64_2_1_1_2_0_0.contr.Idx) :
    (dot_S6x196x196_S6x196x64_S6x196x64_2_1_1_2_0_0.lhsIdx i q 2).val = (q ⟨0, by decide⟩).val :=
  dot_S6x196x196_S6x196x64_S6x196x64_2_1_1_2_0_0.lhsIdx_val_of_single rfl i q
theorem rhs_mix_0 (i : S6x196x64.Idx) (q : dot_S6x196x196_S6x196x64_S6x196x64_2_1_1_2_0_0.contr.Idx) :
    (dot_S6x196x196_S6x196x64_S6x196x64_2_1_1_2_0_0.rhsIdx i q 0).val = (i 0).val := by
  unfold DotDims.rhsIdx
  rw [dif_pos (show (0 : Fin S6x196x64.rank) ∈ dot_S6x196x196_S6x196x64_S6x196x64_2_1_1_2_0_0.rhsBatch by decide)]
  rfl
theorem rhs_mix_1 (i : S6x196x64.Idx) (q : dot_S6x196x196_S6x196x64_S6x196x64_2_1_1_2_0_0.contr.Idx) :
    (dot_S6x196x196_S6x196x64_S6x196x64_2_1_1_2_0_0.rhsIdx i q 1).val = (q ⟨0, by decide⟩).val :=
  dot_S6x196x196_S6x196x64_S6x196x64_2_1_1_2_0_0.rhsIdx_val_of_single rfl i q
theorem rhs_mix_2 (i : S6x196x64.Idx) (q : dot_S6x196x196_S6x196x64_S6x196x64_2_1_1_2_0_0.contr.Idx) :
    (dot_S6x196x196_S6x196x64_S6x196x64_2_1_1_2_0_0.rhsIdx i q 2).val = (i 2).val := by
  unfold DotDims.rhsIdx
  rw [dif_neg (show ¬(2 : Fin S6x196x64.rank) ∈ dot_S6x196x196_S6x196x64_S6x196x64_2_1_1_2_0_0.rhsBatch by decide), dif_pos (show (2 : Fin S6x196x64.rank) ∈ dot_S6x196x196_S6x196x64_S6x196x64_2_1_1_2_0_0.rhsNonContracting by decide)]
  rfl

/-- The first product into the zero splat, at head `b`, query position `p`, key position `j`: the sum over the
    feature `t` of the query's entry times the key's. -/
theorem scores_matmul_apply (x y : FVec Ideal S6x196x64 .bf16) (b : Fin 6) (p j : Fin 196) :
    matmul dot_S6x196x64_S6x196x64_S6x196x196_2_2_1_1_0_0 none x y (constant (F := Ideal) S6x196x196 .f32 0x00000000#32) (ix3 b p j)
      = ∑ t : Fin 64, x (ix3 b p t) * y (ix3 b j t) := by
  refine (Ideal.matmul_constant_zero_apply dot_S6x196x64_S6x196x64_S6x196x196_2_2_1_1_0_0 none x y (ix3 b p j)).trans ?_
  rw [← Equiv.sum_comp (ValueIdx.contrEquiv1 dot_S6x196x64_S6x196x64_S6x196x196_2_2_1_1_0_0 64 rfl rfl).symm]
  refine Finset.sum_congr rfl fun k _ => ?_
  have hk := ValueIdx.contrEquiv1_symm_val dot_S6x196x64_S6x196x64_S6x196x196_2_2_1_1_0_0 64 rfl rfl k
  have el : dot_S6x196x64_S6x196x64_S6x196x196_2_2_1_1_0_0.lhsIdx (ix3 b p j) ((ValueIdx.contrEquiv1 dot_S6x196x64_S6x196x64_S6x196x196_2_2_1_1_0_0 64 rfl rfl).symm k) = ix3 b p k := funext fun a => Fin.ext (by
    match a with
    | ⟨0, _⟩ => exact lhs_scores_0 _ _
    | ⟨1, _⟩ => exact lhs_scores_1 _ _
    | ⟨2, _⟩ => exact (lhs_scores_2 _ _).trans hk)
  have er : dot_S6x196x64_S6x196x64_S6x196x196_2_2_1_1_0_0.rhsIdx (ix3 b p j) ((ValueIdx.contrEquiv1 dot_S6x196x64_S6x196x64_S6x196x196_2_2_1_1_0_0 64 rfl rfl).symm k) = ix3 b j k := funext fun a => Fin.ext (by
    match a with
    | ⟨0, _⟩ => exact rhs_scores_0 _ _
    | ⟨1, _⟩ => exact rhs_scores_1 _ _
    | ⟨2, _⟩ => exact (rhs_scores_2 _ _).trans hk)
  rw [el, er]

/-- The second product into the zero splat, at head `b`, query position `p`, feature `t`: the sum over the key
    position `j` of the probability times the value's entry. -/
theorem mix_matmul_apply (x : FVec Ideal S6x196x196 .bf16) (y : FVec Ideal S6x196x64 .bf16) (b : Fin 6) (p : Fin 196) (t : Fin 64) :
    matmul dot_S6x196x196_S6x196x64_S6x196x64_2_1_1_2_0_0 none x y (constant (F := Ideal) S6x196x64 .f32 0x00000000#32) (ix3 b p t)
      = ∑ j : Fin 196, x (ix3 b p j) * y (ix3 b j t) := by
  refine (Ideal.matmul_constant_zero_apply dot_S6x196x196_S6x196x64_S6x196x64_2_1_1_2_0_0 none x y (ix3 b p t)).trans ?_
  rw [← Equiv.sum_comp (ValueIdx.contrEquiv1 dot_S6x196x196_S6x196x64_S6x196x64_2_1_1_2_0_0 196 rfl rfl).symm]
  refine Finset.sum_congr rfl fun k _ => ?_
  have hk := ValueIdx.contrEquiv1_symm_val dot_S6x196x196_S6x196x64_S6x196x64_2_1_1_2_0_0 196 rfl rfl k
  have el : dot_S6x196x196_S6x196x64_S6x196x64_2_1_1_2_0_0.lhsIdx (ix3 b p t) ((ValueIdx.contrEquiv1 dot_S6x196x196_S6x196x64_S6x196x64_2_1_1_2_0_0 196 rfl rfl).symm k) = ix3 b p k := funext fun a => Fin.ext (by
    match a with
    | ⟨0, _⟩ => exact lhs_mix_0 _ _
    | ⟨1, _⟩ => exact lhs_mix_1 _ _
    | ⟨2, _⟩ => exact (lhs_mix_2 _ _).trans hk)
  have er : dot_S6x196x196_S6x196x64_S6x196x64_2_1_1_2_0_0.rhsIdx (ix3 b p t) ((ValueIdx.contrEquiv1 dot_S6x196x196_S6x196x64_S6x196x64_2_1_1_2_0_0 196 rfl rfl).symm k) = ix3 b k t := funext fun a => Fin.ext (by
    match a with
    | ⟨0, _⟩ => exact rhs_mix_0 _ _
    | ⟨1, _⟩ => exact (rhs_mix_1 _ _).trans hk
    | ⟨2, _⟩ => exact rhs_mix_2 _ _)
  rw [el, er]

/-! ## The two row reductions and the keepdims column -/

/-- The reduced index with the key position put back is `(b, p, j)`. -/
theorem lift_row (h : S6x196x196.Reduces [2] S6x196) (b : Fin 6) (p j : Fin 196) : h.lift (ix2 b p) j = ix3 b p j :=
  funext fun a => Fin.ext (by
    match a with
    | ⟨0, _⟩ => rfl
    | ⟨1, _⟩ => rfl
    | ⟨2, _⟩ => rfl)

/-- A maximum-reduction over the key position from -∞, at head `b` and query position `p`: the fold of `max` from -∞
    over the row's entries. -/
theorem rowmax_apply (s : FVec Ideal S6x196x196 .f32) (h : S6x196x196.Reduces [2] S6x196) (hφ : FKind.Formats .f32)
    (hacc : (0xFF800000#32 : BitVec 32) = FKind.maximumf.neutral .f32 hφ) (b : Fin 6) (p : Fin 196) :
    multiReduction (F := Ideal) .maximumf [2] S6x196 s 0xFF800000#32 h hφ hacc (ix2 b p)
      = (Finset.univ : Finset (Fin 196)).fold max (Ideal.ofBits .f32 0xFF800000#32) (fun j => s (ix3 b p j)) := by
  refine (Ideal.multiReduction_maximumf_single s 0xFF800000#32 h hφ hacc (ix2 b p)).trans ?_
  exact congrArg (fun f => (Finset.univ : Finset (Fin 196)).fold max (Ideal.ofBits .f32 0xFF800000#32) f)
    (funext fun j => congrArg s (lift_row h b p j))

/-- A sum-reduction over the key position from zero, at head `b` and query position `p`: the sum of the row's entries. -/
theorem rowsum_apply (w : FVec Ideal S6x196x196 .f32) (h : S6x196x196.Reduces [2] S6x196) (hφ : FKind.Formats .f32)
    (hacc : (0x00000000#32 : BitVec 32) = FKind.add.neutral .f32 hφ) (b : Fin 6) (p : Fin 196) :
    multiReduction (F := Ideal) .add [2] S6x196 w 0x00000000#32 h hφ hacc (ix2 b p) = ∑ j : Fin 196, w (ix3 b p j) := by
  refine (Ideal.multiReduction_add_single w 0x00000000#32 h hφ hacc (ix2 b p)).trans ?_
  exact Finset.sum_congr rfl fun j _ => congrArg w (lift_row h b p j)

/-- A per-row value `[6, 196]` recast to a column `[6, 196, 1]` and spread over the key positions reads the row's value. -/
theorem column_apply {α : Type} (r : S6x196.Idx → α) (h₁ : S6x196.ShapeCasts S6x196x1) (h₂ : S6x196x1.Broadcasts S6x196x196)
    (b : Fin 6) (p j : Fin 196) :
    broadcastTo S6x196x196 (shapeCast S6x196x1 r h₁) h₂ (ix3 b p j) = r (ix2 b p) :=
  (broadcastTo_ab1_abc_apply (shapeCast S6x196x1 r h₁) h₂ b p j).trans (shapeCast_ab_ab1_apply r h₁ b p 0)

/-! ## The body's payload, step by step, on the specification's pieces

Each step reads one stretch of the payload at an index and lands on the matching piece of the specification, taken
on the blocks as arrays of ONE batch row. -/

/-- The product of the query and key blocks scaled by 1/8 is the specification's score. -/
theorem scores_read (x0 x1 : FVec Ideal S1x6x196x64 .bf16) (h : S1x6x196x64.ShapeCasts S6x196x64) (b : Fin 6) (p j : Fin 196) :
    mulf (matmul dot_S6x196x64_S6x196x64_S6x196x196_2_2_1_1_0_0 none (shapeCast S6x196x64 x0 h) (shapeCast S6x196x64 x1 h) (constant (F := Ideal) S6x196x196 .f32 0x00000000#32))
        (broadcast S6x196x196 (Scalar.ofBits (F := Ideal) .f32 0x3E000000#32)) (ix3 b p j)
      = Cert.Spec.score (n := 1) (h := 6) (L := 196) (d := 64) x0 x1 0 b p j := by
  refine (congrArg (· * Ideal.ofBits .f32 0x3E000000#32)
    (scores_matmul_apply (shapeCast S6x196x64 x0 h) (shapeCast S6x196x64 x1 h) b p j)).trans ?_
  unfold Cert.Spec.score
  refine congrArg (· * Ideal.ofBits .f32 0x3E000000#32) (Finset.sum_congr rfl fun t _ => ?_)
  exact congrArg₂ (· * ·) (shapeCast_1abc_abc_apply x0 h b p t) (shapeCast_1abc_abc_apply x1 h b j t)

/-- The row maximum of scores, taken from -∞ and once more against -∞, is the specification's row maximum. -/
theorem rowmax_read (s : FVec Ideal S6x196x196 .f32) (q k : Cert.Spec.A4 1 6 196 64)
    (hs : ∀ b p j, s (ix3 b p j) = Cert.Spec.score q k 0 b p j)
    (h : S6x196x196.Reduces [2] S6x196) (hφ : FKind.Formats .f32)
    (hacc : (0xFF800000#32 : BitVec 32) = FKind.maximumf.neutral .f32 hφ) (b : Fin 6) (p : Fin 196) :
    maximumf (broadcast S6x196 (Scalar.ofBits (F := Ideal) .f32 0xFF800000#32))
        (multiReduction (F := Ideal) .maximumf [2] S6x196 s 0xFF800000#32 h hφ hacc) (ix2 b p)
      = Cert.Spec.rowMax q k 0 b p := by
  refine (congrArg (max (Ideal.ofBits .f32 0xFF800000#32)) (rowmax_apply s h hφ hacc b p)).trans ?_
  unfold Cert.Spec.rowMax
  exact congrArg (fun f => max (Ideal.ofBits .f32 0xFF800000#32)
    ((Finset.univ : Finset (Fin 196)).fold max (Ideal.ofBits .f32 0xFF800000#32) f)) (funext fun j => hs b p j)

/-- The exponential of a score less its row's maximum (spread back over the key positions) is the specification's weight. -/
theorem weights_read (s : FVec Ideal S6x196x196 .f32) (m : FVec Ideal S6x196 .f32) (q k : Cert.Spec.A4 1 6 196 64)
    (hs : ∀ b p j, s (ix3 b p j) = Cert.Spec.score q k 0 b p j) (hm : ∀ b p, m (ix2 b p) = Cert.Spec.rowMax q k 0 b p)
    (h₁ : S6x196.ShapeCasts S6x196x1) (h₂ : S6x196x1.Broadcasts S6x196x196) (b : Fin 6) (p j : Fin 196) :
    exp (subf s (broadcastTo S6x196x196 (shapeCast S6x196x1 m h₁) h₂)) (ix3 b p j) = Cert.Spec.weight q k 0 b p j := by
  show Ideal.exp (s (ix3 b p j) - broadcastTo S6x196x196 (shapeCast S6x196x1 m h₁) h₂ (ix3 b p j)) = _
  rw [column_apply m h₁ h₂ b p j, hs b p j, hm b p]
  rfl

/-- A weight over its row's sum of weights (spread back over the key positions) is the specification's probability. -/
theorem probs_read (w : FVec Ideal S6x196x196 .f32) (q k : Cert.Spec.A4 1 6 196 64)
    (hw : ∀ b p j, w (ix3 b p j) = Cert.Spec.weight q k 0 b p j)
    (h : S6x196x196.Reduces [2] S6x196) (hφ : FKind.Formats .f32)
    (hacc : (0x00000000#32 : BitVec 32) = FKind.add.neutral .f32 hφ)
    (h₁ : S6x196.ShapeCasts S6x196x1) (h₂ : S6x196x1.Broadcasts S6x196x196) (b : Fin 6) (p j : Fin 196) :
    divf w (broadcastTo S6x196x196 (shapeCast S6x196x1 (multiReduction (F := Ideal) .add [2] S6x196 w 0x00000000#32 h hφ hacc) h₁) h₂) (ix3 b p j)
      = Cert.Spec.prob q k 0 b p j := by
  show Ideal.div (w (ix3 b p j))
    (broadcastTo S6x196x196 (shapeCast S6x196x1 (multiReduction (F := Ideal) .add [2] S6x196 w 0x00000000#32 h hφ hacc) h₁) h₂ (ix3 b p j)) = _
  rw [column_apply _ h₁ h₂ b p j, rowsum_apply w h hφ hacc b p, hw b p j]
  unfold Cert.Spec.prob
  exact congrArg (Ideal.div _) (Finset.sum_congr rfl fun j' _ => hw b p j')

/-- THE PAYLOAD AT AN INDEX: the body's result for one grid point is the attention of its three blocks, read as
    arrays of one batch row. -/
theorem payload_attn (x0 x1 x2 : Vec Ideal S1x6x196x64 .bf16) (u : Fin 1) (b : Fin 6) (p : Fin 196) (t : Fin 64) :
    k1_pay1 (F := Ideal) x0 x1 x2 (ix4 u b p t)
      = Cert.Spec.attn (n := 1) (h := 6) (L := 196) (d := 64) x0 x1 x2 (ix4 u b p t) := by
  obtain rfl : u = 0 := Subsingleton.elim _ _
  have hS := scores_read x0 x1 shapeCasts_S1x6x196x64_S6x196x64
  have hM := rowmax_read _ x0 x1 hS reduces_S6x196x196_S6x196 (.inl rfl) rfl
  have hW := weights_read _ _ x0 x1 hS hM shapeCasts_S6x196_S6x196x1 broadcasts_S6x196x1_S6x196x196
  have hP := probs_read _ x0 x1 hW reduces_S6x196x196_S6x196 (.inl rfl) rfl shapeCasts_S6x196_S6x196x1 broadcasts_S6x196x1_S6x196x196
  unfold k1_pay1
  refine (shapeCast_abc_1abc_apply _ _ 0 b p t).trans ?_
  refine (mix_matmul_apply _ _ b p t).trans ?_
  unfold Cert.Spec.attn
  refine Finset.sum_congr rfl fun j _ => ?_
  exact congrArg₂ (· * ·) (hP b p j) (shapeCast_1abc_abc_apply x2 _ b j t)

/-! ## Attention reads one batch row -/

/-- Attention at batch row `a` depends on the three arrays' entries in that row only: a second triple of arrays whose
    row `a'` agrees with row `a` of the first has the same attention there. -/
theorem attn_row_congr {n n' h L d : ℕ} (q k v : Cert.Spec.A4 n h L d) (q' k' v' : Cert.Spec.A4 n' h L d) (a : Fin n) (a' : Fin n')
    (hq : ∀ b p t, q' (ix4 a' b p t) = q (ix4 a b p t)) (hk : ∀ b p t, k' (ix4 a' b p t) = k (ix4 a b p t))
    (hv : ∀ b p t, v' (ix4 a' b p t) = v (ix4 a b p t)) (b : Fin h) (p : Fin L) (t : Fin d) :
    Cert.Spec.attn q' k' v' (ix4 a' b p t) = Cert.Spec.attn q k v (ix4 a b p t) := by
  have hs : ∀ p j, Cert.Spec.score q' k' a' b p j = Cert.Spec.score q k a b p j := fun p j => by
    unfold Cert.Spec.score; simp only [hq, hk]
  have hm : ∀ p, Cert.Spec.rowMax q' k' a' b p = Cert.Spec.rowMax q k a b p := fun p => by
    unfold Cert.Spec.rowMax; simp only [hs]
  have hw : ∀ p j, Cert.Spec.weight q' k' a' b p j = Cert.Spec.weight q k a b p j := fun p j => by
    unfold Cert.Spec.weight; rw [hs, hm]
  have hp : ∀ p j, Cert.Spec.prob q' k' a' b p j = Cert.Spec.prob q k a b p j := fun p j => by
    unfold Cert.Spec.prob; simp only [hw]
  show ∑ j, Cert.Spec.prob q' k' a' b p j * v' (ix4 a' b j t) = ∑ j, Cert.Spec.prob q k a b p j * v (ix4 a b j t)
  simp only [hp, hv]

/-! ## From blocks to the array -/

theorem zero_offsets : (![0, 0, 0, 0] : Fin 4 → Nat) = fun _ => 0 := funext fun a => by fin_cases a <;> rfl

/-- The printed index maps, decided over the grid: at point `t` every window's block sits at batch row `t` and at
    zero on the head, position and feature axes. -/
theorem index_facts : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 4) = t.val ∧ win1_1.index t (1 : Fin 4) = 0 ∧ win1_1.index t (2 : Fin 4) = 0 ∧ win1_1.index t (3 : Fin 4) = 0
    ∧ win1_2.index t (0 : Fin 4) = t.val ∧ win1_2.index t (1 : Fin 4) = 0 ∧ win1_2.index t (2 : Fin 4) = 0 ∧ win1_2.index t (3 : Fin 4) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

/-- WHAT POINT `t` WRITES BACK is block `t` of the attention of the three arrays as the region finds them. -/
theorem flushed_attn (c : Dev nD) (t : Fin cfg1.N) :
    (dat1 (F := Ideal) V c).flushed 3 t = ((cfg1.win 3).blk t).view.read (Elt Ideal)
      (Cert.Spec.attn (n := 128) (h := 6) (L := 196) (d := 64) (V c main_v18) (V c main_v19) (V c main_v20)) := by
  show (cfg1.win 3).cut (grid1.coords t) ((dat1 (F := Ideal) V c).after 3 t) = _
  rw [after1_3]
  unfold out1_3
  rw [View.canon_unit_zero zero_offsets]
  simp only [View.ld_unit_zero (S := S1x6x196x64) zero_offsets]
  obtain ⟨e00, e01, e02, e03, e10, e11, e12, e13, e20, e21, e22, e23, e30, e31, e32, e33⟩ := index_facts t
  have ht : t.val < 128 := Nat.lt_of_lt_of_eq t.isLt N_1
  funext j
  obtain ⟨u, b, p, f, rfl⟩ : ∃ (u : Fin 1) (b : Fin 6) (p : Fin 196) (f : Fin 64), j = ix4 u b p f := ⟨j 0, j 1, j 2, j 3, eq_ix4 j⟩
  show k1_pay1 (F := Ideal) (iblk1 V c 0 t) (iblk1 V c 1 t) (iblk1 V c 2 t) (ix4 u b p f)
    = Cert.Spec.attn (n := 128) (h := 6) (L := 196) (d := 64) (V c main_v18) (V c main_v19) (V c main_v20) (((cfg1.win 3).blk t).view.emb (ix4 u b p f))
  refine (payload_attn _ _ _ u b p f).trans ?_
  have hemb : ((cfg1.win 3).blk t).view.emb (ix4 u b p f) = ix4 (⟨t.val, ht⟩ : Fin 128) b p f :=
    funext fun a => Fin.ext (by
      match a with
      | ⟨0, _⟩ => show win1_3.index t (0 : Fin 4) * 1 + 1 * u.val = t.val; have := u.isLt; omega
      | ⟨1, _⟩ => show win1_3.index t (1 : Fin 4) * 6 + 1 * b.val = b.val; omega
      | ⟨2, _⟩ => show win1_3.index t (2 : Fin 4) * 196 + 1 * p.val = p.val; omega
      | ⟨3, _⟩ => show win1_3.index t (3 : Fin 4) * 64 + 1 * f.val = f.val; omega)
  rw [hemb]
  refine attn_row_congr (V c main_v18) (V c main_v19) (V c main_v20) (iblk1 V c 0 t) (iblk1 V c 1 t) (iblk1 V c 2 t)
    ⟨t.val, ht⟩ u ?_ ?_ ?_ b p f
  · intro b p f
    show V c main_v18 (((cfg1.win 0).blk t).view.emb (ix4 u b p f)) = V c main_v18 (ix4 ⟨t.val, ht⟩ b p f)
    exact congrArg _ (funext fun a => Fin.ext (by
      match a with
      | ⟨0, _⟩ => show win1_0.index t (0 : Fin 4) * 1 + 1 * u.val = t.val; have := u.isLt; omega
      | ⟨1, _⟩ => show win1_0.index t (1 : Fin 4) * 6 + 1 * b.val = b.val; omega
      | ⟨2, _⟩ => show win1_0.index t (2 : Fin 4) * 196 + 1 * p.val = p.val; omega
      | ⟨3, _⟩ => show win1_0.index t (3 : Fin 4) * 64 + 1 * f.val = f.val; omega))
  · intro b p f
    show V c main_v19 (((cfg1.win 1).blk t).view.emb (ix4 u b p f)) = V c main_v19 (ix4 ⟨t.val, ht⟩ b p f)
    exact congrArg _ (funext fun a => Fin.ext (by
      match a with
      | ⟨0, _⟩ => show win1_1.index t (0 : Fin 4) * 1 + 1 * u.val = t.val; have := u.isLt; omega
      | ⟨1, _⟩ => show win1_1.index t (1 : Fin 4) * 6 + 1 * b.val = b.val; omega
      | ⟨2, _⟩ => show win1_1.index t (2 : Fin 4) * 196 + 1 * p.val = p.val; omega
      | ⟨3, _⟩ => show win1_1.index t (3 : Fin 4) * 64 + 1 * f.val = f.val; omega))
  · intro b p f
    show V c main_v20 (((cfg1.win 2).blk t).view.emb (ix4 u b p f)) = V c main_v20 (ix4 ⟨t.val, ht⟩ b p f)
    exact congrArg _ (funext fun a => Fin.ext (by
      match a with
      | ⟨0, _⟩ => show win1_2.index t (0 : Fin 4) * 1 + 1 * u.val = t.val; have := u.isLt; omega
      | ⟨1, _⟩ => show win1_2.index t (1 : Fin 4) * 6 + 1 * b.val = b.val; omega
      | ⟨2, _⟩ => show win1_2.index t (2 : Fin 4) * 196 + 1 * p.val = p.val; omega
      | ⟨3, _⟩ => show win1_2.index t (3 : Fin 4) * 64 + 1 * f.val = f.val; omega))

/-- An index of the array is in point `t`'s block iff each coordinate is in the block's range on its axis. -/
theorem mem_block (t : Fin cfg1.N) (i : S128x6x196x64.Idx) :
    i ∈ ((cfg1.win 3).blk t).view.set ↔ ∀ a : Fin 4, win1_3.index t a * S1x6x196x64.size a ≤ (i a).val
      ∧ (i a).val < win1_3.index t a * S1x6x196x64.size a + S1x6x196x64.size a := by
  show i ∈ ((View.whole main_v21).slice (win1_3.rect t)).set ↔ _
  rw [View.set_slice_whole, Rect.mem_set_unit]
  exact Iff.rfl

/-- Every index of the array lies in the block of the grid point its batch row names: the blocks tile the array. -/
theorem covered (i : S128x6x196x64.Idx) :
    ∃ t : Fin cfg1.N, (cfg1.win 3).flush t = true ∧ i ∈ ((cfg1.win 3).blk t).view.set := by
  have hi0 : (i 0).val < 128 := (i 0).isLt
  have hi1 : (i 1).val < 6 := (i 1).isLt
  have hi2 : (i 2).val < 196 := (i 2).isLt
  have hi3 : (i 3).val < 64 := (i 3).isLt
  obtain ⟨t, ht⟩ : ∃ t : Fin cfg1.N, t.val = (i 0).val := ⟨⟨(i 0).val, Nat.lt_of_lt_of_eq hi0 N_1.symm⟩, rfl⟩
  obtain ⟨-, -, -, -, -, -, -, -, -, -, -, -, e30, e31, e32, e33⟩ := index_facts t
  refine ⟨t, flush1_3 t, ?_⟩
  rw [mem_block]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 6 ≤ (i 1).val ∧ (i 1).val < win1_3.index t (1 : Fin 4) * 6 + 6; omega
  | ⟨2, _⟩ => show win1_3.index t (2 : Fin 4) * 196 ≤ (i 2).val ∧ (i 2).val < win1_3.index t (2 : Fin 4) * 196 + 196; omega
  | ⟨3, _⟩ => show win1_3.index t (3 : Fin 4) * 64 ≤ (i 3).val ∧ (i 3).val < win1_3.index t (3 : Fin 4) * 64 + 64; omega

end Spatial

/-- REGION 1 (spatial attention, one grid point per (batch·frame), block [1, 6, 196, 64]): the array the pipeline leaves
    in its output window is the attention of the three arrays it reads, whatever they hold at entry. -/
theorem spatial_array (c : Dev nD) :
    (dat1 (F := Ideal) V c).arrAt 3 cfg1.N = Cert.Spec.attn (n := 128) (h := 6) (L := 196) (d := 64) (V c main_v18) (V c main_v19) (V c main_v20) :=
  (dat1 (F := Ideal) V c).arrAt_eq_of_cover 3 _ (fun t _ => Spatial.flushed_attn V c t) Spatial.covered

end Cert.Regions

end
-- ==== Proof.KernelFoldA.lean ====
/-
  The kernel's run, read as values. The run's buffer contents are a fold through @main: a host stretch rewrites the
  buffers it writes, a region leaves its arrays at what its pipeline wrote back. Here each buffer the four regions read is
  read off that fold as a pure term of the launch memory, and each region's output array is the specification's function
  of the arrays it read (the QKV product, the two attentions, the output projection), so that the result array is one
  composed term of the four arguments.

  The layout operations between the regions (the reshape to [8, 3136, 3, 12, 64], the transposition that brings the
  q / k / v selector and the head axis to the front, the slices that pick q, k or v and the first or second six heads,
  and the raw row-major reshapes to [128, 6, 196, 64] and [1568, 6, 16, 64]; after the attentions the reshapes back, the
  concatenation of the two halves along the head axis, the transposition and the reshape to [25088, 768]) are named once
  below and never opened: the reference applies the same operations.
-/
import proofs.«151271_j19473381720281_1_alg».proof.Proof.Gen.KernelIdeal.Frame
import proofs.«151271_j19473381720281_1_alg».proof.Proof.Spec
import proofs.«151271_j19473381720281_1_alg».proof.Proof.QkvRegion
import proofs.«151271_j19473381720281_1_alg».proof.Proof.SpatialRegion
import Idealize.ShloMosaic.Lib.StableHlo.Run
import Idealize.ShloMosaic.Lib.Pipeline.Value
import Idealize.ShloMosaic.Lib.ValueIdx

set_option maxRecDepth 16384

noncomputable section

namespace Cert.KernelFold

open Cert.KernelIdeal Cert.KernelIdeal.Gen
open Idealize.ShloMosaic Idealize.ShloMosaic.TcCoe Idealize.ShloMosaic.ValueIdx Idealize.SL.Sem Idealize.ShloMosaic.StableHlo

/-! ## The layout operations between the regions, named -/

/-- An array over `s` at the extended reals. -/
abbrev Arr (s : Shape) : Type := s.Idx → EReal

/-- The flat QKV product [25088, 2304] laid out as (selector, batch, head, position, feature). -/
abbrev split5 (X : Arr S25088x2304) : Arr S3x8x12x3136x64 :=
  transpose S3x8x12x3136x64 [2, 0, 3, 1, 4] (shapeCast S8x3136x3x12x64 X shapeCasts_S25088x2304_S8x3136x3x12x64)
    transposes_S8x3136x3x12x64_S3x8x12x3136x64_2_0_3_1_4
/-- The queries (selector 0), keys (selector 1) and values (selector 2) as [8, 12, 3136, 64]. -/
abbrev selQ (Y : Arr S3x8x12x3136x64) : Arr S8x12x3136x64 :=
  shapeCast S8x12x3136x64 (extractStridedSlice S1x8x12x3136x64 ![0, 0, 0, 0, 0] Y slices_S3x8x12x3136x64_S1x8x12x3136x64_0_0_0_0_0) shapeCasts_S1x8x12x3136x64_S8x12x3136x64
abbrev selK (Y : Arr S3x8x12x3136x64) : Arr S8x12x3136x64 :=
  shapeCast S8x12x3136x64 (extractStridedSlice S1x8x12x3136x64 ![1, 0, 0, 0, 0] Y slices_S3x8x12x3136x64_S1x8x12x3136x64_1_0_0_0_0) shapeCasts_S1x8x12x3136x64_S8x12x3136x64
abbrev selV (Y : Arr S3x8x12x3136x64) : Arr S8x12x3136x64 :=
  shapeCast S8x12x3136x64 (extractStridedSlice S1x8x12x3136x64 ![2, 0, 0, 0, 0] Y slices_S3x8x12x3136x64_S1x8x12x3136x64_2_0_0_0_0) shapeCasts_S1x8x12x3136x64_S8x12x3136x64
/-- The first six heads (spatial) and the last six (temporal). -/
abbrev headsLo (Z : Arr S8x12x3136x64) : Arr S8x6x3136x64 :=
  extractStridedSlice S8x6x3136x64 ![0, 0, 0, 0] Z slices_S8x12x3136x64_S8x6x3136x64_0_0_0_0
abbrev headsHi (Z : Arr S8x12x3136x64) : Arr S8x6x3136x64 :=
  extractStridedSlice S8x6x3136x64 ![0, 6, 0, 0] Z slices_S8x12x3136x64_S8x6x3136x64_0_6_0_0
/-- The raw row-major reshapes to the spatial and the temporal attention's layouts. -/
abbrev toSpatial (Z : Arr S8x6x3136x64) : Arr S128x6x196x64 := shapeCast S128x6x196x64 Z shapeCasts_S8x6x3136x64_S128x6x196x64
abbrev toTemporal (Z : Arr S8x6x3136x64) : Arr S1568x6x16x64 := shapeCast S1568x6x16x64 Z shapeCasts_S8x6x3136x64_S1568x6x16x64
/-- The two attention outputs joined along the head axis and laid out as [8, 3136, 768]. -/
abbrev joinHeads (ws : Arr S128x6x196x64) (wt : Arr S1568x6x16x64) : Arr S8x3136x768 :=
  shapeCast S8x3136x768
    (transpose S8x3136x12x64 [0, 2, 1, 3]
      (concatenate S8x12x3136x64 1
        [⟨S8x6x3136x64, shapeCast S8x6x3136x64 ws shapeCasts_S128x6x196x64_S8x6x3136x64⟩,
         ⟨S8x6x3136x64, shapeCast S8x6x3136x64 wt shapeCasts_S1568x6x16x64_S8x6x3136x64⟩]
        concatenates_S8x6x3136x64_S8x6x3136x64_S8x12x3136x64_d1)
      transposes_S8x12x3136x64_S8x3136x12x64_0_2_1_3)
    shapeCasts_S8x3136x12x64_S8x3136x768

variable (m : (ℓ : Loc nD τ sig) → Buf (Elt Ideal) ℓ) (ρ : Dev nD → PrngReg) (c : Dev nD)

/-! ## The four arguments, named -/

abbrev a0 : Arr S8x16x196x768 := m ((c : Thread nD τ).loc main_arg0)
abbrev a1 : Arr S2304x768 := m ((c : Thread nD τ).loc main_arg1)
abbrev a2 : Arr S768x768 := m ((c : Thread nD τ).loc main_arg2)
abbrev a3 : Arr S768 := m ((c : Thread nD τ).loc main_arg3)

/-! ## Region 0's entry and exit -/

theorem v0_eq : (V1 m ρ c main_v0 : Arr S25088x768) = shapeCast S25088x768 (a0 m c) shapeCasts_S8x16x196x768_S25088x768 := by
  show StableHlo.after hostOps0 (W0 m ρ c) (Proc.devRef .tc main_v0) = _
  after_results <;> rfl

theorem v2_eq : (V1 m ρ c main_v2 : Arr S768x2304)
    = truncf (F := Ideal) .bf16 (transpose S768x2304 [1, 0] (a1 m c) transposes_S2304x768_S768x2304_1_0) bitsLt_bf16_f32 := by
  show StableHlo.after hostOps0 (W0 m ρ c) (Proc.devRef .tc main_v2) = _
  after_results <;> rfl

/-- The flat QKV product the first region leaves: the plain product of its two entry arrays. -/
abbrev qkvFlat : Arr S25088x2304 := Cert.Spec.matG (R := 25088) (K := 768) (N := 2304) (V1 m ρ c main_v0) (V1 m ρ c main_v2)

theorem v3_eq : (W2 m ρ c (Proc.devRef .tc main_v3) : Arr S25088x2304) = qkvFlat m ρ c :=
  (W2_arr m ρ c 2).trans (Cert.Regions.qkv_array (V1 m ρ) c)

/-! ## Region 1 (spatial attention): its entry arrays and the temporal half's sources after the second host stretch -/

/-- The laid-out QKV product every later buffer of the second stretch is cut from. -/
abbrev laid : Arr S3x8x12x3136x64 := split5 (W2 m ρ c (Proc.devRef .tc main_v3))

theorem v18_eq : (V3 m ρ c main_v18 : Arr S128x6x196x64) = toSpatial (headsLo (selQ (laid m ρ c))) := by
  show StableHlo.after hostOps1 (W2 m ρ c) (Proc.devRef .tc main_v18) = _
  after_results <;> rfl
theorem v19_eq : (V3 m ρ c main_v19 : Arr S128x6x196x64) = toSpatial (headsLo (selK (laid m ρ c))) := by
  show StableHlo.after hostOps1 (W2 m ρ c) (Proc.devRef .tc main_v19) = _
  after_results <;> rfl
theorem v20_eq : (V3 m ρ c main_v20 : Arr S128x6x196x64) = toSpatial (headsLo (selV (laid m ρ c))) := by
  show StableHlo.after hostOps1 (W2 m ρ c) (Proc.devRef .tc main_v20) = _
  after_results <;> rfl
theorem v13_eq : (W3 m ρ c (Proc.devRef .tc main_v13) : Arr S8x6x3136x64) = headsHi (selQ (laid m ρ c)) := by
  show StableHlo.after hostOps1 (W2 m ρ c) (Proc.devRef .tc main_v13) = _
  after_results <;> rfl
theorem v15_eq : (W3 m ρ c (Proc.devRef .tc main_v15) : Arr S8x6x3136x64) = headsHi (selK (laid m ρ c)) := by
  show StableHlo.after hostOps1 (W2 m ρ c) (Proc.devRef .tc main_v15) = _
  after_results <;> rfl
theorem v17_eq : (W3 m ρ c (Proc.devRef .tc main_v17) : Arr S8x6x3136x64) = headsHi (selV (laid m ρ c)) := by
  show StableHlo.after hostOps1 (W2 m ρ c) (Proc.devRef .tc main_v17) = _
  after_results <;> rfl

/-- The spatial attention's output array: the attention of the region's three entry arrays. -/
theorem v21_eq : (W4 m ρ c (Proc.devRef .tc main_v21) : Arr S128x6x196x64)
    = Cert.Spec.attn (n := 128) (h := 6) (L := 196) (d := 64) (V3 m ρ c main_v18) (V3 m ρ c main_v19) (V3 m ρ c main_v20) :=
  (W4_arr m ρ c 3).trans (Cert.Regions.spatial_array (V3 m ρ) c)

end Cert.KernelFold

end
-- ==== Proof.TemporalRegion.lean ====
import proofs.«151271_j19473381720281_1_alg».proof.Proof.Gen.KernelIdeal.Frame
import proofs.«151271_j19473381720281_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the extended reals: any valuation
variable (V : (c : Dev nD) → (b : Ref sig .tc) → Buf (Elt Ideal) ((c : Thread nD τ).loc b))

namespace Temporal

/-! ## The body's arithmetic, stage by stage, on the merged (row-in-block, head) axis of extent 336 = 56 · 6 -/

/-- Row `6·a + b` of the merged axis: row-in-block `a`, head `b`. -/
def mrow (a : Fin 56) (b : Fin 6) : Fin 336 := ⟨a.val * 6 + b.val, by have := a.isLt; have := b.isLt; omega⟩

/-- A block recast [56, 6, 16, 64] → [336, 16, 64]. -/
def mergeT (x : Vec Ideal S56x6x16x64 .bf16) : FVec Ideal S336x16x64 .bf16 :=
  shapeCast S336x16x64 (shapeCast S56x6x16x64 x shapeCasts_S56x6x16x64_S56x6x16x64) shapeCasts_S56x6x16x64_S336x16x64

/-- The scaled scores: q·kᵀ over the feature axis, times 1/8. -/
def scoresT (q3 k3 : FVec Ideal S336x16x64 .bf16) : FVec Ideal S336x16x16 .f32 :=
  mulf (matmul dot_S336x16x64_S336x16x64_S336x16x16_2_2_1_1_0_0 none q3 k3 (constant S336x16x16 .f32 0x00000000#32))
    (broadcast S336x16x16 (Scalar.ofBits (F := Ideal) .f32 0x3E000000#32))

/-- A per-row value [336, 16] spread over the key positions: recast to [336, 16, 1], broadcast to [336, 16, 16]. -/
def colT (r : FVec Ideal S336x16 .f32) : FVec Ideal S336x16x16 .f32 :=
  broadcastTo S336x16x16 (shapeCast S336x16x1 r shapeCasts_S336x16_S336x16x1) broadcasts_S336x16x1_S336x16x16

/-- The row maximum, from -∞ and once more against -∞. -/
def rowMaxT (s : FVec Ideal S336x16x16 .f32) : FVec Ideal S336x16 .f32 :=
  maximumf (broadcast S336x16 (Scalar.ofBits (F := Ideal) .f32 0xFF800000#32))
    (multiReduction .maximumf [2] S336x16 s 0xFF800000#32 reduces_S336x16x16_S336x16 (.inl rfl) rfl)

/-- The weights: exp (score − row maximum). -/
def weightsT (s : FVec Ideal S336x16x16 .f32) : FVec Ideal S336x16x16 .f32 := exp (subf s (colT (rowMaxT s)))

/-- The row sum of the weights. -/
def rowSumT (w : FVec Ideal S336x16x16 .f32) : FVec Ideal S336x16 .f32 :=
  multiReduction .add [2] S336x16 w 0x00000000#32 reduces_S336x16x16_S336x16 (.inl rfl) rfl

/-- The probabilities: weight over row sum. -/
def probsT (w : FVec Ideal S336x16x16 .f32) : FVec Ideal S336x16x16 .bf16 :=
  truncf .bf16 (divf w (colT (rowSumT w))) bitsLt_bf16_f32

/-- The result: probabilities · values over the key position, recast [336, 16, 64] → [56, 6, 16, 64]. -/
def outT (P : FVec Ideal S336x16x16 .bf16) (v3 : FVec Ideal S336x16x64 .bf16) : FVec Ideal S56x6x16x64 .bf16 :=
  truncf .bf16 (shapeCast S56x6x16x64
    (matmul dot_S336x16x16_S336x16x64_S336x16x64_2_1_1_2_0_0 none P v3 (constant S336x16x64 .f32 0x00000000#32))
    shapeCasts_S336x16x64_S56x6x16x64) bitsLt_bf16_f32

/-- The body's payload is these stages composed. -/
theorem payload_stages (x0 x1 x2 : Vec Ideal S56x6x16x64 .bf16) :
    k2_pay1 (F := Ideal) x0 x1 x2 = outT (probsT (weightsT (scoresT (mergeT x0) (mergeT x1)))) (mergeT x2) := rfl

/-! ## Each stage read at an index -/

/-- The recast keeps every entry at its row-major position: row `6·a + b` of the merged axis is `(a, b)`. -/
theorem merge_read (x : Vec Ideal S56x6x16x64 .bf16) (a : Fin 56) (b : Fin 6) (p : Fin 16) (t : Fin 64) :
    mergeT x (ix3 (mrow a b) p t) = x (ix4 a b p t) := by
  unfold mergeT
  rw [shapeCast_self]
  refine shapeCast_apply x shapeCasts_S56x6x16x64_S336x16x64 _ _ ?_
  rw [Shape.rowMajor_val_four, Shape.rowMajor_val_three]
  rfl

/-! ### The first product, q·kᵀ: one batch axis, contraction over the feature axis of both operands -/

theorem lhs_qk_0 (i : S336x16x16.Idx) (q : dot_S336x16x64_S336x16x64_S336x16x16_2_2_1_1_0_0.contr.Idx) :
    (dot_S336x16x64_S336x16x64_S336x16x16_2_2_1_1_0_0.lhsIdx i q 0).val = (i 0).val := by
  unfold DotDims.lhsIdx
  rw [dif_pos (show (0 : Fin S336x16x64.rank) ∈ dot_S336x16x64_S336x16x64_S336x16x16_2_2_1_1_0_0.lhsBatch by decide)]
  rfl
theorem lhs_qk_1 (i : S336x16x16.Idx) (q : dot_S336x16x64_S336x16x64_S336x16x16_2_2_1_1_0_0.contr.Idx) :
    (dot_S336x16x64_S336x16x64_S336x16x16_2_2_1_1_0_0.lhsIdx i q 1).val = (i 1).val := by
  unfold DotDims.lhsIdx
  rw [dif_neg (show ¬(1 : Fin S336x16x64.rank) ∈ dot_S336x16x64_S336x16x64_S336x16x16_2_2_1_1_0_0.lhsBatch by decide), dif_pos (show (1 : Fin S336x16x64.rank) ∈ dot_S336x16x64_S336x16x64_S336x16x16_2_2_1_1_0_0.lhsNonContracting by decide)]
  rfl
theorem lhs_qk_2 (i : S336x16x16.Idx) (q : dot_S336x16x64_S336x16x64_S336x16x16_2_2_1_1_0_0.contr.Idx) :
    (dot_S336x16x64_S336x16x64_S336x16x16_2_2_1_1_0_0.lhsIdx i q 2).val = (q ⟨0, by decide⟩).val :=
  dot_S336x16x64_S336x16x64_S336x16x16_2_2_1_1_0_0.lhsIdx_val_of_single rfl i q
theorem rhs_qk_0 (i : S336x16x16.Idx) (q : dot_S336x16x64_S336x16x64_S336x16x16_2_2_1_1_0_0.contr.Idx) :
    (dot_S336x16x64_S336x16x64_S336x16x16_2_2_1_1_0_0.rhsIdx i q 0).val = (i 0).val := by
  unfold DotDims.rhsIdx
  rw [dif_pos (show (0 : Fin S336x16x64.rank) ∈ dot_S336x16x64_S336x16x64_S336x16x16_2_2_1_1_0_0.rhsBatch by decide)]
  rfl
theorem rhs_qk_1 (i : S336x16x16.Idx) (q : dot_S336x16x64_S336x16x64_S336x16x16_2_2_1_1_0_0.contr.Idx) :
    (dot_S336x16x64_S336x16x64_S336x16x16_2_2_1_1_0_0.rhsIdx i q 1).val = (i 2).val := by
  unfold DotDims.rhsIdx
  rw [dif_neg (show ¬(1 : Fin S336x16x64.rank) ∈ dot_S336x16x64_S336x16x64_S336x16x16_2_2_1_1_0_0.rhsBatch by decide), dif_pos (show (1 : Fin S336x16x64.rank) ∈ dot_S336x16x64_S336x16x64_S336x16x16_2_2_1_1_0_0.rhsNonContracting by decide)]
  rfl
theorem rhs_qk_2 (i : S336x16x16.Idx) (q : dot_S336x16x64_S336x16x64_S336x16x16_2_2_1_1_0_0.contr.Idx) :
    (dot_S336x16x64_S336x16x64_S336x16x16_2_2_1_1_0_0.rhsIdx i q 2).val = (q ⟨0, by decide⟩).val :=
  dot_S336x16x64_S336x16x64_S336x16x16_2_2_1_1_0_0.rhsIdx_val_of_single rfl i q

/-- The first product at `(m, p, j)`: the sum over the feature `t` of `q (m, p, t) · k (m, j, t)`. -/
theorem qk_read (q3 k3 : FVec Ideal S336x16x64 .bf16) (m : Fin 336) (p j : Fin 16) :
    matmul dot_S336x16x64_S336x16x64_S336x16x16_2_2_1_1_0_0 none q3 k3 (constant (F := Ideal) S336x16x16 .f32 0x00000000#32) (ix3 m p j)
      = ∑ t : Fin 64, q3 (ix3 m p t) * k3 (ix3 m j t) := by
  simp only [matmul]
  rw [Ideal.matmul_constant_zero_apply, ← Equiv.sum_comp (ValueIdx.contrEquiv1 dot_S336x16x64_S336x16x64_S336x16x16_2_2_1_1_0_0 64 rfl rfl).symm]
  refine Finset.sum_congr rfl fun k _ => ?_
  have hk := ValueIdx.contrEquiv1_symm_val dot_S336x16x64_S336x16x64_S336x16x16_2_2_1_1_0_0 64 rfl rfl k
  have el : dot_S336x16x64_S336x16x64_S336x16x16_2_2_1_1_0_0.lhsIdx (ix3 m p j) ((ValueIdx.contrEquiv1 dot_S336x16x64_S336x16x64_S336x16x16_2_2_1_1_0_0 64 rfl rfl).symm k) = ix3 m p k := funext fun a => Fin.ext (by
    match a with
    | ⟨0, _⟩ => exact lhs_qk_0 _ _
    | ⟨1, _⟩ => exact lhs_qk_1 _ _
    | ⟨2, _⟩ => exact (lhs_qk_2 _ _).trans hk)
  have er : dot_S336x16x64_S336x16x64_S336x16x16_2_2_1_1_0_0.rhsIdx (ix3 m p j) ((ValueIdx.contrEquiv1 dot_S336x16x64_S336x16x64_S336x16x16_2_2_1_1_0_0 64 rfl rfl).symm k) = ix3 m j k := funext fun a => Fin.ext (by
    match a with
    | ⟨0, _⟩ => exact rhs_qk_0 _ _
    | ⟨1, _⟩ => exact rhs_qk_1 _ _
    | ⟨2, _⟩ => exact (rhs_qk_2 _ _).trans hk)
  rw [el, er]

/-- The scaled score at `(m, p, j)`. -/
theorem scores_read (q3 k3 : FVec Ideal S336x16x64 .bf16) (m : Fin 336) (p j : Fin 16) :
    scoresT q3 k3 (ix3 m p j) = (∑ t : Fin 64, q3 (ix3 m p t) * k3 (ix3 m j t)) * Ideal.ofBits .f32 0x3E000000#32 := by
  unfold scoresT
  rw [mulf_apply, broadcast_apply]
  exact congrArg (· * Ideal.ofBits .f32 0x3E000000#32) (qk_read q3 k3 m p j)

/-! ### The reductions over the key position, and the per-row column spread back over it -/

/-- The index over `(m, p)` with key position `j` put on the reduced (last) axis is `(m, p, j)`. -/
theorem lift_last (m : Fin 336) (p j : Fin 16) :
    reduces_S336x16x16_S336x16.lift (ix2 m p) j = ix3 m p j :=
  funext fun a => Fin.ext (by
    match a with
    | ⟨0, _⟩ => rfl
    | ⟨1, _⟩ => rfl
    | ⟨2, _⟩ => rfl)

/-- A per-row value spread over the key positions reads the row's value at every key position. -/
theorem col_read (r : FVec Ideal S336x16 .f32) (m : Fin 336) (p j : Fin 16) : colT r (ix3 m p j) = r (ix2 m p) := by
  unfold colT
  refine (broadcastTo_apply _ broadcasts_S336x16x1_S336x16x16 (ix3 m p j) (ix3 m p (0 : Fin 1)) fun a => ?_).trans ?_
  · match a with
    | ⟨0, _⟩ => rfl
    | ⟨1, _⟩ => rfl
    | ⟨2, _⟩ => rfl
  · refine shapeCast_apply r shapeCasts_S336x16_S336x16x1 _ _ ?_
    rw [Shape.rowMajor_val_two, Shape.rowMajor_val_three]
    show m.val * 16 + p.val = (m.val * 16 + p.val) * 1 + 0
    omega

/-- The row maximum at `(m, p)`: the fold of `max` from -∞ over the key positions, and once more against -∞. -/
theorem rowMax_read (s : FVec Ideal S336x16x16 .f32) (m : Fin 336) (p : Fin 16) :
    rowMaxT s (ix2 m p) = max (Ideal.ofBits .f32 0xFF800000#32)
      ((Finset.univ : Finset (Fin 16)).fold max (Ideal.ofBits .f32 0xFF800000#32) (fun j => s (ix3 m p j))) := by
  unfold rowMaxT
  rw [maximumf_apply, broadcast_apply]
  refine congrArg (max (Ideal.ofBits .f32 0xFF800000#32)) ?_
  refine (Ideal.multiReduction_maximumf_single s 0xFF800000#32 reduces_S336x16x16_S336x16 (.inl rfl) rfl (ix2 m p)).trans ?_
  show (Finset.univ : Finset (Fin 16)).fold max (Ideal.ofBits .f32 0xFF800000#32) (fun j => s (reduces_S336x16x16_S336x16.lift (ix2 m p) j)) = _
  exact congrArg (fun f => (Finset.univ : Finset (Fin 16)).fold max (Ideal.ofBits .f32 0xFF800000#32) f) (funext fun j => congrArg s (lift_last m p j))

/-- The weight at `(m, p, j)`. -/
theorem weights_read (s : FVec Ideal S336x16x16 .f32) (m : Fin 336) (p j : Fin 16) :
    weightsT s (ix3 m p j) = Ideal.exp (s (ix3 m p j) - rowMaxT s (ix2 m p)) := by
  unfold weightsT
  show Ideal.exp (s (ix3 m p j) - colT (rowMaxT s) (ix3 m p j)) = _
  rw [col_read]

/-- The row sum at `(m, p)`: the sum over the key positions. -/
theorem rowSum_read (w : FVec Ideal S336x16x16 .f32) (m : Fin 336) (p : Fin 16) :
    rowSumT w (ix2 m p) = ∑ j : Fin 16, w (ix3 m p j) := by
  unfold rowSumT
  refine (Ideal.multiReduction_add_single w 0x00000000#32 reduces_S336x16x16_S336x16 (.inl rfl) rfl (ix2 m p)).trans ?_
  show ∑ j : Fin 16, w (reduces_S336x16x16_S336x16.lift (ix2 m p) j) = _
  exact Finset.sum_congr rfl fun j _ => congrArg w (lift_last m p j)

/-- The probability at `(m, p, j)`. -/
theorem probs_read (w : FVec Ideal S336x16x16 .f32) (m : Fin 336) (p j : Fin 16) :
    probsT w (ix3 m p j) = Ideal.div (w (ix3 m p j)) (∑ j' : Fin 16, w (ix3 m p j')) := by
  unfold probsT
  show Ideal.div (w (ix3 m p j)) (colT (rowSumT w) (ix3 m p j)) = _
  rw [col_read, rowSum_read]

/-! ### The second product, probabilities · values: one batch axis, contraction over the key position -/

theorem lhs_pv_0 (i : S336x16x64.Idx) (q : dot_S336x16x16_S336x16x64_S336x16x64_2_1_1_2_0_0.contr.Idx) :
    (dot_S336x16x16_S336x16x64_S336x16x64_2_1_1_2_0_0.lhsIdx i q 0).val = (i 0).val := by
  unfold DotDims.lhsIdx
  rw [dif_pos (show (0 : Fin S336x16x16.rank) ∈ dot_S336x16x16_S336x16x64_S336x16x64_2_1_1_2_0_0.lhsBatch by decide)]
  rfl
theorem lhs_pv_1 (i : S336x16x64.Idx) (q : dot_S336x16x16_S336x16x64_S336x16x64_2_1_1_2_0_0.contr.Idx) :
    (dot_S336x16x16_S336x16x64_S336x16x64_2_1_1_2_0_0.lhsIdx i q 1).val = (i 1).val := by
  unfold DotDims.lhsIdx
  rw [dif_neg (show ¬(1 : Fin S336x16x16.rank) ∈ dot_S336x16x16_S336x16x64_S336x16x64_2_1_1_2_0_0.lhsBatch by decide), dif_pos (show (1 : Fin S336x16x16.rank) ∈ dot_S336x16x16_S336x16x64_S336x16x64_2_1_1_2_0_0.lhsNonContracting by decide)]
  rfl
theorem lhs_pv_2 (i : S336x16x64.Idx) (q : dot_S336x16x16_S336x16x64_S336x16x64_2_1_1_2_0_0.contr.Idx) :
    (dot_S336x16x16_S336x16x64_S336x16x64_2_1_1_2_0_0.lhsIdx i q 2).val = (q ⟨0, by decide⟩).val :=
  dot_S336x16x16_S336x16x64_S336x16x64_2_1_1_2_0_0.lhsIdx_val_of_single rfl i q
theorem rhs_pv_0 (i : S336x16x64.Idx) (q : dot_S336x16x16_S336x16x64_S336x16x64_2_1_1_2_0_0.contr.Idx) :
    (dot_S336x16x16_S336x16x64_S336x16x64_2_1_1_2_0_0.rhsIdx i q 0).val = (i 0).val := by
  unfold DotDims.rhsIdx
  rw [dif_pos (show (0 : Fin S336x16x64.rank) ∈ dot_S336x16x16_S336x16x64_S336x16x64_2_1_1_2_0_0.rhsBatch by decide)]
  rfl
theorem rhs_pv_1 (i : S336x16x64.Idx) (q : dot_S336x16x16_S336x16x64_S336x16x64_2_1_1_2_0_0.contr.Idx) :
    (dot_S336x16x16_S336x16x64_S336x16x64_2_1_1_2_0_0.rhsIdx i q 1).val = (q ⟨0, by decide⟩).val :=
  dot_S336x16x16_S336x16x64_S336x16x64_2_1_1_2_0_0.rhsIdx_val_of_single rfl i q
theorem rhs_pv_2 (i : S336x16x64.Idx) (q : dot_S336x16x16_S336x16x64_S336x16x64_2_1_1_2_0_0.contr.Idx) :
    (dot_S336x16x16_S336x16x64_S336x16x64_2_1_1_2_0_0.rhsIdx i q 2).val = (i 2).val := by
  unfold DotDims.rhsIdx
  rw [dif_neg (show ¬(2 : Fin S336x16x64.rank) ∈ dot_S336x16x16_S336x16x64_S336x16x64_2_1_1_2_0_0.rhsBatch by decide), dif_pos (show (2 : Fin S336x16x64.rank) ∈ dot_S336x16x16_S336x16x64_S336x16x64_2_1_1_2_0_0.rhsNonContracting by decide)]
  rfl

/-- The second product at `(m, p, t)`: the sum over the key position `j` of `P (m, p, j) · v (m, j, t)`. -/
theorem pv_read (P : FVec Ideal S336x16x16 .bf16) (v3 : FVec Ideal S336x16x64 .bf16) (m : Fin 336) (p : Fin 16) (t : Fin 64) :
    matmul dot_S336x16x16_S336x16x64_S336x16x64_2_1_1_2_0_0 none P v3 (constant (F := Ideal) S336x16x64 .f32 0x00000000#32) (ix3 m p t)
      = ∑ j : Fin 16, P (ix3 m p j) * v3 (ix3 m j t) := by
  simp only [matmul]
  rw [Ideal.matmul_constant_zero_apply, ← Equiv.sum_comp (ValueIdx.contrEquiv1 dot_S336x16x16_S336x16x64_S336x16x64_2_1_1_2_0_0 16 rfl rfl).symm]
  refine Finset.sum_congr rfl fun k _ => ?_
  have hk := ValueIdx.contrEquiv1_symm_val dot_S336x16x16_S336x16x64_S336x16x64_2_1_1_2_0_0 16 rfl rfl k
  have el : dot_S336x16x16_S336x16x64_S336x16x64_2_1_1_2_0_0.lhsIdx (ix3 m p t) ((ValueIdx.contrEquiv1 dot_S336x16x16_S336x16x64_S336x16x64_2_1_1_2_0_0 16 rfl rfl).symm k) = ix3 m p k := funext fun a => Fin.ext (by
    match a with
    | ⟨0, _⟩ => exact lhs_pv_0 _ _
    | ⟨1, _⟩ => exact lhs_pv_1 _ _
    | ⟨2, _⟩ => exact (lhs_pv_2 _ _).trans hk)
  have er : dot_S336x16x16_S336x16x64_S336x16x64_2_1_1_2_0_0.rhsIdx (ix3 m p t) ((ValueIdx.contrEquiv1 dot_S336x16x16_S336x16x64_S336x16x64_2_1_1_2_0_0 16 rfl rfl).symm k) = ix3 m k t := funext fun a => Fin.ext (by
    match a with
    | ⟨0, _⟩ => exact rhs_pv_0 _ _
    | ⟨1, _⟩ => exact (rhs_pv_1 _ _).trans hk
    | ⟨2, _⟩ => exact rhs_pv_2 _ _)
  rw [el, er]

/-- The result at `(a, b, p, t)`: read from row `6·a + b` of the merged axis. -/
theorem out_read (P : FVec Ideal S336x16x16 .bf16) (v3 : FVec Ideal S336x16x64 .bf16) (a : Fin 56) (b : Fin 6) (p : Fin 16) (t : Fin 64) :
    outT P v3 (ix4 a b p t) = ∑ j : Fin 16, P (ix3 (mrow a b) p j) * v3 (ix3 (mrow a b) j t) := by
  unfold outT
  rw [truncf_apply]
  refine (shapeCast_apply _ shapeCasts_S336x16x64_S56x6x16x64 (ix4 a b p t) (ix3 (mrow a b) p t) ?_).trans (pv_read P v3 (mrow a b) p t)
  rw [Shape.rowMajor_val_three, Shape.rowMajor_val_four]
  rfl

/-! ## The stages land on the specification's pieces -/

theorem scores_spec (x0 x1 : Vec Ideal S56x6x16x64 .bf16) (a : Fin 56) (b : Fin 6) (p j : Fin 16) :
    scoresT (mergeT x0) (mergeT x1) (ix3 (mrow a b) p j) = Cert.Spec.score (n := 56) (h := 6) (L := 16) (d := 64) x0 x1 a b p j := by
  rw [scores_read]
  unfold Cert.Spec.score
  refine congrArg (· * Ideal.ofBits .f32 0x3E000000#32) (Finset.sum_congr rfl fun t _ => ?_)
  rw [merge_read, merge_read]

theorem rowMax_spec (x0 x1 : Vec Ideal S56x6x16x64 .bf16) (a : Fin 56) (b : Fin 6) (p : Fin 16) :
    rowMaxT (scoresT (mergeT x0) (mergeT x1)) (ix2 (mrow a b) p) = Cert.Spec.rowMax (n := 56) (h := 6) (L := 16) (d := 64) x0 x1 a b p := by
  rw [rowMax_read]
  unfold Cert.Spec.rowMax
  simp only [scores_spec]

theorem weights_spec (x0 x1 : Vec Ideal S56x6x16x64 .bf16) (a : Fin 56) (b : Fin 6) (p j : Fin 16) :
    weightsT (scoresT (mergeT x0) (mergeT x1)) (ix3 (mrow a b) p j) = Cert.Spec.weight (n := 56) (h := 6) (L := 16) (d := 64) x0 x1 a b p j := by
  rw [weights_read, scores_spec, rowMax_spec]
  rfl

theorem probs_spec (x0 x1 : Vec Ideal S56x6x16x64 .bf16) (a : Fin 56) (b : Fin 6) (p j : Fin 16) :
    probsT (weightsT (scoresT (mergeT x0) (mergeT x1))) (ix3 (mrow a b) p j) = Cert.Spec.prob (n := 56) (h := 6) (L := 16) (d := 64) x0 x1 a b p j := by
  rw [probs_read]
  unfold Cert.Spec.prob
  simp only [weights_spec]

/-- THE PAYLOAD: one block's result is the attention of the three blocks. -/
theorem temporal_payload (x0 x1 x2 : Vec Ideal S56x6x16x64 .bf16) :
    k2_pay1 (F := Ideal) x0 x1 x2 = Cert.Spec.attn (n := 56) (h := 6) (L := 16) (d := 64) x0 x1 x2 := by
  funext i
  obtain ⟨a, b, p, t, rfl⟩ : ∃ (a : Fin 56) (b : Fin 6) (p : Fin 16) (t : Fin 64), i = ix4 a b p t := ⟨i 0, i 1, i 2, i 3, eq_ix4 i⟩
  rw [payload_stages, out_read]
  show _ = ∑ j : Fin 16, Cert.Spec.prob (n := 56) (h := 6) (L := 16) (d := 64) x0 x1 a b p j * x2 (ix4 a b j t)
  refine Finset.sum_congr rfl fun j _ => ?_
  rw [probs_spec, merge_read]

/-! ## Attention reads its three arrays row by row -/

/-- Row `a` of the attention of three arrays depends only on their rows `a`: where rows agree, so do the results. -/
theorem attn_block_row (Q K W : Cert.Spec.A4 1568 6 16 64) (x0 x1 x2 : Cert.Spec.A4 56 6 16 64) (a : Fin 56) (r : Fin 1568)
    (h0 : ∀ (b : Fin 6) (p : Fin 16) (t : Fin 64), x0 (ix4 a b p t) = Q (ix4 r b p t))
    (h1 : ∀ (b : Fin 6) (p : Fin 16) (t : Fin 64), x1 (ix4 a b p t) = K (ix4 r b p t))
    (h2 : ∀ (b : Fin 6) (p : Fin 16) (t : Fin 64), x2 (ix4 a b p t) = W (ix4 r b p t))
    (b : Fin 6) (p : Fin 16) (t : Fin 64) :
    Cert.Spec.attn x0 x1 x2 (ix4 a b p t) = Cert.Spec.attn Q K W (ix4 r b p t) := by
  have hs : ∀ p j : Fin 16, Cert.Spec.score x0 x1 a b p j = Cert.Spec.score Q K r b p j := fun p j => by
    unfold Cert.Spec.score
    exact congrArg (· * Ideal.ofBits .f32 0x3E000000#32) (Finset.sum_congr rfl fun u _ => by rw [h0, h1])
  have hm : ∀ p : Fin 16, Cert.Spec.rowMax x0 x1 a b p = Cert.Spec.rowMax Q K r b p := fun p => by
    unfold Cert.Spec.rowMax
    simp only [hs]
  have hw : ∀ p j : Fin 16, Cert.Spec.weight x0 x1 a b p j = Cert.Spec.weight Q K r b p j := fun p j => by
    unfold Cert.Spec.weight
    rw [hs, hm]
  have hp : ∀ p j : Fin 16, Cert.Spec.prob x0 x1 a b p j = Cert.Spec.prob Q K r b p j := fun p j => by
    unfold Cert.Spec.prob
    simp only [hw]
  show ∑ j : Fin 16, Cert.Spec.prob x0 x1 a b p j * x2 (ix4 a b j t) = ∑ j : Fin 16, Cert.Spec.prob Q K r b p j * W (ix4 r b j t)
  exact Finset.sum_congr rfl fun j _ => by rw [hp, h2]

/-! ## From blocks to the array: grid point `t` holds rows 56·t … 56·t + 55 of every window -/

/-- The block offsets of the body's one load and one store rectangle are all zero. -/
theorem temporal_zero_offsets : (![0, 0, 0, 0] : Fin 4 → Nat) = fun _ => 0 := funext fun a => by fin_cases a <;> rfl

/-- The printed index maps, decided over the 28 grid points: every window's block index is (t, 0, 0, 0). -/
theorem temporal_index_facts : ∀ t : Fin cfg2.N,
    win2_3.index t (0 : Fin 4) = t.val ∧ win2_3.index t (1 : Fin 4) = 0 ∧ win2_3.index t (2 : Fin 4) = 0 ∧ win2_3.index t (3 : Fin 4) = 0
    ∧ win2_0.index t (0 : Fin 4) = t.val ∧ win2_0.index t (1 : Fin 4) = 0 ∧ win2_0.index t (2 : Fin 4) = 0 ∧ win2_0.index t (3 : Fin 4) = 0
    ∧ win2_1.index t (0 : Fin 4) = t.val ∧ win2_1.index t (1 : Fin 4) = 0 ∧ win2_1.index t (2 : Fin 4) = 0 ∧ win2_1.index t (3 : Fin 4) = 0
    ∧ win2_2.index t (0 : Fin 4) = t.val ∧ win2_2.index t (1 : Fin 4) = 0 ∧ win2_2.index t (2 : Fin 4) = 0 ∧ win2_2.index t (3 : Fin 4) = 0 :=
  (by decide +kernel : ∀ t : Fin grid2.N, _)

/-- Every block of 56 rows is some grid point's. -/
theorem temporal_index_onto : ∀ q : Fin 28, ∃ t : Fin cfg2.N, win2_3.index t = ![q.val, 0, 0, 0] :=
  (by decide +kernel : ∀ q : Fin 28, ∃ t : Fin grid2.N, win2_3.index t = ![q.val, 0, 0, 0])

/-- What grid point `t` writes back is block `t` (rows 56·t … 56·t + 55) of the attention of the three whole arrays. -/
theorem temporal_flushed (c : Dev nD) (t : Fin cfg2.N) :
    (dat2 (F := Ideal) V c).flushed 3 t = ((cfg2.win 3).blk t).view.read (Elt Ideal)
      (Cert.Spec.attn (n := 1568) (h := 6) (L := 16) (d := 64) (V c main_v22) (V c main_v23) (V c main_v24)) := by
  show (cfg2.win 3).cut (grid2.coords t) ((dat2 (F := Ideal) V c).after 3 t) = _
  rw [after2_3]
  unfold out2_3
  rw [View.canon_unit_zero temporal_zero_offsets]
  simp only [View.ld_unit_zero (S := S56x6x16x64) temporal_zero_offsets]
  funext j
  obtain ⟨e30, e31, e32, e33, e00, e01, e02, e03, e10, e11, e12, e13, e20, e21, e22, e23⟩ := temporal_index_facts t
  have hN : grid2.N = 28 := N_2
  have htN : t.val < grid2.N := t.isLt
  have hj0 : (j 0).val < 56 := (j 0).isLt
  have hj1 : (j 1).val < 6 := (j 1).isLt
  have hj2 : (j 2).val < 16 := (j 2).isLt
  have hj3 : (j 3).val < 64 := (j 3).isLt
  have hr : t.val * 56 + (j 0).val < 1568 := by omega
  show k2_pay1 (F := Ideal) (iblk2 V c 0 t) (iblk2 V c 1 t) (iblk2 V c 2 t) ((cfg2.win 3).xinj (grid2.coords t) j)
    = Cert.Spec.attn (n := 1568) (h := 6) (L := 16) (d := 64) (V c main_v22) (V c main_v23) (V c main_v24) (((cfg2.win 3).blk t).view.emb j)
  have ej : ((cfg2.win 3).xinj (grid2.coords t) j : S56x6x16x64.Idx)
      = ix4 (⟨(j 0).val, hj0⟩ : Fin 56) (⟨(j 1).val, hj1⟩ : Fin 6) (⟨(j 2).val, hj2⟩ : Fin 16) (⟨(j 3).val, hj3⟩ : Fin 64) :=
    funext fun a => Fin.ext (by
      match a with
      | ⟨0, _⟩ => rfl
      | ⟨1, _⟩ => rfl
      | ⟨2, _⟩ => rfl
      | ⟨3, _⟩ => rfl)
  have ei : (((cfg2.win 3).blk t).view.emb j : S1568x6x16x64.Idx)
      = ix4 (⟨t.val * 56 + (j 0).val, hr⟩ : Fin 1568) (⟨(j 1).val, hj1⟩ : Fin 6) (⟨(j 2).val, hj2⟩ : Fin 16) (⟨(j 3).val, hj3⟩ : Fin 64) :=
    funext fun a => Fin.ext (by
      match a with
      | ⟨0, _⟩ => show win2_3.index t (0 : Fin 4) * 56 + 1 * (j 0).val = t.val * 56 + (j 0).val; omega
      | ⟨1, _⟩ => show win2_3.index t (1 : Fin 4) * 6 + 1 * (j 1).val = (j 1).val; omega
      | ⟨2, _⟩ => show win2_3.index t (2 : Fin 4) * 16 + 1 * (j 2).val = (j 2).val; omega
      | ⟨3, _⟩ => show win2_3.index t (3 : Fin 4) * 64 + 1 * (j 3).val = (j 3).val; omega)
  refine (congrArg (k2_pay1 (F := Ideal) (iblk2 V c 0 t) (iblk2 V c 1 t) (iblk2 V c 2 t)) ej).trans ?_
  refine Eq.trans ?_ (congrArg (Cert.Spec.attn (n := 1568) (h := 6) (L := 16) (d := 64) (V c main_v22) (V c main_v23) (V c main_v24)) ei).symm
  refine (congrFun (temporal_payload (iblk2 V c 0 t) (iblk2 V c 1 t) (iblk2 V c 2 t)) _).trans ?_
  refine attn_block_row (V c main_v22) (V c main_v23) (V c main_v24) (iblk2 V c 0 t) (iblk2 V c 1 t) (iblk2 V c 2 t) _ _ ?_ ?_ ?_ _ _ _
  · intro b p u
    show V c main_v22 (((cfg2.win 0).blk t).view.emb (ix4 (⟨(j 0).val, hj0⟩ : Fin 56) b p u)) = V c main_v22 (ix4 (⟨t.val * 56 + (j 0).val, hr⟩ : Fin 1568) b p u)
    refine congrArg (V c main_v22) (funext fun a => Fin.ext ?_)
    match a with
    | ⟨0, _⟩ => show win2_0.index t (0 : Fin 4) * 56 + 1 * (j 0).val = t.val * 56 + (j 0).val; omega
    | ⟨1, _⟩ => show win2_0.index t (1 : Fin 4) * 6 + 1 * b.val = b.val; omega
    | ⟨2, _⟩ => show win2_0.index t (2 : Fin 4) * 16 + 1 * p.val = p.val; omega
    | ⟨3, _⟩ => show win2_0.index t (3 : Fin 4) * 64 + 1 * u.val = u.val; omega
  · intro b p u
    show V c main_v23 (((cfg2.win 1).blk t).view.emb (ix4 (⟨(j 0).val, hj0⟩ : Fin 56) b p u)) = V c main_v23 (ix4 (⟨t.val * 56 + (j 0).val, hr⟩ : Fin 1568) b p u)
    refine congrArg (V c main_v23) (funext fun a => Fin.ext ?_)
    match a with
    | ⟨0, _⟩ => show win2_1.index t (0 : Fin 4) * 56 + 1 * (j 0).val = t.val * 56 + (j 0).val; omega
    | ⟨1, _⟩ => show win2_1.index t (1 : Fin 4) * 6 + 1 * b.val = b.val; omega
    | ⟨2, _⟩ => show win2_1.index t (2 : Fin 4) * 16 + 1 * p.val = p.val; omega
    | ⟨3, _⟩ => show win2_1.index t (3 : Fin 4) * 64 + 1 * u.val = u.val; omega
  · intro b p u
    show V c main_v24 (((cfg2.win 2).blk t).view.emb (ix4 (⟨(j 0).val, hj0⟩ : Fin 56) b p u)) = V c main_v24 (ix4 (⟨t.val * 56 + (j 0).val, hr⟩ : Fin 1568) b p u)
    refine congrArg (V c main_v24) (funext fun a => Fin.ext ?_)
    match a with
    | ⟨0, _⟩ => show win2_2.index t (0 : Fin 4) * 56 + 1 * (j 0).val = t.val * 56 + (j 0).val; omega
    | ⟨1, _⟩ => show win2_2.index t (1 : Fin 4) * 6 + 1 * b.val = b.val; omega
    | ⟨2, _⟩ => show win2_2.index t (2 : Fin 4) * 16 + 1 * p.val = p.val; omega
    | ⟨3, _⟩ => show win2_2.index t (3 : Fin 4) * 64 + 1 * u.val = u.val; omega

/-- An index of the array is in point `t`'s block iff each coordinate is in the block's range on its axis. -/
theorem temporal_mem_block (t : Fin cfg2.N) (i : S1568x6x16x64.Idx) :
    i ∈ ((cfg2.win 3).blk t).view.set ↔ ∀ a : Fin 4, win2_3.index t a * S56x6x16x64.size a ≤ (i a).val ∧ (i a).val < win2_3.index t a * S56x6x16x64.size a + S56x6x16x64.size a := by
  show i ∈ ((View.whole main_v25).slice (win2_3.rect t)).set ↔ _
  rw [View.set_slice_whole, Rect.mem_set_unit]
  exact Iff.rfl

/-- Every index of the array is in some grid point's block: row `r` is in block `r / 56`. -/
theorem temporal_cover (i : S1568x6x16x64.Idx) :
    ∃ t : Fin cfg2.N, (cfg2.win 3).flush t = true ∧ i ∈ ((cfg2.win 3).blk t).view.set := by
  have hi0 : (i 0).val < 1568 := (i 0).isLt
  have hi1 : (i 1).val < 6 := (i 1).isLt
  have hi2 : (i 2).val < 16 := (i 2).isLt
  have hi3 : (i 3).val < 64 := (i 3).isLt
  obtain ⟨t, ht⟩ := temporal_index_onto ⟨(i 0).val / 56, by omega⟩
  have q0 : win2_3.index t (0 : Fin 4) = (i 0).val / 56 := congrFun ht 0
  have q1 : win2_3.index t (1 : Fin 4) = 0 := congrFun ht 1
  have q2 : win2_3.index t (2 : Fin 4) = 0 := congrFun ht 2
  have q3 : win2_3.index t (3 : Fin 4) = 0 := congrFun ht 3
  refine ⟨t, flush2_3 t, ?_⟩
  rw [temporal_mem_block]
  intro a
  match a with
  | ⟨0, _⟩ => show win2_3.index t (0 : Fin 4) * 56 ≤ (i 0).val ∧ (i 0).val < win2_3.index t (0 : Fin 4) * 56 + 56; omega
  | ⟨1, _⟩ => show win2_3.index t (1 : Fin 4) * 6 ≤ (i 1).val ∧ (i 1).val < win2_3.index t (1 : Fin 4) * 6 + 6; omega
  | ⟨2, _⟩ => show win2_3.index t (2 : Fin 4) * 16 ≤ (i 2).val ∧ (i 2).val < win2_3.index t (2 : Fin 4) * 16 + 16; omega
  | ⟨3, _⟩ => show win2_3.index t (3 : Fin 4) * 64 ≤ (i 3).val ∧ (i 3).val < win2_3.index t (3 : Fin 4) * 64 + 64; omega

end Temporal

/-- REGION 2 (temporal attention, 28 grid points of 56 rows, block [56, 6, 16, 64] recast in the body as [336, 16, 64]):
    the array the pipeline leaves in its output window is the attention of the three arrays it reads, whatever they hold
    at entry. -/
theorem temporal_array (c : Dev nD) :
    (dat2 (F := Ideal) V c).arrAt 3 cfg2.N = Cert.Spec.attn (n := 1568) (h := 6) (L := 16) (d := 64) (V c main_v22) (V c main_v23) (V c main_v24) :=
  (dat2 (F := Ideal) V c).arrAt_eq_of_cover 3 _ (fun t _ => Temporal.temporal_flushed V c t) Temporal.temporal_cover

end Cert.Regions

end
-- ==== Proof.ProjRegion.lean ====
import proofs.«151271_j19473381720281_1_alg».proof.Proof.Gen.KernelIdeal.Frame
import proofs.«151271_j19473381720281_1_alg».proof.Proof.Spec
import proofs.«151271_j19473381720281_1_alg».proof.Proof.LibPlainDot
import proofs.«151271_j19473381720281_1_alg».proof.Proof.LibRowBlockProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the extended reals: any valuation
variable (V : (c : Dev nD) → (b : Ref sig .tc) → Buf (Elt Ideal) ((c : Thread nD τ).loc b))

/-! ## The payload at an entry -/

/-- The dimension numbers of the body's product are the plain ones: rows by columns, one contracted axis. -/
theorem proj_dot_plain : PlainDot.IsPlain (R := 512) (K := 768) (N := 768) dot_S512x768_S768x768_S512x768_1_0_0_1_n_n :=
  ⟨rfl, rfl, rfl, rfl, rfl, rfl⟩

/-- The body's payload read at the entry `(p, q)`, when its first block holds the rows `o … o + 511` of an array `A`,
    its second block an array `B` and its third a bias row `b`: the product of `A` and `B` at `(o + p, q)` plus
    `b` at `(0, q)`. -/
theorem proj_payload_apply (A : Cert.Spec.A2 25088 768) (B : Cert.Spec.A2 768 768) (b : Cert.Spec.A2 1 768)
    (x0 : FVec Ideal S512x768 .bf16) (x1 : FVec Ideal S768x768 .bf16) (x2 : FVec Ideal S1x768 .f32)
    (o : ℕ) (ho : o + 512 ≤ 25088)
    (hx0 : ∀ (p : Fin 512) (k : Fin 768), x0 (ix2 p k) = A (ix2 ⟨o + p.val, by have := p.isLt; omega⟩ k))
    (hx1 : ∀ (k : Fin 768) (q : Fin 768), x1 (ix2 k q) = B (ix2 k q))
    (hx2 : ∀ q : Fin 768, x2 (ix2 (0 : Fin 1) q) = b (ix2 (0 : Fin 1) q))
    (p : Fin 512) (q : Fin 768) :
    k3_pay1 (F := Ideal) x0 x1 x2 (ix2 p q)
      = Cert.Spec.matBiasG A B b (ix2 ⟨o + p.val, by have := p.isLt; omega⟩ q) := by
  unfold k3_pay1
  rw [shapeCast_self, shapeCast_self, shapeCast_self]
  show matmul (F := Ideal) dot_S512x768_S768x768_S512x768_1_0_0_1_n_n none x0 x1 (constant S512x768 .f32 0x00000000#32) (ix2 p q)
      + broadcastTo S512x768 x2 broadcasts_S1x768_S512x768 (ix2 p q)
    = RowBlockProduct.prod A B (ix2 ⟨o + p.val, by have := p.isLt; omega⟩ q) + b (ix2 (0 : Fin 1) q)
  rw [RowBlockProduct.matmul_rows proj_dot_plain none A B x0 x1 o ho hx0 hx1 p q,
    broadcastTo_1b_ab_apply x2 broadcasts_S1x768_S512x768 p q, hx2 q]

/-! ## From blocks to the array -/

theorem proj_zero_offsets : (![0, 0] : Fin 2 → Nat) = fun _ => 0 := funext fun a => by fin_cases a <;> rfl

/-- What the output window's array ends holding: the product of the first two arrays read plus the bias row. -/
abbrev projG (c : Dev nD) : Cert.Spec.A2 25088 768 :=
  Cert.Spec.matBiasG (R := 25088) (K := 768) (N := 768) (V c main_v31) (V c main_v33) (V c main_v34)

/-- The printed index maps, decided over the 49 points: the first input and the output move down one row block per
    point and stay at column block 0; the second and third inputs stay at block (0, 0). -/
theorem proj_index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- WHAT POINT `t` WRITES BACK is block `t` of the product plus bias of the arrays as the region finds them. -/
theorem proj_flushed_eq (c : Dev nD) (t : Fin cfg3.N) :
    (dat3 (F := Ideal) V c).flushed 3 t = ((cfg3.win 3).blk t).view.read (Elt Ideal) (projG V c) := by
  show (cfg3.win 3).cut (grid3.coords t) ((dat3 (F := Ideal) V c).after 3 t) = _
  rw [after3_3]
  unfold out3_3
  rw [View.canon_unit_zero proj_zero_offsets]
  simp only [View.ld_unit_zero (S := S512x768) proj_zero_offsets, View.ld_unit_zero (S := S768x768) proj_zero_offsets,
    View.ld_unit_zero (S := S1x768) proj_zero_offsets]
  obtain ⟨e00, e01, e10, e11, e20, e21, e30, e31⟩ := proj_index_maps t
  have ht : t.val < 49 := t.isLt
  funext j
  obtain ⟨p, q, rfl⟩ : ∃ (p : Fin 512) (q : Fin 768), j = ix2 p q := ⟨j 0, j 1, eq_ix2 j⟩
  show k3_pay1 (F := Ideal) (iblk3 V c 0 t) (iblk3 V c 1 t) (iblk3 V c 2 t) (ix2 p q)
    = projG V c (((cfg3.win 3).blk t).view.emb (ix2 p q))
  have hemb : ((cfg3.win 3).blk t).view.emb (ix2 p q) = ix2 (⟨512 * t.val + p.val, by have := p.isLt; omega⟩ : Fin 25088) q := by
    funext a; apply Fin.ext
    match a with
    | ⟨0, _⟩ => show win3_3.index t (0 : Fin 2) * 512 + 1 * p.val = 512 * t.val + p.val; omega
    | ⟨1, _⟩ => show win3_3.index t (1 : Fin 2) * 768 + 1 * q.val = q.val; omega
  have h0 : ∀ (p : Fin 512) (k : Fin 768), iblk3 V c 0 t (ix2 p k)
      = V c main_v31 (ix2 (⟨512 * t.val + p.val, by have := p.isLt; omega⟩ : Fin 25088) k) := by
    intro p k
    show V c main_v31 (((cfg3.win 0).blk t).view.emb (ix2 p k)) = V c main_v31 _
    refine congrArg (V c main_v31) ?_
    funext a; apply Fin.ext
    match a with
    | ⟨0, _⟩ => show win3_0.index t (0 : Fin 2) * 512 + 1 * p.val = 512 * t.val + p.val; omega
    | ⟨1, _⟩ => show win3_0.index t (1 : Fin 2) * 768 + 1 * k.val = k.val; omega
  have h1 : ∀ (k : Fin 768) (q : Fin 768), iblk3 V c 1 t (ix2 k q) = V c main_v33 (ix2 k q) := by
    intro k q
    show V c main_v33 (((cfg3.win 1).blk t).view.emb (ix2 k q)) = V c main_v33 _
    refine congrArg (V c main_v33) ?_
    funext a; apply Fin.ext
    match a with
    | ⟨0, _⟩ => show win3_1.index t (0 : Fin 2) * 768 + 1 * k.val = k.val; omega
    | ⟨1, _⟩ => show win3_1.index t (1 : Fin 2) * 768 + 1 * q.val = q.val; omega
  have h2 : ∀ q : Fin 768, iblk3 V c 2 t (ix2 (0 : Fin 1) q) = V c main_v34 (ix2 (0 : Fin 1) q) := by
    intro q
    show V c main_v34 (((cfg3.win 2).blk t).view.emb (ix2 (0 : Fin 1) q)) = V c main_v34 _
    refine congrArg (V c main_v34) ?_
    funext a; apply Fin.ext
    match a with
    | ⟨0, _⟩ => show win3_2.index t (0 : Fin 2) * 1 + 1 * 0 = 0; omega
    | ⟨1, _⟩ => show win3_2.index t (1 : Fin 2) * 768 + 1 * q.val = q.val; omega
  refine Eq.trans ?_ (congrArg (projG V c) hemb).symm
  exact proj_payload_apply (V c main_v31) (V c main_v33) (V c main_v34) (iblk3 V c 0 t) (iblk3 V c 1 t) (iblk3 V c 2 t)
    (512 * t.val) (by omega) h0 h1 h2 p q

/-- An index of the array is in point `t`'s block iff each coordinate is in the block's range on its axis. -/
theorem proj_mem_blk (t : Fin cfg3.N) (i : S25088x768.Idx) :
    i ∈ ((cfg3.win 3).blk t).view.set ↔ ∀ a : Fin 2, win3_3.index t a * S512x768.size a ≤ (i a).val ∧ (i a).val < win3_3.index t a * S512x768.size a + S512x768.size a := by
  show i ∈ ((View.whole main_v35).slice (win3_3.rect t)).set ↔ _
  rw [View.set_slice_whole, Rect.mem_set_unit]
  exact Iff.rfl

/-- Every entry of the array is in some point's block: row `r` is in the block of point `r / 512`. -/
theorem proj_cover (i : S25088x768.Idx) :
    ∃ t : Fin cfg3.N, (cfg3.win 3).flush t = true ∧ i ∈ ((cfg3.win 3).blk t).view.set := by
  have hi0 : (i 0).val < 25088 := (i 0).isLt
  have hi1 : (i 1).val < 768 := (i 1).isLt
  let t : Fin cfg3.N := ⟨(i 0).val / 512, by show (i 0).val / 512 < 49; omega⟩
  obtain ⟨-, -, -, -, -, -, e30, e31⟩ := proj_index_maps t
  have e30' : win3_3.index t (0 : Fin 2) = (i 0).val / 512 := e30
  refine ⟨t, flush3_3 t, ?_⟩
  rw [proj_mem_blk]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 768 ≤ (i 1).val ∧ (i 1).val < win3_3.index t (1 : Fin 2) * 768 + 768; omega

/-- REGION 3 (the output projection, 49 row blocks of 512): the array the pipeline leaves in its output window is the
    plain matrix product of the first two arrays it reads plus the third, a bias row, whatever they hold at entry. -/
theorem proj_array (c : Dev nD) :
    (dat3 (F := Ideal) V c).arrAt 3 cfg3.N = Cert.Spec.matBiasG (R := 25088) (K := 768) (N := 768) (V c main_v31) (V c main_v33) (V c main_v34) :=
  (dat3 (F := Ideal) V c).arrAt_eq_of_cover 3 (projG V c) (fun t _ => proj_flushed_eq V c t) proj_cover

end Cert.Regions

end
-- ==== Proof.KernelFoldB.lean ====
/-
  The kernel's run read as values, second part: the temporal attention, the output projection and the result array, over
  the first part's layout operations and its readings of the QKV product and the spatial attention.
-/
import proofs.«151271_j19473381720281_1_alg».proof.Proof.KernelFoldA
import proofs.«151271_j19473381720281_1_alg».proof.Proof.TemporalRegion
import proofs.«151271_j19473381720281_1_alg».proof.Proof.ProjRegion

set_option maxRecDepth 16384

noncomputable section

namespace Cert.KernelFold

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Region 2 (temporal attention) -/

/-- Read off the third stretch alone: the reshape of what the temporal region's source buffer holds at the region before. -/
theorem v22_read : (V5 m ρ c main_v22 : Arr S1568x6x16x64) = toTemporal (W4 m ρ c (Proc.devRef .tc main_v13)) := by
  show StableHlo.after hostOps2 (W4 m ρ c) (Proc.devRef .tc main_v22) = _
  after_results <;> rfl
/-- … which the spatial region does not write, so it is still the last six heads of the queries. -/
theorem v22_eq : (V5 m ρ c main_v22 : Arr S1568x6x16x64) = toTemporal (headsHi (selQ (laid m ρ c))) :=
  (v22_read m ρ c).trans (congrArg toTemporal ((W4_of_ne m ρ c main_v13 (by decide)).trans (v13_eq m ρ c)))
/-- Read off the third stretch alone: the reshape of what the temporal region's source buffer holds at the region before. -/
theorem v23_read : (V5 m ρ c main_v23 : Arr S1568x6x16x64) = toTemporal (W4 m ρ c (Proc.devRef .tc main_v15)) := by
  show StableHlo.after hostOps2 (W4 m ρ c) (Proc.devRef .tc main_v23) = _
  after_results <;> rfl
/-- … which the spatial region does not write, so it is still the last six heads of the keys. -/
theorem v23_eq : (V5 m ρ c main_v23 : Arr S1568x6x16x64) = toTemporal (headsHi (selK (laid m ρ c))) :=
  (v23_read m ρ c).trans (congrArg toTemporal ((W4_of_ne m ρ c main_v15 (by decide)).trans (v15_eq m ρ c)))
/-- Read off the third stretch alone: the reshape of what the temporal region's source buffer holds at the region before. -/
theorem v24_read : (V5 m ρ c main_v24 : Arr S1568x6x16x64) = toTemporal (W4 m ρ c (Proc.devRef .tc main_v17)) := by
  show StableHlo.after hostOps2 (W4 m ρ c) (Proc.devRef .tc main_v24) = _
  after_results <;> rfl
/-- … which the spatial region does not write, so it is still the last six heads of the values. -/
theorem v24_eq : (V5 m ρ c main_v24 : Arr S1568x6x16x64) = toTemporal (headsHi (selV (laid m ρ c))) :=
  (v24_read m ρ c).trans (congrArg toTemporal ((W4_of_ne m ρ c main_v17 (by decide)).trans (v17_eq m ρ c)))

/-- The temporal attention's output array: the attention of the region's three entry arrays. -/
theorem v25_eq : (W6 m ρ c (Proc.devRef .tc main_v25) : Arr S1568x6x16x64)
    = Cert.Spec.attn (n := 1568) (h := 6) (L := 16) (d := 64) (V5 m ρ c main_v22) (V5 m ρ c main_v23) (V5 m ρ c main_v24) :=
  (W6_arr m ρ c 3).trans (Cert.Regions.temporal_array (V5 m ρ) c)

/-- The spatial output is still in its buffer when the fourth stretch reads it: neither the third stretch nor the
    temporal region writes it. -/
theorem v21_kept : W6 m ρ c (Proc.devRef .tc main_v21) = W4 m ρ c (Proc.devRef .tc main_v21) :=
  (W6_of_ne m ρ c main_v21 (by decide)).trans
    (show StableHlo.after hostOps2 (W4 m ρ c) (Proc.devRef .tc main_v21) = _ from StableHlo.after_of_forall_not_mem (b := Proc.devRef .tc main_v21) _ _ (List.forall_iff_forall_mem.mp (by
      simp only [hostOps2, List.Forall, StableHlo.nullary_writes, StableHlo.unary_writes, StableHlo.binary_writes,
        StableHlo.reshape_writes, Finset.mem_singleton]
      repeat' apply And.intro
      all_goals exact StableHlo.devRef_ne_of_ne (by decide))))

/-! ## Region 3 (the output projection) -/

/-- The weights and the bias are still as launched when the fourth stretch reads them. -/
theorem arg2_kept : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
      simp only [hostOps2, List.Forall, StableHlo.nullary_writes, StableHlo.unary_writes, StableHlo.binary_writes,
        StableHlo.reshape_writes, Finset.mem_singleton]
      repeat' apply And.intro
      all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
      simp only [hostOps0, List.Forall, StableHlo.nullary_writes, StableHlo.unary_writes, StableHlo.binary_writes,
        StableHlo.reshape_writes, Finset.mem_singleton]
      repeat' apply And.intro
      all_goals exact StableHlo.devRef_ne_of_ne (by decide)))
    _ = m ((c : Thread nD τ).loc main_arg2) := rfl
theorem arg3_kept : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
      simp only [hostOps2, List.Forall, StableHlo.nullary_writes, StableHlo.unary_writes, StableHlo.binary_writes,
        StableHlo.reshape_writes, Finset.mem_singleton]
      repeat' apply And.intro
      all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.Forall, StableHlo.nullary_writes, StableHlo.unary_writes, StableHlo.binary_writes,
        StableHlo.reshape_writes, Finset.mem_singleton]
      repeat' apply And.intro
      all_goals exact StableHlo.devRef_ne_of_ne (by decide)))
    _ = m ((c : Thread nD τ).loc main_arg3) := rfl

theorem v31_eq : (V7 m ρ c main_v31 : Arr S25088x768)
    = shapeCast S25088x768 (joinHeads (W6 m ρ c (Proc.devRef .tc main_v21)) (W6 m ρ c (Proc.devRef .tc main_v25))) shapeCasts_S8x3136x768_S25088x768 := by
  show StableHlo.after hostOps3 (W6 m ρ c) (Proc.devRef .tc main_v31) = _
  after_results <;> rfl
theorem v33_eq : (V7 m ρ c main_v33 : Arr S768x768)
    = truncf (F := Ideal) .bf16 (transpose S768x768 [1, 0] (a2 m c) transposes_S768x768_S768x768_1_0) bitsLt_bf16_f32 := by
  show StableHlo.after hostOps3 (W6 m ρ c) (Proc.devRef .tc main_v33) = _
  after_results
  rw [arg2_kept m ρ c] <;> rfl
theorem v34_eq : (V7 m ρ c main_v34 : Arr S1x768) = shapeCast S1x768 (a3 m c) shapeCasts_S768_S1x768 := by
  show StableHlo.after hostOps3 (W6 m ρ c) (Proc.devRef .tc main_v34) = _
  after_results
  rw [arg3_kept m ρ c] <;> rfl

/-- The output projection's array: the product of the joined attention outputs with the weights, plus the bias row. -/
theorem v35_eq : (W8 m ρ c (Proc.devRef .tc main_v35) : Arr S25088x768)
    = Cert.Spec.matBiasG (R := 25088) (K := 768) (N := 768) (V7 m ρ c main_v31) (V7 m ρ c main_v33) (V7 m ρ c main_v34) :=
  (W8_arr m ρ c 3).trans (Cert.Regions.proj_array (V7 m ρ) c)

/-- The result array: the projection's output reshaped to [8, 16, 196, 768]. -/
theorem v36_eq : (W9 m ρ c (Proc.devRef .tc main_v36) : Arr S8x16x196x768)
    = shapeCast S8x16x196x768 (W8 m ρ c (Proc.devRef .tc main_v35)) shapeCasts_S25088x768_S8x16x196x768 := by
  show StableHlo.after hostOps4 (W8 m ρ c) (Proc.devRef .tc main_v36) = _
  after_results <;> rfl

end Cert.KernelFold

end
-- ==== Proof.LibMergeLeading.lean ====
/-
  Merging the two leading axes of a rank-3 array, and splitting them again, read at an index (general in the sizes).

  A reshape `[a, b, c] → [a * b, c]` keeps every entry at its row-major position, so the entry at row `p * b + q`
  and column `r` of the result is the operand's entry `(p, q, r)` (`merge_apply`); the reshape back
  `[a * b, c] → [a, b, c]` reads entry `(p, q, r)` from row `p * b + q`, column `r` (`split_apply`). The merged
  row is `mergedRow`. This is what flattening a batch of matrices into one tall matrix, and unflattening the result,
  print.
-/
import Idealize.ShloMosaic.Lib.ValueIdx
import Idealize.ShloMosaic.Lib.Pipeline.Value

namespace Cert.Lib.MergeLeading

open Idealize.ShloMosaic Idealize.ShloMosaic.ValueIdx

variable {a b c n : ℕ} {α : Type}

/-- Row `p * b + q` of the merged array. -/
def mergedRow (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right _ p.isLt⟩

@[simp] theorem mergedRow_val (hn : n = a * b) (p : Fin a) (q : Fin b) : (mergedRow hn p q).val = p.val * b + q.val := rfl

/-- The merged array at row `p * b + q`, column `r`, is the operand at `(p, q, r)`. -/
theorem merge_apply (hn : n = a * b) (x : (⟨3, ![a, b, c]⟩ : Shape).Idx → α)
    (h : (⟨3, ![a, b, c]⟩ : Shape).ShapeCasts (⟨2, ![n, c]⟩ : Shape)) (p : Fin a) (q : Fin b) (r : Fin c) :
    shapeCast (⟨2, ![n, c]⟩ : Shape) x h (ix2 (mergedRow hn p q) r) = x (ix3 p q r) := by
  refine shapeCast_apply x h _ _ ?_
  rw [Shape.rowMajor_val_three, Shape.rowMajor_val_two]
  rfl

/-- The split array at `(p, q, r)` is the operand at row `p * b + q`, column `r`. -/
theorem split_apply (hn : n = a * b) (y : (⟨2, ![n, c]⟩ : Shape).Idx → α)
    (h : (⟨2, ![n, c]⟩ : Shape).ShapeCasts (⟨3, ![a, b, c]⟩ : Shape)) (p : Fin a) (q : Fin b) (r : Fin c) :
    shapeCast (⟨3, ![a, b, c]⟩ : Shape) y h (ix3 p q r) = y (ix2 (mergedRow hn p q) r) := by
  refine shapeCast_apply y h _ _ ?_
  rw [Shape.rowMajor_val_three, Shape.rowMajor_val_two]
  rfl

end Cert.Lib.MergeLeading
-- ==== Proof.LibReshapeCompose.lean ====
/-
  Reshapes compose (general in the shapes and the element type).

  A reshape keeps every entry at its row-major position, so reshaping `s → t` and then `t → u` is reshaping `s → u`
  directly: the two re-indexings compose to the one. (The library states the round trip `s → t → s`; this is the same fact
  with a third shape at the end.) It is what lets a flat `[a·b, c]` array and its `[a, b, c]` form be reshaped on to one
  common layout and compared there.
-/
import Idealize.ShloMosaic.Lib.Pipeline.Value

namespace Cert.Lib.ReshapeCompose

open Idealize.ShloMosaic

/-- A reshape of a reshape is the direct reshape. -/
theorem shapeCast_comp {s t u : Shape} {α : Type} (v : s.Idx → α) (h : s.ShapeCasts t) (h' : t.ShapeCasts u) :
    shapeCast u (shapeCast t v h) h' = shapeCast u v (h'.trans h) :=
  funext fun i => congrArg v (Shape.reshapeEquiv_reshapeEquiv _ _ i)

end Cert.Lib.ReshapeCompose
-- ==== Proof.BridgeQkv.lean ====
/-
  The QKV projection on both sides. The kernel multiplies the input flattened to [25088, 768] by the transposed weight
  [768, 2304] and reshapes the flat product [25088, 2304] to [8, 3136, 3, 12, 64]; the reference contracts the input as
  [8, 3136, 768] with the weight [2304, 768] over their last axes and reshapes [8, 3136, 2304] to the same layout. Row
  `b · 3136 + n` of the flat arrays is (batch `b`, position `n`), the transposed weight at (k, e) is the weight at (e, k),
  so the two products have the same terms, entry by entry; and a reshape of a reshape is the direct reshape, so both
  sides reach [8, 3136, 3, 12, 64] from the same array.
-/
import proofs.«151271_j19473381720281_1_alg».proof.Proof.RefRead
import proofs.«151271_j19473381720281_1_alg».proof.Proof.Spec
import proofs.«151271_j19473381720281_1_alg».proof.Proof.LibMergeLeading
import proofs.«151271_j19473381720281_1_alg».proof.Proof.LibReshapeCompose
import proofs.«151271_j19473381720281_1_alg».proof.KernelIdeal
import proofs.«151271_j19473381720281_1_alg».proof.Proof.Gen.KernelIdeal
import Idealize.ShloMosaic.Lib.Pipeline.Value
import Idealize.ShloMosaic.Lib.ValueIdx

set_option maxRecDepth 16384

noncomputable section

namespace Cert.Bridge

open Cert.ReferenceIdeal Cert.ReferenceIdeal.ReadP
open Idealize.ShloMosaic Idealize.ShloMosaic.TcCoe Idealize.ShloMosaic.ValueIdx
open Cert.Lib.MergeLeading Cert.Lib.ReshapeCompose

/-- An array over `s` at the extended reals. -/
abbrev Arr (s : Shape) : Type := s.Idx → EReal

/-- Every row of a [25088, ·] array is the merged row of a batch and a position: 25088 = 8 · 3136. -/
theorem row_split (r : Fin 25088) : ∃ (p : Fin 8) (q : Fin 3136), r = mergedRow (a := 8) (b := 3136) rfl p q :=
  ⟨⟨r.val / 3136, by have := r.isLt; omega⟩, ⟨r.val % 3136, Nat.mod_lt _ (by norm_num)⟩,
    Fin.ext (by show r.val = r.val / 3136 * 3136 + r.val % 3136; omega)⟩

/-- The kernel's transposed (and format-changed) QKV weight at (k, e) is the weight at (e, k). -/
theorem wqkvT_apply (x1 : Arr S2304x768) (k : Fin 768) (e : Fin 2304) :
    (truncf (F := Ideal) .bf16 (transpose Cert.KernelIdeal.S768x2304 [1, 0] x1 Cert.KernelIdeal.Gen.transposes_S2304x768_S768x2304_1_0)
        Cert.KernelIdeal.Gen.bitsLt_bf16_f32 : Arr Cert.KernelIdeal.S768x2304) (ix2 k e) = x1 (ix2 e k) := by
  show transpose Cert.KernelIdeal.S768x2304 [1, 0] x1 Cert.KernelIdeal.Gen.transposes_S2304x768_S768x2304_1_0 (ix2 k e) = _
  exact transpose_apply _ x1 _ (ix2 k e) (ix2 e k) (fun b => by match b with | ⟨0, _⟩ => rfl | ⟨1, _⟩ => rfl)

/-- The input flattened to [25088, 768] is the reference's [8, 3136, 768] form with its leading axes merged. -/
theorem xflat_eq (x0 : Arr S8x16x196x768) :
    (shapeCast Cert.KernelIdeal.S25088x768 x0 Cert.KernelIdeal.Gen.shapeCasts_S8x16x196x768_S25088x768 : Arr Cert.KernelIdeal.S25088x768)
      = shapeCast (⟨2, ![25088, 768]⟩ : Shape) (val_main_v0 (F := Ideal) x0) rfl := by
  unfold val_main_v0
  exact (shapeCast_comp x0 _ _).symm

/-- The flat product at the merged row of (batch p, position q) and column e is the reference's product at (p, q, e). -/
theorem flat_at (x0 : Arr S8x16x196x768) (x1 : Arr S2304x768) (p : Fin 8) (q : Fin 3136) (e : Fin 2304) :
    Cert.Spec.matG (R := 25088) (K := 768) (N := 2304)
        (shapeCast Cert.KernelIdeal.S25088x768 x0 Cert.KernelIdeal.Gen.shapeCasts_S8x16x196x768_S25088x768)
        (truncf (F := Ideal) .bf16 (transpose Cert.KernelIdeal.S768x2304 [1, 0] x1 Cert.KernelIdeal.Gen.transposes_S2304x768_S768x2304_1_0)
          Cert.KernelIdeal.Gen.bitsLt_bf16_f32)
        (ix2 (mergedRow (a := 8) (b := 3136) rfl p q) e)
      = val_main_v1 (F := Ideal) x0 x1 (ix3 p q e) := by
  rw [val_main_v1_apply]
  show ∑ k : Fin 768, _ * _ = _
  refine Finset.sum_congr rfl fun k _ => ?_
  congr 1
  · rw [xflat_eq, merge_apply (a := 8) (b := 3136) (c := 768) rfl (val_main_v0 (F := Ideal) x0) rfl p q k]
    exact congrArg _ (funext fun a => by match a with | ⟨0, _⟩ => rfl | ⟨1, _⟩ => rfl | ⟨2, _⟩ => rfl)
  · rw [wqkvT_apply]
    exact congrArg x1 (funext fun a => by match a with | ⟨0, _⟩ => rfl | ⟨1, _⟩ => rfl)

/-- The kernel's flat QKV product is the reference's product with its leading axes merged. -/
theorem flat_eq (x0 : Arr S8x16x196x768) (x1 : Arr S2304x768) :
    Cert.Spec.matG (R := 25088) (K := 768) (N := 2304)
        (shapeCast Cert.KernelIdeal.S25088x768 x0 Cert.KernelIdeal.Gen.shapeCasts_S8x16x196x768_S25088x768)
        (truncf (F := Ideal) .bf16 (transpose Cert.KernelIdeal.S768x2304 [1, 0] x1 Cert.KernelIdeal.Gen.transposes_S2304x768_S768x2304_1_0)
          Cert.KernelIdeal.Gen.bitsLt_bf16_f32)
      = shapeCast (⟨2, ![25088, 2304]⟩ : Shape) (val_main_v1 (F := Ideal) x0 x1) rfl := by
  funext i
  obtain ⟨r, e, rfl⟩ : ∃ (r : Fin 25088) (e : Fin 2304), i = ix2 r e := ⟨i 0, i 1, eq_ix2 i⟩
  obtain ⟨p, q, rfl⟩ := row_split r
  rw [flat_at, merge_apply (a := 8) (b := 3136) (c := 2304) rfl (val_main_v1 (F := Ideal) x0 x1) rfl p q e]

/-- THE QKV BRIDGE: the kernel's flat product, reshaped to [8, 3136, 3, 12, 64], is the reference's stage `main_v2`. -/
theorem qkv_bridge (x0 : Arr S8x16x196x768) (x1 : Arr S2304x768) :
    (shapeCast Cert.KernelIdeal.S8x3136x3x12x64
        (Cert.Spec.matG (R := 25088) (K := 768) (N := 2304)
          (shapeCast Cert.KernelIdeal.S25088x768 x0 Cert.KernelIdeal.Gen.shapeCasts_S8x16x196x768_S25088x768)
          (truncf (F := Ideal) .bf16 (transpose Cert.KernelIdeal.S768x2304 [1, 0] x1 Cert.KernelIdeal.Gen.transposes_S2304x768_S768x2304_1_0)
            Cert.KernelIdeal.Gen.bitsLt_bf16_f32))
        Cert.KernelIdeal.Gen.shapeCasts_S25088x2304_S8x3136x3x12x64 : Arr S8x3136x3x12x64)
      = val_main_v2 (F := Ideal) x0 x1 := by
  rw [flat_eq]
  unfold val_main_v2
  exact shapeCast_comp _ _ _

end Cert.Bridge

end
-- ==== Proof.BridgeProj.lean ====
/-
  The output projection on both sides. The kernel multiplies the joined attention outputs, flattened to [25088, 768], by
  the transposed projection weight, adds the bias as a [1, 768] row spread over the rows, and reshapes the flat result
  to [8, 16, 196, 768]; the reference contracts the [8, 3136, 768] array with the weight [768, 768] over their last axes,
  adds the bias broadcast over batch and position, and reshapes to the same layout. Row `b · 3136 + n` of the flat
  arrays is (batch `b`, position `n`), the transposed weight at (k, e) is the weight at (e, k), the bias row at
  (0, e) is the bias at e: the two sums have the same terms, entry by entry, and both sides reach the result's layout
  from the same array because a reshape of a reshape is the direct reshape.
-/
import proofs.«151271_j19473381720281_1_alg».proof.Proof.RefRead
import proofs.«151271_j19473381720281_1_alg».proof.Proof.Spec
import proofs.«151271_j19473381720281_1_alg».proof.Proof.LibMergeLeading
import proofs.«151271_j19473381720281_1_alg».proof.Proof.LibReshapeCompose
import proofs.«151271_j19473381720281_1_alg».proof.KernelIdeal
import proofs.«151271_j19473381720281_1_alg».proof.Proof.Gen.KernelIdeal
import Idealize.ShloMosaic.Lib.Pipeline.Value
import Idealize.ShloMosaic.Lib.ValueIdx

set_option maxRecDepth 16384

noncomputable section

namespace Cert.BridgeProj

open Cert.ReferenceIdeal Cert.ReferenceIdeal.ReadP
open Idealize.ShloMosaic Idealize.ShloMosaic.TcCoe Idealize.ShloMosaic.ValueIdx
open Cert.Lib.MergeLeading Cert.Lib.ReshapeCompose

/-- An array over `s` at the extended reals. -/
abbrev Arr (s : Shape) : Type := s.Idx → EReal

/-- Every row of a [25088, ·] array is the merged row of a batch and a position: 25088 = 8 · 3136. -/
theorem row_split (r : Fin 25088) : ∃ (p : Fin 8) (q : Fin 3136), r = mergedRow (a := 8) (b := 3136) rfl p q :=
  ⟨⟨r.val / 3136, by have := r.isLt; omega⟩, ⟨r.val % 3136, Nat.mod_lt _ (by norm_num)⟩,
    Fin.ext (by show r.val = r.val / 3136 * 3136 + r.val % 3136; omega)⟩

/-- The kernel's transposed (and format-changed) projection weight at (k, e) is the weight at (e, k). -/
theorem wprojT_apply (x2 : Arr S768x768) (k : Fin 768) (e : Fin 768) :
    (truncf (F := Ideal) .bf16 (transpose Cert.KernelIdeal.S768x768 [1, 0] x2 Cert.KernelIdeal.Gen.transposes_S768x768_S768x768_1_0)
        Cert.KernelIdeal.Gen.bitsLt_bf16_f32 : Arr Cert.KernelIdeal.S768x768) (ix2 k e) = x2 (ix2 e k) := by
  show transpose Cert.KernelIdeal.S768x768 [1, 0] x2 Cert.KernelIdeal.Gen.transposes_S768x768_S768x768_1_0 (ix2 k e) = _
  exact transpose_apply _ x2 _ (ix2 k e) (ix2 e k) (fun b => by match b with | ⟨0, _⟩ => rfl | ⟨1, _⟩ => rfl)

/-- The bias recast as a [1, 768] row, at (0, e), is the bias at e. -/
theorem biasRow_apply (x3 : Arr S768) (e : Fin 768) :
    (shapeCast Cert.KernelIdeal.S1x768 x3 Cert.KernelIdeal.Gen.shapeCasts_S768_S1x768 : Arr Cert.KernelIdeal.S1x768) (ix2 0 e) = x3 (ix1 e) := by
  refine shapeCast_apply x3 _ _ _ ?_
  rw [Shape.rowMajor_val_one, Shape.rowMajor_val_two]
  show e.val = 0 * 768 + e.val
  omega

/-- The reference's sum at (batch p, position q, column e): the contraction of the joined attention outputs' row with
    the weight's row e, plus the bias at e. -/
theorem ref_at (x0 : Arr S8x16x196x768) (x1 : Arr S2304x768) (x2 : Arr S768x768) (x3 : Arr S768)
    (p : Fin 8) (q : Fin 3136) (e : Fin 768) :
    val_main_v60 (F := Ideal) x0 x1 x2 x3 (ix3 p q e)
      = (∑ k : Fin 768, val_main_v56 (F := Ideal) x0 x1 (ix3 p q k) * x2 (ix2 e k)) + x3 (ix1 e) := by
  refine (val_main_v60_apply (F := Ideal) x0 x1 x2 x3 (ix3 p q e)).trans ?_
  rw [Ideal.addf_def]
  refine congrArg₂ (· + ·) ?_ ?_
  · refine (val_main_v57_apply x0 x1 x2 (ix3 p q e)).trans (Finset.sum_congr rfl fun k _ => ?_)
    refine congrArg₂ (· * ·) ?_ ?_
    · exact congrArg _ (funext fun a => by match a with | ⟨0, _⟩ => rfl | ⟨1, _⟩ => rfl | ⟨2, _⟩ => rfl)
    · exact congrArg x2 (funext fun a => by match a with | ⟨0, _⟩ => rfl | ⟨1, _⟩ => rfl)
  · refine (val_main_v59_apply (F := Ideal) x3 (ix3 p q e)).trans ((val_main_v58_apply (F := Ideal) x3 _).trans ?_)
    exact congrArg x3 (funext fun a => by match a with | ⟨0, _⟩ => rfl)

/-- The flat result at the merged row of (batch p, position q) and column e is the reference's sum at (p, q, e). -/
theorem flat_at (x0 : Arr S8x16x196x768) (x1 : Arr S2304x768) (x2 : Arr S768x768) (x3 : Arr S768)
    (p : Fin 8) (q : Fin 3136) (e : Fin 768) :
    Cert.Spec.matBiasG (R := 25088) (K := 768) (N := 768)
        (shapeCast Cert.KernelIdeal.S25088x768 (val_main_v56 (F := Ideal) x0 x1) Cert.KernelIdeal.Gen.shapeCasts_S8x3136x768_S25088x768)
        (truncf (F := Ideal) .bf16 (transpose Cert.KernelIdeal.S768x768 [1, 0] x2 Cert.KernelIdeal.Gen.transposes_S768x768_S768x768_1_0)
          Cert.KernelIdeal.Gen.bitsLt_bf16_f32)
        (shapeCast Cert.KernelIdeal.S1x768 x3 Cert.KernelIdeal.Gen.shapeCasts_S768_S1x768)
        (ix2 (mergedRow (a := 8) (b := 3136) rfl p q) e)
      = val_main_v60 (F := Ideal) x0 x1 x2 x3 (ix3 p q e) := by
  rw [ref_at]
  show (∑ k : Fin 768, _ * _) + _ = _
  refine congrArg₂ (· + ·) ?_ ?_
  · refine Finset.sum_congr rfl fun k _ => ?_
    refine congrArg₂ (· * ·) ?_ ?_
    · exact merge_apply (a := 8) (b := 3136) (c := 768) rfl (val_main_v56 (F := Ideal) x0 x1) _ p q k
    · exact wprojT_apply x2 k e
  · exact biasRow_apply x3 e

/-- The kernel's flat projection result is the reference's sum with its leading axes merged. -/
theorem flat_eq (x0 : Arr S8x16x196x768) (x1 : Arr S2304x768) (x2 : Arr S768x768) (x3 : Arr S768) :
    Cert.Spec.matBiasG (R := 25088) (K := 768) (N := 768)
        (shapeCast Cert.KernelIdeal.S25088x768 (val_main_v56 (F := Ideal) x0 x1) Cert.KernelIdeal.Gen.shapeCasts_S8x3136x768_S25088x768)
        (truncf (F := Ideal) .bf16 (transpose Cert.KernelIdeal.S768x768 [1, 0] x2 Cert.KernelIdeal.Gen.transposes_S768x768_S768x768_1_0)
          Cert.KernelIdeal.Gen.bitsLt_bf16_f32)
        (shapeCast Cert.KernelIdeal.S1x768 x3 Cert.KernelIdeal.Gen.shapeCasts_S768_S1x768)
      = shapeCast (⟨2, ![25088, 768]⟩ : Shape) (val_main_v60 (F := Ideal) x0 x1 x2 x3) rfl := by
  funext i
  obtain ⟨r, e, rfl⟩ : ∃ (r : Fin 25088) (e : Fin 768), i = ix2 r e := ⟨i 0, i 1, eq_ix2 i⟩
  obtain ⟨p, q, rfl⟩ := row_split r
  rw [flat_at, merge_apply (a := 8) (b := 3136) (c := 768) rfl (val_main_v60 (F := Ideal) x0 x1 x2 x3) rfl p q e]

/-- THE PROJECTION BRIDGE: the kernel's flat result, reshaped to [8, 16, 196, 768], is the reference's result stage. -/
theorem proj_bridge (x0 : Arr S8x16x196x768) (x1 : Arr S2304x768) (x2 : Arr S768x768) (x3 : Arr S768) :
    (shapeCast Cert.KernelIdeal.S8x16x196x768
        (Cert.Spec.matBiasG (R := 25088) (K := 768) (N := 768)
          (shapeCast Cert.KernelIdeal.S25088x768 (val_main_v56 (F := Ideal) x0 x1) Cert.KernelIdeal.Gen.shapeCasts_S8x3136x768_S25088x768)
          (truncf (F := Ideal) .bf16 (transpose Cert.KernelIdeal.S768x768 [1, 0] x2 Cert.KernelIdeal.Gen.transposes_S768x768_S768x768_1_0)
            Cert.KernelIdeal.Gen.bitsLt_bf16_f32)
          (shapeCast Cert.KernelIdeal.S1x768 x3 Cert.KernelIdeal.Gen.shapeCasts_S768_S1x768))
        Cert.KernelIdeal.Gen.shapeCasts_S25088x768_S8x16x196x768 : Arr S8x16x196x768)
      = val_main_v61 (F := Ideal) x0 x1 x2 x3 := by
  rw [flat_eq]
  unfold val_main_v61
  exact shapeCast_comp _ _ _

end Cert.BridgeProj

end
-- ==== Proof.RefSpatial.lean ====
import proofs.«151271_j19473381720281_1_alg».proof.Proof.RefRead
import proofs.«151271_j19473381720281_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefAttn

open Cert.ReferenceIdeal Cert.ReferenceIdeal.Gen Cert.ReferenceIdeal.ReadP
open Idealize.ShloMosaic Idealize.ShloMosaic.TcCoe Idealize.ShloMosaic.ValueIdx Idealize.SL.Sem Idealize.ShloMosaic.StableHlo

variable (x0 : (⟨S8x16x196x768, .f32⟩ : BufTy).Contents (Elt Ideal)) (x1 : (⟨S2304x768, .f32⟩ : BufTy).Contents (Elt Ideal))

/-- The scaled scores: stage `main_v21` at (a, b, p, j) is the specification's score of query position `p` against
    key position `j`: the contraction over the feature axis reads queries at (a, b, p, t) and keys at (a, b, j, t),
    and the broadcast scalar is the word of 1/8. -/
theorem scores_at (a : Fin 128) (b : Fin 6) (p j : Fin 196) :
    val_main_v21 (F := Ideal) x0 x1 (ix4 a b p j)
      = Cert.Spec.score (val_main_v16 (F := Ideal) x0 x1) (val_main_v17 (F := Ideal) x0 x1) a b p j := by
  rw [val_main_v21_apply, val_main_v19_apply, val_main_v20_apply, val_main_cst_apply]
  unfold Cert.Spec.score
  rw [Ideal.mulf_def, Ideal.ofBits_def]
  refine congrArg (· * _) (Finset.sum_congr rfl fun t _ => ?_)
  have el : lidx_main_v19 (ix4 a b p j) t = ix4 a b p t :=
    funext fun c => Fin.ext (by match c with | ⟨0, _⟩ => rfl | ⟨1, _⟩ => rfl | ⟨2, _⟩ => rfl | ⟨3, _⟩ => rfl)
  have er : ridx_main_v19 (ix4 a b p j) t = ix4 a b j t :=
    funext fun c => Fin.ext (by match c with | ⟨0, _⟩ => rfl | ⟨1, _⟩ => rfl | ⟨2, _⟩ => rfl | ⟨3, _⟩ => rfl)
  rw [el, er]

/-- The row maximum: stage `main_v24` at (a, b, p) is the specification's row maximum: the reduction over the key
    axis is the fold of `max` from -∞ over the scores of row (a, b, p), and the second `max` against the broadcast
    -∞ is kept as the program has it. -/
theorem rowMax_at (a : Fin 128) (b : Fin 6) (p : Fin 196) :
    val_main_v24 (F := Ideal) x0 x1 (ix3 a b p)
      = Cert.Spec.rowMax (val_main_v16 (F := Ideal) x0 x1) (val_main_v17 (F := Ideal) x0 x1) a b p := by
  rw [val_main_v24_apply, val_main_v23_apply, val_main_cst_1_apply]
  unfold Cert.Spec.rowMax
  rw [Ideal.maximumf_def, Ideal.ofBits_def]
  refine congrArg (max _) ?_
  unfold val_main_v22
  have h : S128x6x196x196.Reduces [3] S128x6x196 := by decide
  refine (Host.reduce_eq_fold_single (FloatOps.maximumf (F := Ideal) (φ := .f32)) _ _
    reducesTo_S128x6x196x196_S128x6x196_d3 h h_S_ (ix3 a b p)).trans ?_
  have hf : (val_main_v21 (F := Ideal) x0 x1 ∘ h.lift (ix3 a b p))
      = fun j : Fin 196 => Cert.Spec.score (val_main_v16 (F := Ideal) x0 x1) (val_main_v17 (F := Ideal) x0 x1) a b p j :=
    funext fun j => by
      have e : h.lift (ix3 a b p) j = ix4 a b p j :=
        funext fun c => Fin.ext (by match c with | ⟨0, _⟩ => rfl | ⟨1, _⟩ => rfl | ⟨2, _⟩ => rfl | ⟨3, _⟩ => rfl)
      show val_main_v21 (F := Ideal) x0 x1 (h.lift (ix3 a b p) j) = _
      rw [e]; exact scores_at x0 x1 a b p j
  rw [hf]
  rfl

/-- The weights: stage `main_v28` at (a, b, p, j) is `exp (score - rowMax)`: the two broadcasts of the row maximum
    ([128, 6, 196] → [128, 6, 196, 1] → [128, 6, 196, 196]) read it at (a, b, p) whatever the key position `j`. -/
theorem weights_at (a : Fin 128) (b : Fin 6) (p j : Fin 196) :
    val_main_v28 (F := Ideal) x0 x1 (ix4 a b p j)
      = Cert.Spec.weight (val_main_v16 (F := Ideal) x0 x1) (val_main_v17 (F := Ideal) x0 x1) a b p j := by
  rw [val_main_v28_apply, val_main_v27_apply, val_main_v26_apply, val_main_v25_apply]
  have e : idx_main_v25 (idx_main_v26 (ix4 a b p j)) = ix3 a b p :=
    funext fun c => Fin.ext (by match c with | ⟨0, _⟩ => rfl | ⟨1, _⟩ => rfl | ⟨2, _⟩ => rfl)
  rw [e, scores_at, rowMax_at]
  unfold Cert.Spec.weight
  rw [Ideal.hostUnary_exp_def, Ideal.subf_def]

/-- The row sum: stage `main_v29` at (a, b, p) is the sum of the weights of row (a, b, p) over the key positions;
    the sum starts from the zero word. -/
theorem rowSum_at (a : Fin 128) (b : Fin 6) (p : Fin 196) :
    val_main_v29 (F := Ideal) x0 x1 (ix3 a b p)
      = ∑ j' : Fin 196, Cert.Spec.weight (val_main_v16 (F := Ideal) x0 x1) (val_main_v17 (F := Ideal) x0 x1) a b p j' := by
  rw [val_main_v29_apply, val_main_cst_2_apply, Ideal.ofBits_def, Ideal.ofBits_zero_f32, zero_add]
  refine Finset.sum_congr rfl fun k _ => ?_
  have e : idx_main_v29 (ix3 a b p) k = ix4 a b p k :=
    funext fun c => Fin.ext (by match c with | ⟨0, _⟩ => rfl | ⟨1, _⟩ => rfl | ⟨2, _⟩ => rfl | ⟨3, _⟩ => rfl)
  rw [e, weights_at]

/-- The probabilities: stage `main_v32` at (a, b, p, j) is the weight over the row's sum of weights; the two
    broadcasts of the row sum read it at (a, b, p). -/
theorem prob_at (a : Fin 128) (b : Fin 6) (p j : Fin 196) :
    val_main_v32 (F := Ideal) x0 x1 (ix4 a b p j)
      = Cert.Spec.prob (val_main_v16 (F := Ideal) x0 x1) (val_main_v17 (F := Ideal) x0 x1) a b p j := by
  rw [val_main_v32_apply, val_main_v31_apply, val_main_v30_apply]
  have e : idx_main_v30 (idx_main_v31 (ix4 a b p j)) = ix3 a b p :=
    funext fun c => Fin.ext (by match c with | ⟨0, _⟩ => rfl | ⟨1, _⟩ => rfl | ⟨2, _⟩ => rfl)
  rw [e, weights_at, rowSum_at, Ideal.hostDivf_def]
  rfl

/-- The reference's spatial half: its stage `main_v33` (the second `dot_general` of the spatial attention) is the
    attention of its stages `main_v16`, `main_v17`, `main_v18` (queries, keys, values as [128, 6, 196, 64]). -/
theorem spatial_stage :
    (val_main_v33 (F := Ideal) x0 x1 : S128x6x196x64.Idx → EReal)
      = Cert.Spec.attn (n := 128) (h := 6) (L := 196) (d := 64) (val_main_v16 (F := Ideal) x0 x1) (val_main_v17 (F := Ideal) x0 x1) (val_main_v18 (F := Ideal) x0 x1) := by
  funext i
  obtain ⟨a, b, p, t, rfl⟩ : ∃ (a : Fin 128) (b : Fin 6) (p : Fin 196) (t : Fin 64), i = ix4 a b p t :=
    ⟨i 0, i 1, i 2, i 3, eq_ix4 i⟩
  rw [val_main_v33_apply]
  unfold Cert.Spec.attn
  -- the contraction runs over the key position: probabilities at (a, b, p, k), values at (a, b, k, t)
  refine Finset.sum_congr rfl fun k _ => ?_
  have el : lidx_main_v33 (ix4 a b p t) k = ix4 a b p k :=
    funext fun c => Fin.ext (by match c with | ⟨0, _⟩ => rfl | ⟨1, _⟩ => rfl | ⟨2, _⟩ => rfl | ⟨3, _⟩ => rfl)
  have er : ridx_main_v33 (ix4 a b p t) k = ix4 a b k t :=
    funext fun c => Fin.ext (by match c with | ⟨0, _⟩ => rfl | ⟨1, _⟩ => rfl | ⟨2, _⟩ => rfl | ⟨3, _⟩ => rfl)
  rw [el, er, prob_at]

end Cert.RefAttn

end
-- ==== Proof.RefTemporal.lean ====
import proofs.«151271_j19473381720281_1_alg».proof.Proof.RefRead
import proofs.«151271_j19473381720281_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefAttn

open Cert.ReferenceIdeal Cert.ReferenceIdeal.Gen Cert.ReferenceIdeal.ReadP
open Idealize.ShloMosaic Idealize.ShloMosaic.TcCoe Idealize.ShloMosaic.ValueIdx Idealize.SL.Sem Idealize.ShloMosaic.StableHlo

variable (x0 : (⟨S8x16x196x768, .f32⟩ : BufTy).Contents (Elt Ideal)) (x1 : (⟨S2304x768, .f32⟩ : BufTy).Contents (Elt Ideal))

/-! ## Index equations

Each composed index function of the reference's reading, taken at an index given by its coordinates, is again an index
given by coordinates: a contraction's two operands are read at the query row p (or the key row j) with the contracted
coordinate inserted; a keepdims column followed by its spread over the last axis forgets the last coordinate. -/

/-- The scores' left operand (queries) is read at batch a, head b, row p, feature k. -/
theorem lidx_scores (a : Fin 1568) (b : Fin 6) (p j : Fin 16) (k : Fin 64) :
    lidx_main_v37 (ix4 a b p j) k = ix4 a b p k :=
  funext fun e => Fin.ext (by match e with | ⟨0, _⟩ => rfl | ⟨1, _⟩ => rfl | ⟨2, _⟩ => rfl | ⟨3, _⟩ => rfl)

/-- The scores' right operand (keys) is read at batch a, head b, key row j, feature k. -/
theorem ridx_scores (a : Fin 1568) (b : Fin 6) (p j : Fin 16) (k : Fin 64) :
    ridx_main_v37 (ix4 a b p j) k = ix4 a b j k :=
  funext fun e => Fin.ext (by match e with | ⟨0, _⟩ => rfl | ⟨1, _⟩ => rfl | ⟨2, _⟩ => rfl | ⟨3, _⟩ => rfl)

/-- The row maximum, made a column and spread over the keys, is read at the row (a, b, p) whatever the key j. -/
theorem idx_max_column (a : Fin 1568) (b : Fin 6) (p j : Fin 16) :
    idx_main_v43 (idx_main_v44 (ix4 a b p j)) = ix3 a b p :=
  funext fun e => Fin.ext (by match e with | ⟨0, _⟩ => rfl | ⟨1, _⟩ => rfl | ⟨2, _⟩ => rfl)

/-- The row sum reads the weights of the row (a, b, p) at each key k. -/
theorem idx_sum (a : Fin 1568) (b : Fin 6) (p : Fin 16) (k : Fin 16) :
    idx_main_v47 (ix3 a b p) k = ix4 a b p k :=
  funext fun e => Fin.ext (by match e with | ⟨0, _⟩ => rfl | ⟨1, _⟩ => rfl | ⟨2, _⟩ => rfl | ⟨3, _⟩ => rfl)

/-- The row sum, made a column and spread over the keys, is read at the row (a, b, p) whatever the key j. -/
theorem idx_sum_column (a : Fin 1568) (b : Fin 6) (p j : Fin 16) :
    idx_main_v48 (idx_main_v49 (ix4 a b p j)) = ix3 a b p :=
  funext fun e => Fin.ext (by match e with | ⟨0, _⟩ => rfl | ⟨1, _⟩ => rfl | ⟨2, _⟩ => rfl)

/-- The output's left operand (probabilities) is read at the row (a, b, p), key k. -/
theorem lidx_out (a : Fin 1568) (b : Fin 6) (p : Fin 16) (t : Fin 64) (k : Fin 16) :
    lidx_main_v51 (ix4 a b p t) k = ix4 a b p k :=
  funext fun e => Fin.ext (by match e with | ⟨0, _⟩ => rfl | ⟨1, _⟩ => rfl | ⟨2, _⟩ => rfl | ⟨3, _⟩ => rfl)

/-- The output's right operand (values) is read at batch a, head b, key row k, feature t. -/
theorem ridx_out (a : Fin 1568) (b : Fin 6) (p : Fin 16) (t : Fin 64) (k : Fin 16) :
    ridx_main_v51 (ix4 a b p t) k = ix4 a b k t :=
  funext fun e => Fin.ext (by match e with | ⟨0, _⟩ => rfl | ⟨1, _⟩ => rfl | ⟨2, _⟩ => rfl | ⟨3, _⟩ => rfl)

/-! ## The stages, one group at a time -/

/-- The scaled scores: the contraction of the query row p with the key row j over the 64 features, times 1/8. -/
theorem score_eq (a : Fin 1568) (b : Fin 6) (p j : Fin 16) :
    val_main_v39 (F := Ideal) x0 x1 (ix4 a b p j)
      = Cert.Spec.score (val_main_v34 (F := Ideal) x0 x1) (val_main_v35 (F := Ideal) x0 x1) a b p j := by
  rw [val_main_v39_apply, val_main_v37_apply, val_main_v38_apply, val_main_cst_3_apply, Ideal.mulf_def, Ideal.ofBits_def]
  unfold Cert.Spec.score
  refine congrArg (· * _) (Finset.sum_congr rfl fun k _ => ?_)
  rw [lidx_scores, ridx_scores]

/-- The fold of the float maximum over a row is the fold of max: at the extended reals the two operations are the same. -/
theorem fold_maximumf (init : EReal) (f : Fin 16 → EReal) :
    (Finset.univ : Finset (Fin 16)).fold (FloatOps.maximumf (F := Ideal) (φ := .f32)) init f
      = (Finset.univ : Finset (Fin 16)).fold max init f := rfl

/-- The row maximum: the fold of max from -∞ over the 16 scores of the row, once more against -∞. -/
theorem rowMax_eq (a : Fin 1568) (b : Fin 6) (p : Fin 16) :
    val_main_v42 (F := Ideal) x0 x1 (ix3 a b p)
      = Cert.Spec.rowMax (val_main_v34 (F := Ideal) x0 x1) (val_main_v35 (F := Ideal) x0 x1) a b p := by
  rw [val_main_v42_apply, val_main_v41_apply, val_main_cst_5_apply, Ideal.maximumf_def, Ideal.ofBits_def]
  unfold Cert.Spec.rowMax
  refine congrArg (max _ ·) ?_
  unfold val_main_v40
  have hred : S1568x6x16x16.Reduces [3] S1568x6x16 := by decide
  refine (Host.reduce_eq_fold_single (α := EReal) (FloatOps.maximumf (F := Ideal) (φ := .f32))
    (val_main_v39 (F := Ideal) x0 x1) (val_main_cst_4 (F := Ideal))
    reducesTo_S1568x6x16x16_S1568x6x16_d3 hred h_S_ (ix3 a b p)).trans ?_
  rw [val_main_cst_4_apply, Ideal.ofBits_def]
  have hlift : ∀ j : Fin 16, hred.lift (ix3 a b p) j = ix4 a b p j := fun j => funext fun e => Fin.ext (by
    match e with | ⟨0, _⟩ => rfl | ⟨1, _⟩ => rfl | ⟨2, _⟩ => rfl | ⟨3, _⟩ => rfl)
  have hrow : (fun j : Fin 16 => val_main_v39 (F := Ideal) x0 x1 (hred.lift (ix3 a b p) j))
      = fun j : Fin 16 => Cert.Spec.score (val_main_v34 (F := Ideal) x0 x1) (val_main_v35 (F := Ideal) x0 x1) a b p j :=
    funext fun j => (congrArg (val_main_v39 (F := Ideal) x0 x1) (hlift j)).trans (score_eq x0 x1 a b p j)
  exact (congrArg (fun f : Fin 16 → EReal => (Finset.univ : Finset (Fin 16)).fold
    (FloatOps.maximumf (F := Ideal) (φ := .f32)) (Ideal.ofBits .f32 0xFF800000#32) f) hrow).trans (fold_maximumf _ _)

/-- The weights: the exponential of the score less the row maximum. -/
theorem weight_eq (a : Fin 1568) (b : Fin 6) (p j : Fin 16) :
    val_main_v46 (F := Ideal) x0 x1 (ix4 a b p j)
      = Cert.Spec.weight (val_main_v34 (F := Ideal) x0 x1) (val_main_v35 (F := Ideal) x0 x1) a b p j := by
  rw [val_main_v46_apply, val_main_v45_apply, val_main_v44_apply, val_main_v43_apply, idx_max_column, score_eq, rowMax_eq,
    Ideal.hostUnary_exp_def, Ideal.subf_def]
  rfl

/-- The row sum of the weights, from the zero word. -/
theorem rowSum_eq (a : Fin 1568) (b : Fin 6) (p : Fin 16) :
    val_main_v47 (F := Ideal) x0 x1 (ix3 a b p)
      = ∑ j' : Fin 16, Cert.Spec.weight (val_main_v34 (F := Ideal) x0 x1) (val_main_v35 (F := Ideal) x0 x1) a b p j' := by
  rw [val_main_v47_apply, val_main_cst_6_apply, Ideal.ofBits_def, Ideal.ofBits_zero_f32, zero_add]
  refine Finset.sum_congr rfl fun k _ => ?_
  rw [idx_sum, weight_eq]

/-- The probabilities: a weight over its row's sum. -/
theorem prob_eq (a : Fin 1568) (b : Fin 6) (p j : Fin 16) :
    val_main_v50 (F := Ideal) x0 x1 (ix4 a b p j)
      = Cert.Spec.prob (val_main_v34 (F := Ideal) x0 x1) (val_main_v35 (F := Ideal) x0 x1) a b p j := by
  rw [val_main_v50_apply, val_main_v49_apply, val_main_v48_apply, idx_sum_column, weight_eq, rowSum_eq, Ideal.hostDivf_def]
  rfl

/-- The reference's temporal half: its stage `main_v51` (the second `dot_general` of the temporal attention) is the
    attention of its stages `main_v34`, `main_v35`, `main_v36` (queries, keys, values as [1568, 6, 16, 64]). -/
theorem temporal_stage :
    (val_main_v51 (F := Ideal) x0 x1 : S1568x6x16x64.Idx → EReal)
      = Cert.Spec.attn (n := 1568) (h := 6) (L := 16) (d := 64) (val_main_v34 (F := Ideal) x0 x1) (val_main_v35 (F := Ideal) x0 x1) (val_main_v36 (F := Ideal) x0 x1) := by
  funext i
  obtain ⟨a, b, p, t, rfl⟩ : ∃ (a : Fin 1568) (b : Fin 6) (p : Fin 16) (t : Fin 64), i = ix4 a b p t :=
    ⟨i 0, i 1, i 2, i 3, eq_ix4 i⟩
  rw [val_main_v51_apply]
  show _ = ∑ j : Fin 16, Cert.Spec.prob (val_main_v34 (F := Ideal) x0 x1) (val_main_v35 (F := Ideal) x0 x1) a b p j
    * val_main_v36 (F := Ideal) x0 x1 (ix4 a b j t)
  refine Finset.sum_congr rfl fun k _ => ?_
  rw [lidx_out, ridx_out, prob_eq]

end Cert.RefAttn

end
-- ==== Proof.Assemble.lean ====
/-
  The kernel's result is the reference's result. Stage by stage: the laid-out QKV product is the reference's
  transposed product (the QKV bridge); the six arrays the two attentions read are cut from it by the same slices and
  reshapes on both sides, so they are the reference's; each attention region leaves the specification's attention of
  what it read, and the reference's attention stages are the same function of the same arrays; the two outputs are
  joined by the same reshapes, concatenation and transposition on both sides; and the output projection, reshaped, is
  the reference's last stage (the projection bridge). The layout operations are never opened: each such step unfolds the
  reference's stage definitions only down to the stage where the two sides meet.
-/
import proofs.«151271_j19473381720281_1_alg».proof.Proof.KernelFoldB
import proofs.«151271_j19473381720281_1_alg».proof.Proof.BridgeQkv
import proofs.«151271_j19473381720281_1_alg».proof.Proof.BridgeProj
import proofs.«151271_j19473381720281_1_alg».proof.Proof.RefSpatial
import proofs.«151271_j19473381720281_1_alg».proof.Proof.RefTemporal

set_option maxRecDepth 16384

noncomputable section

namespace Cert.Assemble

open Cert.KernelIdeal Cert.KernelIdeal.Gen Cert.KernelFold
open Idealize.ShloMosaic Idealize.ShloMosaic.TcCoe Idealize.ShloMosaic.ValueIdx Idealize.SL.Sem
open Cert.ReferenceIdeal.ReadP

variable (m : (ℓ : Loc nD τ sig) → Buf (Elt Ideal) ℓ) (ρ : Dev nD → PrngReg) (c : Dev nD)

/-- The laid-out QKV product is the reference's stage `main_v3`. -/
theorem laid_eq : (laid m ρ c : Arr S3x8x12x3136x64) = val_main_v3 (F := Ideal) (a0 m c) (a1 m c) := by
  show transpose S3x8x12x3136x64 [2, 0, 3, 1, 4]
      (shapeCast S8x3136x3x12x64 (W2 m ρ c (Proc.devRef .tc main_v3)) shapeCasts_S25088x2304_S8x3136x3x12x64)
      transposes_S8x3136x3x12x64_S3x8x12x3136x64_2_0_3_1_4 = _
  rw [v3_eq]
  show transpose S3x8x12x3136x64 [2, 0, 3, 1, 4]
      (shapeCast S8x3136x3x12x64
        (Cert.Spec.matG (R := 25088) (K := 768) (N := 2304) (V1 m ρ c main_v0) (V1 m ρ c main_v2))
        shapeCasts_S25088x2304_S8x3136x3x12x64)
      transposes_S8x3136x3x12x64_S3x8x12x3136x64_2_0_3_1_4 = _
  rw [v0_eq, v2_eq, Cert.Bridge.qkv_bridge]
  unfold val_main_v3
  rfl

/-! ## The arrays the two attentions read -/

theorem q_spatial : (V3 m ρ c main_v18 : Arr S128x6x196x64) = val_main_v16 (F := Ideal) (a0 m c) (a1 m c) := by
  rw [v18_eq, laid_eq]; unfold val_main_v16 val_main_v10 val_main_v5 val_main_v4; rfl
theorem k_spatial : (V3 m ρ c main_v19 : Arr S128x6x196x64) = val_main_v17 (F := Ideal) (a0 m c) (a1 m c) := by
  rw [v19_eq, laid_eq]; unfold val_main_v17 val_main_v12 val_main_v7 val_main_v6; rfl
theorem v_spatial : (V3 m ρ c main_v20 : Arr S128x6x196x64) = val_main_v18 (F := Ideal) (a0 m c) (a1 m c) := by
  rw [v20_eq, laid_eq]; unfold val_main_v18 val_main_v14 val_main_v9 val_main_v8; rfl
theorem q_temporal : (V5 m ρ c main_v22 : Arr S1568x6x16x64) = val_main_v34 (F := Ideal) (a0 m c) (a1 m c) := by
  rw [v22_eq, laid_eq]; unfold val_main_v34 val_main_v11 val_main_v5 val_main_v4; rfl
theorem k_temporal : (V5 m ρ c main_v23 : Arr S1568x6x16x64) = val_main_v35 (F := Ideal) (a0 m c) (a1 m c) := by
  rw [v23_eq, laid_eq]; unfold val_main_v35 val_main_v13 val_main_v7 val_main_v6; rfl
theorem v_temporal : (V5 m ρ c main_v24 : Arr S1568x6x16x64) = val_main_v36 (F := Ideal) (a0 m c) (a1 m c) := by
  rw [v24_eq, laid_eq]; unfold val_main_v36 val_main_v15 val_main_v9 val_main_v8; rfl

/-! ## The two attention outputs -/

theorem spatial_out : (W4 m ρ c (Proc.devRef .tc main_v21) : Arr S128x6x196x64) = val_main_v33 (F := Ideal) (a0 m c) (a1 m c) := by
  rw [v21_eq, q_spatial, k_spatial, v_spatial]
  exact (Cert.RefAttn.spatial_stage (a0 m c) (a1 m c)).symm
theorem temporal_out : (W6 m ρ c (Proc.devRef .tc main_v25) : Arr S1568x6x16x64) = val_main_v51 (F := Ideal) (a0 m c) (a1 m c) := by
  rw [v25_eq, q_temporal, k_temporal, v_temporal]
  exact (Cert.RefAttn.temporal_stage (a0 m c) (a1 m c)).symm

/-! ## The joined heads and the result -/

theorem joined : (joinHeads (W6 m ρ c (Proc.devRef .tc main_v21)) (W6 m ρ c (Proc.devRef .tc main_v25)) : Arr S8x3136x768)
    = val_main_v56 (F := Ideal) (a0 m c) (a1 m c) := by
  rw [v21_kept, spatial_out, temporal_out]
  unfold val_main_v56 val_main_v55 val_main_v54 val_main_v53 val_main_v52
  rfl

/-- THE KERNEL'S RESULT, as the run's last boundary holds it, is the reference's result stage of the four arguments. -/
theorem result_eq : (W9 m ρ c (Proc.devRef .tc main_v36) : Arr S8x16x196x768)
    = val_main_v61 (F := Ideal) (a0 m c) (a1 m c) (a2 m c) (a3 m c) := by
  rw [v36_eq, v35_eq, v31_eq, v33_eq, v34_eq, joined]
  exact Cert.BridgeProj.proj_bridge (a0 m c) (a1 m c) (a2 m c) (a3 m c)

end Cert.Assemble

end
-- ==== Proof.lean ====
/-
  The certificate of a split spatial / temporal attention layer against its plain reference, over the extended reals.

  Both programs compute, for an input x : [8, 16, 196, 768], weights w_qkv : [2304, 768], w_proj : [768, 768] and a
  bias b : [768]: the projection x · w_qkvᵀ laid out as (q | k | v, batch, head, position, feature); for the first six
  heads attention over the 196 patches of each frame, for the last six attention over groups of 16 positions of a raw
  row-major regrouping, each softmax(q kᵀ / 8) v with the row maximum taken from -∞; the two halves joined along the head
  axis; and the output projection (· w_projᵀ) + b. The kernel does the two projections and the two attentions in four
  tiled regions and the layout between them on the host; the reference does everything on the host.

  At the extended reals a change of float format is the identity, a tiled matrix product and a whole one are the same
  sum, and both sides take the same maximum, exponential, sum and quotient, so no law beyond re-indexing a finite sum is
  needed and the finiteness of the inputs is never opened. The frames of the two kernel programs are the generated ones;
  the reference's frame is its run with the result dropped; nothing was rewritten by the idealization, so its
  preservation claim is trivial; and the value claim joins the kernel's run (its result read off the run's last
  boundary, `Cert.Assemble.result_eq`) to the reference's run, stage by stage.
-/
import proofs.«151271_j19473381720281_1_alg».proof.Defs
import proofs.«151271_j19473381720281_1_alg».proof.Proof.Gen.Kernel
import proofs.«151271_j19473381720281_1_alg».proof.Proof.Gen.Kernel.Skeleton
import proofs.«151271_j19473381720281_1_alg».proof.Proof.Gen.Kernel.Launch
import proofs.«151271_j19473381720281_1_alg».proof.Proof.Gen.Kernel.Points
import proofs.«151271_j19473381720281_1_alg».proof.Proof.Gen.Kernel.Frame
import proofs.«151271_j19473381720281_1_alg».proof.Proof.Gen.KernelIdeal
import proofs.«151271_j19473381720281_1_alg».proof.Proof.Gen.KernelIdeal.Skeleton
import proofs.«151271_j19473381720281_1_alg».proof.Proof.Gen.KernelIdeal.Launch
import proofs.«151271_j19473381720281_1_alg».proof.Proof.Gen.KernelIdeal.Points
import proofs.«151271_j19473381720281_1_alg».proof.Proof.Gen.KernelIdeal.Frame
import proofs.«151271_j19473381720281_1_alg».proof.Proof.Gen.ReferenceIdeal
import proofs.«151271_j19473381720281_1_alg».proof.Proof.Gen.Pre_finite_inputs
import proofs.«151271_j19473381720281_1_alg».proof.Proof.KernelRun
import proofs.«151271_j19473381720281_1_alg».proof.Proof.RefRun
import proofs.«151271_j19473381720281_1_alg».proof.Proof.RefRead
import proofs.«151271_j19473381720281_1_alg».proof.Proof.Assemble
import Idealize.ShloMosaic.Adequacy
import Idealize.ShloMosaic.Init

noncomputable section

namespace Cert.Proof

open Idealize.ShloMosaic Idealize.SL.Sem

/-- The two programs, run at the extended reals from memories that agree on the four arguments, both end, with the
    result array at the reference's last stage of those arguments and the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v61 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.Assemble.result_eq m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v61_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.ValueP.run (F := Ideal) m ρ),
    trivial,
    algebraic⟩

end Cert.Proof

end
